-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x1 : Shape := ⟨2, ![100000, 1]⟩
abbrev S400000x2 : Shape := ⟨2, ![400000, 2]⟩
abbrev S150000x1 : Shape := ⟨2, ![150000, 1]⟩
abbrev S400000 : Shape := ⟨1, ![400000]⟩
abbrev S100000 : Shape := ⟨1, ![100000]⟩
abbrev S150000 : Shape := ⟨1, ![150000]⟩
abbrev S1x128 : Shape := ⟨2, ![1, 128]⟩
abbrev S128 : Shape := ⟨1, ![128]⟩
abbrev S2x128 : Shape := ⟨2, ![2, 128]⟩
abbrev S128x128 : Shape := ⟨2, ![128, 128]⟩
abbrev S4x128 : Shape := ⟨2, ![4, 128]⟩
abbrev S128x10 : Shape := ⟨2, ![128, 10]⟩
abbrev S10 : Shape := ⟨1, ![10]⟩
abbrev S_ : Shape := ⟨0, ![]⟩

class Facts : Prop where
  bcast_S_S100000x1 : S_.BroadcastsInDim S100000x1 (![] : Fin 0 → Fin S100000x1.rank)
  reducesTo_S100000x1_S_d0_1 : S100000x1.ReducesTo [0, 1] S_
  h_S_ : 0 < S_.numel
  bcast_S_S400000x2 : S_.BroadcastsInDim S400000x2 (![] : Fin 0 → Fin S400000x2.rank)
  reducesTo_S400000x2_S_d0_1 : S400000x2.ReducesTo [0, 1] S_
  bcast_S_S150000x1 : S_.BroadcastsInDim S150000x1 (![] : Fin 0 → Fin S150000x1.rank)
  reducesTo_S150000x1_S_d0_1 : S150000x1.ReducesTo [0, 1] S_
  bcast_S_S1x128 : S_.BroadcastsInDim S1x128 (![] : Fin 0 → Fin S1x128.rank)
  reducesTo_S1x128_S_d0_1 : S1x128.ReducesTo [0, 1] S_
  bcast_S_S128 : S_.BroadcastsInDim S128 (![] : Fin 0 → Fin S128.rank)
  reducesTo_S128_S_d0 : S128.ReducesTo [0] S_
  bcast_S_S2x128 : S_.BroadcastsInDim S2x128 (![] : Fin 0 → Fin S2x128.rank)
  reducesTo_S2x128_S_d0_1 : S2x128.ReducesTo [0, 1] S_
  bcast_S_S128x128 : S_.BroadcastsInDim S128x128 (![] : Fin 0 → Fin S128x128.rank)
  reducesTo_S128x128_S_d0_1 : S128x128.ReducesTo [0, 1] S_
  bcast_S_S4x128 : S_.BroadcastsInDim S4x128 (![] : Fin 0 → Fin S4x128.rank)
  reducesTo_S4x128_S_d0_1 : S4x128.ReducesTo [0, 1] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_

variable [Facts]

def fn_part6 {F : FTy → Type} [FloatOps F] (main_v98 : IVec S_ 1) (main_v101 : IVec S10 1) (main_c_39 : IVec S_ 1) : IVec S_ 1 :=
  let main_v102 : IVec S_ 1 := (fun x v => Host.reduce IntOp.andi x v reducesTo_S10_S_d0 h_S_) main_v101 main_c_39
  let main_v103 : IVec S_ 1 := andi main_v98 main_v102
  main_v103

def fn_part5 {F : FTy → Type} [FloatOps F] (main_arg25 : FVec F S128 .f32) (main_arg26 : FVec F S128x10 .f32) (main_arg27 : FVec F S10 .f32) (main_v83 : IVec S_ 1) (main_v84 : FVec F S128x128 .f32) (main_cst_32 : FVec F S_ .f32) : IVec S_ 1 :=
  let main_v85 : FVec F S128x128 .f32 := broadcastInDim S128x128 ![] bcast_S_S128x128 main_cst_32
  let main_v86 : IVec S128x128 1 := cmpf .olt main_v84 main_v85
  let main_c_33 : IVec S_ 1 := constantI S_ 1 1#1
  let main_v87 : IVec S_ 1 := (fun x v => Host.reduce IntOp.andi x v reducesTo_S128x128_S_d0_1 h_S_) main_v86 main_c_33
  let main_v88 : IVec S_ 1 := andi main_v83 main_v87
  let main_v89 : FVec F S128 .f32 := Host.absf main_arg25
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  let main_v94 : FVec F S128x10 .f32 := Host.absf main_arg26
  let main_cst_36 : FVec F S_ .f32 := constant S_ .f32 0x7F800000#32
  let main_v95 : FVec F S128x10 .f32 := broadcastInDim S128x10 ![] bcast_S_S128x10 main_cst_36
  let main_v96 : IVec S128x10 1 := cmpf .olt main_v94 main_v95
  let main_c_37 : IVec S_ 1 := constantI S_ 1 1#1
  let main_v97 : IVec S_ 1 := (fun x v => Host.reduce IntOp.andi x v reducesTo_S128x10_S_d0_1 h_S_) main_v96 main_c_37
  let main_v98 : IVec S_ 1 := andi main_v93 main_v97
  let main_v99 : FVec F S10 .f32 := Host.absf main_arg27
  let main_cst_38 : FVec F S_ .f32 := constant S_ .f32 0x7F800000#32
  let main_v100 : FVec F S10 .f32 := broadcastInDim S10 ![] bcast_S_S10 main_cst_38
  let main_v101 : IVec S10 1 := cmpf .olt main_v99 main_v100
  let main_c_39 : IVec S_ 1 := constantI S_ 1 1#1
  fn_part6 (F := F) main_v98 main_v101 main_c_39

def fn_part4 {F : FTy → Type} [FloatOps F] (main_arg21 : FVec F S128 .f32) (main_arg22 : FVec F S4x128 .f32) (main_arg23 : FVec F S128 .f32) (main_arg24 : FVec F S128x128 .f32) (main_arg25 : FVec F S128 .f32) (main_arg26 : FVec F S128x10 .f32) (main_arg27 : FVec F S10 .f32) (main_v63 : IVec S_ 1) (main_v67 : IVec S_ 1) : IVec S_ 1 :=
  let main_v68 : IVec S_ 1 := andi main_v63 main_v67
  let main_v69 : FVec F S128 .f32 := Host.absf main_arg21
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S4x128 .f32 := Host.absf main_arg22
  let main_cst_28 : FVec F S_ .f32 := constant S_ .f32 0x7F800000#32
  let main_v75 : FVec F S4x128 .f32 := broadcastInDim S4x128 ![] bcast_S_S4x128 main_cst_28
  let main_v76 : IVec S4x128 1 := cmpf .olt main_v74 main_v75
  let main_c_29 : IVec S_ 1 := constantI S_ 1 1#1
  let main_v77 : IVec S_ 1 := (fun x v => Host.reduce IntOp.andi x v reducesTo_S4x128_S_d0_1 h_S_) main_v76 main_c_29
  let main_v78 : IVec S_ 1 := andi main_v73 main_v77
  let main_v79 : FVec F S128 .f32 := Host.absf main_arg23
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128x128 .f32 := Host.absf main_arg24
  let main_cst_32 : FVec F S_ .f32 := constant S_ .f32 0x7F800000#32
  fn_part5 (F := F) main_arg25 main_arg26 main_arg27 main_v83 main_v84 main_cst_32

def fn_part3 {F : FTy → Type} [FloatOps F] (main_arg18 : FVec F S128x128 .f32) (main_arg19 : FVec F S128 .f32) (main_arg20 : FVec F S128x128 .f32) (main_arg21 : FVec F S128 .f32) (main_arg22 : FVec F S4x128 .f32) (main_arg23 : FVec F S128 .f32) (main_arg24 : FVec F S128x128 .f32) (main_arg25 : FVec F S128 .f32) (main_arg26 : FVec F S128x10 .f32) (main_arg27 : FVec F S10 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg18
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg19
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x128 .f32 := Host.absf main_arg20
  let main_cst_24 : FVec F S_ .f32 := constant S_ .f32 0x7F800000#32
  let main_v65 : FVec F S128x128 .f32 := broadcastInDim S128x128 ![] bcast_S_S128x128 main_cst_24
  let main_v66 : IVec S128x128 1 := cmpf .olt main_v64 main_v65
  let main_c_25 : IVec S_ 1 := constantI S_ 1 1#1
  let main_v67 : IVec S_ 1 := (fun x v => Host.reduce IntOp.andi x v reducesTo_S128x128_S_d0_1 h_S_) main_v66 main_c_25
  fn_part4 (F := F) main_arg21 main_arg22 main_arg23 main_arg24 main_arg25 main_arg26 main_arg27 main_v63 main_v67

def fn_part2 {F : FTy → Type} [FloatOps F] (main_arg14 : FVec F S128x128 .f32) (main_arg15 : FVec F S128 .f32) (main_arg16 : FVec F S128x128 .f32) (main_arg17 : FVec F S128 .f32) (main_arg18 : FVec F S128x128 .f32) (main_arg19 : FVec F S128 .f32) (main_arg20 : FVec F S128x128 .f32) (main_arg21 : FVec F S128 .f32) (main_arg22 : FVec F S4x128 .f32) (main_arg23 : FVec F S128 .f32) (main_arg24 : FVec F S128x128 .f32) (main_arg25 : FVec F S128 .f32) (main_arg26 : FVec F S128x10 .f32) (main_arg27 : FVec F S10 .f32) (main_v33 : IVec S_ 1) : IVec S_ 1 :=
  let main_v34 : FVec F S128x128 .f32 := Host.absf main_arg14
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg15
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg16
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg17
  let main_cst_18 : FVec F S_ .f32 := constant S_ .f32 0x7F800000#32
  let main_v50 : FVec F S128 .f32 := broadcastInDim S128 ![] bcast_S_S128 main_cst_18
  fn_part3 (F := F) main_arg18 main_arg19 main_arg20 main_arg21 main_arg22 main_arg23 main_arg24 main_arg25 main_arg26 main_arg27 main_v48 main_v49 main_v50

def fn_part1 {F : FTy → Type} [FloatOps F] (main_arg11 : FVec F S128 .f32) (main_arg12 : FVec F S2x128 .f32) (main_arg13 : FVec F S128 .f32) (main_arg14 : FVec F S128x128 .f32) (main_arg15 : FVec F S128 .f32) (main_arg16 : FVec F S128x128 .f32) (main_arg17 : FVec F S128 .f32) (main_arg18 : FVec F S128x128 .f32) (main_arg19 : FVec F S128 .f32) (main_arg20 : FVec F S128x128 .f32) (main_arg21 : FVec F S128 .f32) (main_arg22 : FVec F S4x128 .f32) (main_arg23 : FVec F S128 .f32) (main_arg24 : FVec F S128x128 .f32) (main_arg25 : FVec F S128 .f32) (main_arg26 : FVec F S128x10 .f32) (main_arg27 : FVec F S10 .f32) (main_v13 : IVec S_ 1) (main_v16 : IVec S1x128 1) : IVec S_ 1 :=
  let main_c_5 : IVec S_ 1 := constantI S_ 1 1#1
  let main_v17 : IVec S_ 1 := (fun x v => Host.reduce IntOp.andi x v reducesTo_S1x128_S_d0_1 h_S_) main_v16 main_c_5
  let main_v18 : IVec S_ 1 := andi main_v13 main_v17
  let main_v19 : FVec F S128 .f32 := Host.absf main_arg11
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S2x128 .f32 := Host.absf main_arg12
  let main_cst_8 : FVec F S_ .f32 := constant S_ .f32 0x7F800000#32
  let main_v25 : FVec F S2x128 .f32 := broadcastInDim S2x128 ![] bcast_S_S2x128 main_cst_8
  let main_v26 : IVec S2x128 1 := cmpf .olt main_v24 main_v25
  let main_c_9 : IVec S_ 1 := constantI S_ 1 1#1
  let main_v27 : IVec S_ 1 := (fun x v => Host.reduce IntOp.andi x v reducesTo_S2x128_S_d0_1 h_S_) main_v26 main_c_9
  let main_v28 : IVec S_ 1 := andi main_v23 main_v27
  let main_v29 : FVec F S128 .f32 := Host.absf main_arg13
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg14 main_arg15 main_arg16 main_arg17 main_arg18 main_arg19 main_arg20 main_arg21 main_arg22 main_arg23 main_arg24 main_arg25 main_arg26 main_arg27 main_v33

def fn {F : FTy → Type} [FloatOps F] (main_arg0 : FVec F S100000x1 .f32) (main_arg1 : FVec F S400000x2 .f32) (main_arg2 : FVec F S150000x1 .f32) (main_arg3 : IVec S400000 32) (main_arg4 : IVec S400000 32) (main_arg5 : IVec S400000 32) (main_arg6 : IVec S400000 32) (main_arg7 : IVec S100000 32) (main_arg8 : IVec S400000 32) (main_arg9 : IVec S150000 32) (main_arg10 : FVec F S1x128 .f32) (main_arg11 : FVec F S128 .f32) (main_arg12 : FVec F S2x128 .f32) (main_arg13 : FVec F S128 .f32) (main_arg14 : FVec F S128x128 .f32) (main_arg15 : FVec F S128 .f32) (main_arg16 : FVec F S128x128 .f32) (main_arg17 : FVec F S128 .f32) (main_arg18 : FVec F S128x128 .f32) (main_arg19 : FVec F S128 .f32) (main_arg20 : FVec F S128x128 .f32) (main_arg21 : FVec F S128 .f32) (main_arg22 : FVec F S4x128 .f32) (main_arg23 : FVec F S128 .f32) (main_arg24 : FVec F S128x128 .f32) (main_arg25 : FVec F S128 .f32) (main_arg26 : FVec F S128x10 .f32) (main_arg27 : FVec F S10 .f32) : IVec S_ 1 :=
  let main_v0 : FVec F S100000x1 .f32 := Host.absf main_arg0
  let main_cst : FVec F S_ .f32 := constant S_ .f32 0x7F800000#32
  let main_v1 : FVec F S100000x1 .f32 := broadcastInDim S100000x1 ![] bcast_S_S100000x1 main_cst
  let main_v2 : IVec S100000x1 1 := cmpf .olt main_v0 main_v1
  let main_c : IVec S_ 1 := constantI S_ 1 1#1
  let main_v3 : IVec S_ 1 := (fun x v => Host.reduce IntOp.andi x v reducesTo_S100000x1_S_d0_1 h_S_) main_v2 main_c
  let main_v4 : FVec F S400000x2 .f32 := Host.absf main_arg1
  let main_cst_0 : FVec F S_ .f32 := constant S_ .f32 0x7F800000#32
  let main_v5 : FVec F S400000x2 .f32 := broadcastInDim S400000x2 ![] bcast_S_S400000x2 main_cst_0
  let main_v6 : IVec S400000x2 1 := cmpf .olt main_v4 main_v5
  let main_c_1 : IVec S_ 1 := constantI S_ 1 1#1
  let main_v7 : IVec S_ 1 := (fun x v => Host.reduce IntOp.andi x v reducesTo_S400000x2_S_d0_1 h_S_) main_v6 main_c_1
  let main_v8 : IVec S_ 1 := andi main_v3 main_v7
  let main_v9 : FVec F S150000x1 .f32 := Host.absf main_arg2
  let main_cst_2 : FVec F S_ .f32 := constant S_ .f32 0x7F800000#32
  let main_v10 : FVec F S150000x1 .f32 := broadcastInDim S150000x1 ![] bcast_S_S150000x1 main_cst_2
  let main_v11 : IVec S150000x1 1 := cmpf .olt main_v9 main_v10
  let main_c_3 : IVec S_ 1 := constantI S_ 1 1#1
  let main_v12 : IVec S_ 1 := (fun x v => Host.reduce IntOp.andi x v reducesTo_S150000x1_S_d0_1 h_S_) main_v11 main_c_3
  let main_v13 : IVec S_ 1 := andi main_v8 main_v12
  let main_v14 : FVec F S1x128 .f32 := Host.absf main_arg10
  let main_cst_4 : FVec F S_ .f32 := constant S_ .f32 0x7F800000#32
  let main_v15 : FVec F S1x128 .f32 := broadcastInDim S1x128 ![] bcast_S_S1x128 main_cst_4
  let main_v16 : IVec S1x128 1 := cmpf .olt main_v14 main_v15
  fn_part1 (F := F) main_arg11 main_arg12 main_arg13 main_arg14 main_arg15 main_arg16 main_arg17 main_arg18 main_arg19 main_arg20 main_arg21 main_arg22 main_arg23 main_arg24 main_arg25 main_arg26 main_arg27 main_v13 main_v16
-- ==== Kernel.lean ====
abbrev S100000x1 : Shape := ⟨2, ![100000, 1]⟩
abbrev S400000x2 : Shape := ⟨2, ![400000, 2]⟩
abbrev S150000x1 : Shape := ⟨2, ![150000, 1]⟩
abbrev S400000 : Shape := ⟨1, ![400000]⟩
abbrev S100000 : Shape := ⟨1, ![100000]⟩
abbrev S150000 : Shape := ⟨1, ![150000]⟩
abbrev S1x128 : Shape := ⟨2, ![1, 128]⟩
abbrev S128 : Shape := ⟨1, ![128]⟩
abbrev S2x128 : Shape := ⟨2, ![2, 128]⟩
abbrev S128x128 : Shape := ⟨2, ![128, 128]⟩
abbrev S4x128 : Shape := ⟨2, ![4, 128]⟩
abbrev S128x10 : Shape := ⟨2, ![128, 10]⟩
abbrev S10 : Shape := ⟨1, ![10]⟩
abbrev S_ : Shape := ⟨0, ![]⟩
abbrev S106496x1 : Shape := ⟨2, ![106496, 1]⟩
abbrev S106496 : Shape := ⟨1, ![106496]⟩
abbrev S1x106496 : Shape := ⟨2, ![1, 106496]⟩
abbrev S401408x2 : Shape := ⟨2, ![401408, 2]⟩
abbrev S401408 : Shape := ⟨1, ![401408]⟩
abbrev S2x401408 : Shape := ⟨2, ![2, 401408]⟩
abbrev S1x401408 : Shape := ⟨2, ![1, 401408]⟩
abbrev S155648x1 : Shape := ⟨2, ![155648, 1]⟩
abbrev S155648 : Shape := ⟨1, ![155648]⟩
abbrev S1x155648 : Shape := ⟨2, ![1, 155648]⟩
abbrev S1x10 : Shape := ⟨2, ![1, 10]⟩
abbrev S64x10 : Shape := ⟨2, ![64, 10]⟩
abbrev S64x4 : Shape := ⟨2, ![64, 4]⟩
abbrev S64x3 : Shape := ⟨2, ![64, 3]⟩
abbrev S64x1 : Shape := ⟨2, ![64, 1]⟩
abbrev S1x8192 : Shape := ⟨2, ![1, 8192]⟩
abbrev S2x8192 : Shape := ⟨2, ![2, 8192]⟩
abbrev S64x8192 : Shape := ⟨2, ![64, 8192]⟩
abbrev S64x2 : Shape := ⟨2, ![64, 2]⟩
abbrev S3x8192 : Shape := ⟨2, ![3, 8192]⟩
abbrev S64x128 : Shape := ⟨2, ![64, 128]⟩

abbrev nBuf : Space → Nat
  | .hbm => 56
  | .vmem => 15
  | .smem => 0
  | _ => 0

abbrev bufTy : (tb : Table) → Fin (tcTables nBuf tb) → BufTy
  | .hbm, ⟨0, _⟩ => ⟨S100000x1, .f32⟩
  | .hbm, ⟨1, _⟩ => ⟨S400000x2, .f32⟩
  | .hbm, ⟨2, _⟩ => ⟨S150000x1, .f32⟩
  | .hbm, ⟨3, _⟩ => ⟨S400000, .i32⟩
  | .hbm, ⟨4, _⟩ => ⟨S400000, .i32⟩
  | .hbm, ⟨5, _⟩ => ⟨S400000, .i32⟩
  | .hbm, ⟨6, _⟩ => ⟨S400000, .i32⟩
  | .hbm, ⟨7, _⟩ => ⟨S100000, .i32⟩
  | .hbm, ⟨8, _⟩ => ⟨S400000, .i32⟩
  | .hbm, ⟨9, _⟩ => ⟨S150000, .i32⟩
  | .hbm, ⟨10, _⟩ => ⟨S1x128, .f32⟩
  | .hbm, ⟨11, _⟩ => ⟨S128, .f32⟩
  | .hbm, ⟨12, _⟩ => ⟨S2x128, .f32⟩
  | .hbm, ⟨13, _⟩ => ⟨S128, .f32⟩
  | .hbm, ⟨14, _⟩ => ⟨S128x128, .f32⟩
  | .hbm, ⟨15, _⟩ => ⟨S128, .f32⟩
  | .hbm, ⟨16, _⟩ => ⟨S128x128, .f32⟩
  | .hbm, ⟨17, _⟩ => ⟨S128, .f32⟩
  | .hbm, ⟨18, _⟩ => ⟨S128x128, .f32⟩
  | .hbm, ⟨19, _⟩ => ⟨S128, .f32⟩
  | .hbm, ⟨20, _⟩ => ⟨S128x128, .f32⟩
  | .hbm, ⟨21, _⟩ => ⟨S128, .f32⟩
  | .hbm, ⟨22, _⟩ => ⟨S4x128, .f32⟩
  | .hbm, ⟨23, _⟩ => ⟨S128, .f32⟩
  | .hbm, ⟨24, _⟩ => ⟨S128x128, .f32⟩
  | .hbm, ⟨25, _⟩ => ⟨S128, .f32⟩
  | .hbm, ⟨26, _⟩ => ⟨S128x10, .f32⟩
  | .hbm, ⟨27, _⟩ => ⟨S10, .f32⟩
  | .hbm, ⟨28, _⟩ => ⟨S_, .i32⟩
  | .hbm, ⟨29, _⟩ => ⟨S_, .f32⟩
  | .hbm, ⟨30, _⟩ => ⟨S106496x1, .f32⟩
  | .hbm, ⟨31, _⟩ => ⟨S_, .i32⟩
  | .hbm, ⟨32, _⟩ => ⟨S_, .i32⟩
  | .hbm, ⟨33, _⟩ => ⟨S106496, .i32⟩
  | .hbm, ⟨34, _⟩ => ⟨S1x106496, .f32⟩
  | .hbm, ⟨35, _⟩ => ⟨S1x106496, .i32⟩
  | .hbm, ⟨36, _⟩ => ⟨S_, .i32⟩
  | .hbm, ⟨37, _⟩ => ⟨S_, .f32⟩
  | .hbm, ⟨38, _⟩ => ⟨S401408x2, .f32⟩
  | .hbm, ⟨39, _⟩ => ⟨S_, .i32⟩
  | .hbm, ⟨40, _⟩ => ⟨S_, .i32⟩
  | .hbm, ⟨41, _⟩ => ⟨S401408, .i32⟩
  | .hbm, ⟨42, _⟩ => ⟨S2x401408, .f32⟩
  | .hbm, ⟨43, _⟩ => ⟨S1x401408, .i32⟩
  | .hbm, ⟨44, _⟩ => ⟨S_, .i32⟩
  | .hbm, ⟨45, _⟩ => ⟨S_, .f32⟩
  | .hbm, ⟨46, _⟩ => ⟨S155648x1, .f32⟩
  | .hbm, ⟨47, _⟩ => ⟨S_, .i32⟩
  | .hbm, ⟨48, _⟩ => ⟨S_, .i32⟩
  | .hbm, ⟨49, _⟩ => ⟨S155648, .i32⟩
  | .hbm, ⟨50, _⟩ => ⟨S1x155648, .f32⟩
  | .hbm, ⟨51, _⟩ => ⟨S1x155648, .i32⟩
  | .hbm, ⟨52, _⟩ => ⟨S1x128, .f32⟩
  | .hbm, ⟨53, _⟩ => ⟨S1x128, .f32⟩
  | .hbm, ⟨54, _⟩ => ⟨S1x10, .f32⟩
  | .hbm, ⟨55, _⟩ => ⟨S64x10, .f32⟩
  | .local _ .vmem, ⟨0, _⟩ => ⟨S1x106496, .f32⟩
  | .local _ .vmem, ⟨1, _⟩ => ⟨S1x106496, .i32⟩
  | .local _ .vmem, ⟨2, _⟩ => ⟨S2x401408, .f32⟩
  | .local _ .vmem, ⟨3, _⟩ => ⟨S1x401408, .i32⟩
  | .local _ .vmem, ⟨4, _⟩ => ⟨S1x155648, .f32⟩
  | .local _ .vmem, ⟨5, _⟩ => ⟨S1x155648, .i32⟩
  | .local _ .vmem, ⟨6, _⟩ => ⟨S4x128, .f32⟩
  | .local _ .vmem, ⟨7, _⟩ => ⟨S1x128, .f32⟩
  | .local _ .vmem, ⟨8, _⟩ => ⟨S128x128, .f32⟩
  | .local _ .vmem, ⟨9, _⟩ => ⟨S1x128, .f32⟩
  | .local _ .vmem, ⟨10, _⟩ => ⟨S128x10, .f32⟩
  | .local _ .vmem, ⟨11, _⟩ => ⟨S1x10, .f32⟩
  | .local _ .vmem, ⟨12, _⟩ => ⟨S64x10, .f32⟩
  | .local _ .vmem, ⟨13, _⟩ => ⟨S64x4, .f32⟩
  | .local _ .vmem, ⟨14, _⟩ => ⟨S64x3, .f32⟩
  | _, _ => ⟨S100000x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_c : Ref sig .tc := ⟨.hbm, 28, rfl⟩
abbrev main_call0_v0 : Ref sig .tc := ⟨.hbm, 29, rfl⟩
abbrev main_v0 : Ref sig .tc := ⟨.hbm, 30, rfl⟩
abbrev main_c_0 : Ref sig .tc := ⟨.hbm, 31, rfl⟩
abbrev main_call1_v0 : Ref sig .tc := ⟨.hbm, 32, rfl⟩
abbrev main_v1 : Ref sig .tc := ⟨.hbm, 33, rfl⟩
abbrev main_v2 : Ref sig .tc := ⟨.hbm, 34, rfl⟩
abbrev main_v3 : Ref sig .tc := ⟨.hbm, 35, rfl⟩
abbrev main_c_1 : Ref sig .tc := ⟨.hbm, 36, rfl⟩
abbrev main_call2_v0 : Ref sig .tc := ⟨.hbm, 37, rfl⟩
abbrev main_v4 : Ref sig .tc := ⟨.hbm, 38, rfl⟩
abbrev main_c_2 : Ref sig .tc := ⟨.hbm, 39, rfl⟩
abbrev main_call3_v0 : Ref sig .tc := ⟨.hbm, 40, rfl⟩
abbrev main_v5 : Ref sig .tc := ⟨.hbm, 41, rfl⟩
abbrev main_v6 : Ref sig .tc := ⟨.hbm, 42, rfl⟩
abbrev main_v7 : Ref sig .tc := ⟨.hbm, 43, rfl⟩
abbrev main_c_3 : Ref sig .tc := ⟨.hbm, 44, rfl⟩
abbrev main_call4_v0 : Ref sig .tc := ⟨.hbm, 45, rfl⟩
abbrev main_v8 : Ref sig .tc := ⟨.hbm, 46, rfl⟩
abbrev main_c_4 : Ref sig .tc := ⟨.hbm, 47, rfl⟩
abbrev main_call5_v0 : Ref sig .tc := ⟨.hbm, 48, rfl⟩
abbrev main_v9 : Ref sig .tc := ⟨.hbm, 49, rfl⟩
abbrev main_v10 : Ref sig .tc := ⟨.hbm, 50, rfl⟩
abbrev main_v11 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := ⟨1, ![3], ![false]⟩

def k0_cond4 (i : grid0.Coords) : BitVec 1 :=
  let arg0 : BitVec 32 := BitVec.ofNat 32 (i 0).val
  let c2_i32 : BitVec 32 := 2#32
  let v9 : BitVec 1 := Scalar.cmpi .eq arg0 c2_i32
  let v10 : BitVec 32 := Scalar.extui v9
  let c0_i32_4 : BitVec 32 := 0#32
  let v11 : BitVec 1 := Scalar.cmpi .ne v10 c0_i32_4
  v11

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x106496 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x106496 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x401408 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x401408 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x155648 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x155648 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x10 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x10 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S64x10 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

class Facts₀ : Prop where
  pads_S100000x1_S106496x1_064960_000 : S100000x1.Pads (![0, 0] : Fin 2 → Nat) ![6496, 0] ![0, 0] S106496x1
  h_S_ : 0 < S_.numel
  pads_S100000_S106496_064960 : S100000.Pads (![0] : Fin 1 → Nat) ![6496] ![0] S106496
  shapeCasts_S106496x1_S1x106496 : S106496x1.ShapeCasts S1x106496
  shapeCasts_S106496_S1x106496 : S106496.ShapeCasts S1x106496
  pads_S400000x2_S401408x2_014080_000 : S400000x2.Pads (![0, 0] : Fin 2 → Nat) ![1408, 0] ![0, 0] S401408x2
  pads_S400000_S401408_014080 : S400000.Pads (![0] : Fin 1 → Nat) ![1408] ![0] S401408
  transposes_S401408x2_S2x401408_1_0 : S401408x2.Transposes [1, 0] S2x401408
  shapeCasts_S401408_S1x401408 : S401408.ShapeCasts S1x401408
  pads_S150000x1_S155648x1_056480_000 : S150000x1.Pads (![0, 0] : Fin 2 → Nat) ![5648, 0] ![0, 0] S155648x1
  pads_S150000_S155648_056480 : S150000.Pads (![0] : Fin 1 → Nat) ![5648] ![0] S155648
  shapeCasts_S155648x1_S1x155648 : S155648x1.ShapeCasts S1x155648
  shapeCasts_S155648_S1x155648 : S155648.ShapeCasts S1x155648
  shapeCasts_S128_S1x128 : S128.ShapeCasts S1x128
  shapeCasts_S10_S1x10 : S10.ShapeCasts S1x10
  inb_S64x4_S64x4_0_0 : ∀ a, (![0, 0] : Fin 2 → Nat) a + S64x4.size a ≤ S64x4.size a
  h_S64x4 : 0 < S64x4.numel
  shapeCasts_S64x4_S64x4 : S64x4.ShapeCasts S64x4
  inb_S64x3_S64x3_0_0 : ∀ a, (![0, 0] : Fin 2 → Nat) a + S64x3.size a ≤ S64x3.size a
  h_S64x3 : 0 < S64x3.numel
  shapeCasts_S64x3_S64x3 : S64x3.ShapeCasts S64x3
  inb_S1x106496_S1x106496_0_0 : ∀ a, (![0, 0] : Fin 2 → Nat) a + S1x106496.size a ≤ S1x106496.size a
  h_S1x106496 : 0 < S1x106496.numel
  shapeCasts_S1x106496_S1x106496 : S1x106496.ShapeCasts S1x106496
  inb_S64x4_S64x1_0_0 : ∀ a, (![0, 0] : Fin 2 → Nat) a + S64x1.size a ≤ S64x4.size a
  h_S64x1 : 0 < S64x1.numel
  inb_S64x3_S64x1_0_0 : ∀ a, (![0, 0] : Fin 2 → Nat) a + S64x1.size a ≤ S64x3.size a
  slices_S1x106496_o0_0_S1x8192 : S1x106496.Slices ![0, 0] S1x8192
  concatenates_S1x8192_S1x8192_S2x8192_d0 : Shape.Concatenates [S1x8192, S1x8192] S2x8192 0
  iota_S64x8192_d0_w32 : S64x8192.Iotas .tc 32 [0]
  broadcasts_S1x8192_S64x8192 : S1x8192.Broadcasts S64x8192
  natLt_1_32 : 1 < 32
  slices_S64x2_o0_0_S64x1 : S64x2.Slices ![0, 0] S64x1
  slices_S64x2_o0_1_S64x1 : S64x2.Slices ![0, 1] S64x1
  slices_S1x106496_o0_8192_S1x8192 : S1x106496.Slices ![0, 8192] S1x8192
  slices_S1x106496_o0_16384_S1x8192 : S1x106496.Slices ![0, 16384] S1x8192
  slices_S1x106496_o0_24576_S1x8192 : S1x106496.Slices ![0, 24576] S1x8192
  slices_S1x106496_o0_32768_S1x8192 : S1x106496.Slices ![0, 32768] S1x8192
  slices_S1x106496_o0_40960_S1x8192 : S1x106496.Slices ![0, 40960] S1x8192
  slices_S1x106496_o0_49152_S1x8192 : S1x106496.Slices ![0, 49152] S1x8192
  slices_S1x106496_o0_57344_S1x8192 : S1x106496.Slices ![0, 57344] S1x8192
  slices_S1x106496_o0_65536_S1x8192 : S1x106496.Slices ![0, 65536] S1x8192
  slices_S1x106496_o0_73728_S1x8192 : S1x106496.Slices ![0, 73728] S1x8192
  slices_S1x106496_o0_81920_S1x8192 : S1x106496.Slices ![0, 81920] S1x8192
  slices_S1x106496_o0_90112_S1x8192 : S1x106496.Slices ![0, 90112] S1x8192
  slices_S1x106496_o0_98304_S1x8192 : S1x106496.Slices ![0, 98304] S1x8192
  shapeCasts_S64x1_S64x1 : S64x1.ShapeCasts S64x1
  inb_S2x401408_S2x401408_0_0 : ∀ a, (![0, 0] : Fin 2 → Nat) a + S2x401408.size a ≤ S2x401408.size a
  h_S2x401408 : 0 < S2x401408.numel
  shapeCasts_S2x401408_S2x401408 : S2x401408.ShapeCasts S2x401408
  inb_S1x401408_S1x401408_0_0 : ∀ a, (![0, 0] : Fin 2 → Nat) a + S1x401408.size a ≤ S1x401408.size a
  h_S1x401408 : 0 < S1x401408.numel
  shapeCasts_S1x401408_S1x401408 : S1x401408.ShapeCasts S1x401408
  inb_S64x4_S64x2_0_1 : ∀ a, (![0, 1] : Fin 2 → Nat) a + S64x2.size a ≤ S64x4.size a
  h_S64x2 : 0 < S64x2.numel
  inb_S64x3_S64x1_0_1 : ∀ a, (![0, 1] : Fin 2 → Nat) a + S64x1.size a ≤ S64x3.size a
  slices_S2x401408_o0_0_S2x8192 : S2x401408.Slices ![0, 0] S2x8192
  slices_S1x401408_o0_0_S1x8192 : S1x401408.Slices ![0, 0] S1x8192
  concatenates_S2x8192_S1x8192_S3x8192_d0 : Shape.Concatenates [S2x8192, S1x8192] S3x8192 0
  slices_S64x3_o0_0_S64x2 : S64x3.Slices ![0, 0] S64x2
  slices_S64x3_o0_2_S64x1 : S64x3.Slices ![0, 2] S64x1
  slices_S2x401408_o0_8192_S2x8192 : S2x401408.Slices ![0, 8192] S2x8192
  slices_S1x401408_o0_8192_S1x8192 : S1x401408.Slices ![0, 8192] S1x8192
  slices_S2x401408_o0_16384_S2x8192 : S2x401408.Slices ![0, 16384] S2x8192
  slices_S1x401408_o0_16384_S1x8192 : S1x401408.Slices ![0, 16384] S1x8192
  slices_S2x401408_o0_24576_S2x8192 : S2x401408.Slices ![0, 24576] S2x8192
  slices_S1x401408_o0_24576_S1x8192 : S1x401408.Slices ![0, 24576] S1x8192
  slices_S2x401408_o0_32768_S2x8192 : S2x401408.Slices ![0, 32768] S2x8192
  slices_S1x401408_o0_32768_S1x8192 : S1x401408.Slices ![0, 32768] S1x8192
  slices_S2x401408_o0_40960_S2x8192 : S2x401408.Slices ![0, 40960] S2x8192
  slices_S1x401408_o0_40960_S1x8192 : S1x401408.Slices ![0, 40960] S1x8192
  slices_S2x401408_o0_49152_S2x8192 : S2x401408.Slices ![0, 49152] S2x8192
  slices_S1x401408_o0_49152_S1x8192 : S1x401408.Slices ![0, 49152] S1x8192
  slices_S2x401408_o0_57344_S2x8192 : S2x401408.Slices ![0, 57344] S2x8192
  slices_S1x401408_o0_57344_S1x8192 : S1x401408.Slices ![0, 57344] S1x8192
  slices_S2x401408_o0_65536_S2x8192 : S2x401408.Slices ![0, 65536] S2x8192
  slices_S1x401408_o0_65536_S1x8192 : S1x401408.Slices ![0, 65536] S1x8192
  slices_S2x401408_o0_73728_S2x8192 : S2x401408.Slices ![0, 73728] S2x8192
  slices_S1x401408_o0_73728_S1x8192 : S1x401408.Slices ![0, 73728] S1x8192
  slices_S2x401408_o0_81920_S2x8192 : S2x401408.Slices ![0, 81920] S2x8192
  slices_S1x401408_o0_81920_S1x8192 : S1x401408.Slices ![0, 81920] S1x8192
  slices_S2x401408_o0_90112_S2x8192 : S2x401408.Slices ![0, 90112] S2x8192
  slices_S1x401408_o0_90112_S1x8192 : S1x401408.Slices ![0, 90112] S1x8192
  slices_S2x401408_o0_98304_S2x8192 : S2x401408.Slices ![0, 98304] S2x8192
  slices_S1x401408_o0_98304_S1x8192 : S1x401408.Slices ![0, 98304] S1x8192
  slices_S2x401408_o0_106496_S2x8192 : S2x401408.Slices ![0, 106496] S2x8192
  slices_S1x401408_o0_106496_S1x8192 : S1x401408.Slices ![0, 106496] S1x8192
  slices_S2x401408_o0_114688_S2x8192 : S2x401408.Slices ![0, 114688] S2x8192
  slices_S1x401408_o0_114688_S1x8192 : S1x401408.Slices ![0, 114688] S1x8192
  slices_S2x401408_o0_122880_S2x8192 : S2x401408.Slices ![0, 122880] S2x8192
  slices_S1x401408_o0_122880_S1x8192 : S1x401408.Slices ![0, 122880] S1x8192
  slices_S2x401408_o0_131072_S2x8192 : S2x401408.Slices ![0, 131072] S2x8192
  slices_S1x401408_o0_131072_S1x8192 : S1x401408.Slices ![0, 131072] S1x8192
  slices_S2x401408_o0_139264_S2x8192 : S2x401408.Slices ![0, 139264] S2x8192
  slices_S1x401408_o0_139264_S1x8192 : S1x401408.Slices ![0, 139264] S1x8192
  slices_S2x401408_o0_147456_S2x8192 : S2x401408.Slices ![0, 147456] S2x8192
  slices_S1x401408_o0_147456_S1x8192 : S1x401408.Slices ![0, 147456] S1x8192
  slices_S2x401408_o0_155648_S2x8192 : S2x401408.Slices ![0, 155648] S2x8192
  slices_S1x401408_o0_155648_S1x8192 : S1x401408.Slices ![0, 155648] S1x8192
  slices_S2x401408_o0_163840_S2x8192 : S2x401408.Slices ![0, 163840] S2x8192
  slices_S1x401408_o0_163840_S1x8192 : S1x401408.Slices ![0, 163840] S1x8192
  slices_S2x401408_o0_172032_S2x8192 : S2x401408.Slices ![0, 172032] S2x8192
  slices_S1x401408_o0_172032_S1x8192 : S1x401408.Slices ![0, 172032] S1x8192
  slices_S2x401408_o0_180224_S2x8192 : S2x401408.Slices ![0, 180224] S2x8192
  slices_S1x401408_o0_180224_S1x8192 : S1x401408.Slices ![0, 180224] S1x8192
  slices_S2x401408_o0_188416_S2x8192 : S2x401408.Slices ![0, 188416] S2x8192
  slices_S1x401408_o0_188416_S1x8192 : S1x401408.Slices ![0, 188416] S1x8192
  slices_S2x401408_o0_196608_S2x8192 : S2x401408.Slices ![0, 196608] S2x8192
  slices_S1x401408_o0_196608_S1x8192 : S1x401408.Slices ![0, 196608] S1x8192
  slices_S2x401408_o0_204800_S2x8192 : S2x401408.Slices ![0, 204800] S2x8192
  slices_S1x401408_o0_204800_S1x8192 : S1x401408.Slices ![0, 204800] S1x8192
  slices_S2x401408_o0_212992_S2x8192 : S2x401408.Slices ![0, 212992] S2x8192
  slices_S1x401408_o0_212992_S1x8192 : S1x401408.Slices ![0, 212992] S1x8192
  slices_S2x401408_o0_221184_S2x8192 : S2x401408.Slices ![0, 221184] S2x8192
  slices_S1x401408_o0_221184_S1x8192 : S1x401408.Slices ![0, 221184] S1x8192
  slices_S2x401408_o0_229376_S2x8192 : S2x401408.Slices ![0, 229376] S2x8192
  slices_S1x401408_o0_229376_S1x8192 : S1x401408.Slices ![0, 229376] S1x8192
  slices_S2x401408_o0_237568_S2x8192 : S2x401408.Slices ![0, 237568] S2x8192
  slices_S1x401408_o0_237568_S1x8192 : S1x401408.Slices ![0, 237568] S1x8192
  slices_S2x401408_o0_245760_S2x8192 : S2x401408.Slices ![0, 245760] S2x8192
  slices_S1x401408_o0_245760_S1x8192 : S1x401408.Slices ![0, 245760] S1x8192
  slices_S2x401408_o0_253952_S2x8192 : S2x401408.Slices ![0, 253952] S2x8192
  slices_S1x401408_o0_253952_S1x8192 : S1x401408.Slices ![0, 253952] S1x8192
  slices_S2x401408_o0_262144_S2x8192 : S2x401408.Slices ![0, 262144] S2x8192
  slices_S1x401408_o0_262144_S1x8192 : S1x401408.Slices ![0, 262144] S1x8192
  slices_S2x401408_o0_270336_S2x8192 : S2x401408.Slices ![0, 270336] S2x8192
  slices_S1x401408_o0_270336_S1x8192 : S1x401408.Slices ![0, 270336] S1x8192
  slices_S2x401408_o0_278528_S2x8192 : S2x401408.Slices ![0, 278528] S2x8192
  slices_S1x401408_o0_278528_S1x8192 : S1x401408.Slices ![0, 278528] S1x8192
  slices_S2x401408_o0_286720_S2x8192 : S2x401408.Slices ![0, 286720] S2x8192
  slices_S1x401408_o0_286720_S1x8192 : S1x401408.Slices ![0, 286720] S1x8192
  slices_S2x401408_o0_294912_S2x8192 : S2x401408.Slices ![0, 294912] S2x8192
  slices_S1x401408_o0_294912_S1x8192 : S1x401408.Slices ![0, 294912] S1x8192
  slices_S2x401408_o0_303104_S2x8192 : S2x401408.Slices ![0, 303104] S2x8192
  slices_S1x401408_o0_303104_S1x8192 : S1x401408.Slices ![0, 303104] S1x8192
  slices_S2x401408_o0_311296_S2x8192 : S2x401408.Slices ![0, 311296] S2x8192
  slices_S1x401408_o0_311296_S1x8192 : S1x401408.Slices ![0, 311296] S1x8192
  slices_S2x401408_o0_319488_S2x8192 : S2x401408.Slices ![0, 319488] S2x8192
  slices_S1x401408_o0_319488_S1x8192 : S1x401408.Slices ![0, 319488] S1x8192
  slices_S2x401408_o0_327680_S2x8192 : S2x401408.Slices ![0, 327680] S2x8192
  slices_S1x401408_o0_327680_S1x8192 : S1x401408.Slices ![0, 327680] S1x8192
  slices_S2x401408_o0_335872_S2x8192 : S2x401408.Slices ![0, 335872] S2x8192
  slices_S1x401408_o0_335872_S1x8192 : S1x401408.Slices ![0, 335872] S1x8192
  slices_S2x401408_o0_344064_S2x8192 : S2x401408.Slices ![0, 344064] S2x8192
  slices_S1x401408_o0_344064_S1x8192 : S1x401408.Slices ![0, 344064] S1x8192
  slices_S2x401408_o0_352256_S2x8192 : S2x401408.Slices ![0, 352256] S2x8192
  slices_S1x401408_o0_352256_S1x8192 : S1x401408.Slices ![0, 352256] S1x8192
  slices_S2x401408_o0_360448_S2x8192 : S2x401408.Slices ![0, 360448] S2x8192
  slices_S1x401408_o0_360448_S1x8192 : S1x401408.Slices ![0, 360448] S1x8192
  slices_S2x401408_o0_368640_S2x8192 : S2x401408.Slices ![0, 368640] S2x8192
  slices_S1x401408_o0_368640_S1x8192 : S1x401408.Slices ![0, 368640] S1x8192
  slices_S2x401408_o0_376832_S2x8192 : S2x401408.Slices ![0, 376832] S2x8192
  slices_S1x401408_o0_376832_S1x8192 : S1x401408.Slices ![0, 376832] S1x8192
  slices_S2x401408_o0_385024_S2x8192 : S2x401408.Slices ![0, 385024] S2x8192
  slices_S1x401408_o0_385024_S1x8192 : S1x401408.Slices ![0, 385024] S1x8192
  slices_S2x401408_o0_393216_S2x8192 : S2x401408.Slices ![0, 393216] S2x8192
  slices_S1x401408_o0_393216_S1x8192 : S1x401408.Slices ![0, 393216] S1x8192
  shapeCasts_S64x2_S64x2 : S64x2.ShapeCasts S64x2
  inb_S1x155648_S1x155648_0_0 : ∀ a, (![0, 0] : Fin 2 → Nat) a + S1x155648.size a ≤ S1x155648.size a
  h_S1x155648 : 0 < S1x155648.numel
  shapeCasts_S1x155648_S1x155648 : S1x155648.ShapeCasts S1x155648
  inb_S64x4_S64x1_0_3 : ∀ a, (![0, 3] : Fin 2 → Nat) a + S64x1.size a ≤ S64x4.size a
  inb_S64x3_S64x1_0_2 : ∀ a, (![0, 2] : Fin 2 → Nat) a + S64x1.size a ≤ S64x3.size a
  slices_S1x155648_o0_0_S1x8192 : S1x155648.Slices ![0, 0] S1x8192
  slices_S1x155648_o0_8192_S1x8192 : S1x155648.Slices ![0, 8192] S1x8192
  slices_S1x155648_o0_16384_S1x8192 : S1x155648.Slices ![0, 16384] S1x8192
  slices_S1x155648_o0_24576_S1x8192 : S1x155648.Slices ![0, 24576] S1x8192
  slices_S1x155648_o0_32768_S1x8192 : S1x155648.Slices ![0, 32768] S1x8192
  slices_S1x155648_o0_40960_S1x8192 : S1x155648.Slices ![0, 40960] S1x8192
  slices_S1x155648_o0_49152_S1x8192 : S1x155648.Slices ![0, 49152] S1x8192
  slices_S1x155648_o0_57344_S1x8192 : S1x155648.Slices ![0, 57344] S1x8192
  slices_S1x155648_o0_65536_S1x8192 : S1x155648.Slices ![0, 65536] S1x8192
  slices_S1x155648_o0_73728_S1x8192 : S1x155648.Slices ![0, 73728] S1x8192
  slices_S1x155648_o0_81920_S1x8192 : S1x155648.Slices ![0, 81920] S1x8192
  slices_S1x155648_o0_90112_S1x8192 : S1x155648.Slices ![0, 90112] S1x8192
  slices_S1x155648_o0_98304_S1x8192 : S1x155648.Slices ![0, 98304] S1x8192
  slices_S1x155648_o0_106496_S1x8192 : S1x155648.Slices ![0, 106496] S1x8192
  slices_S1x155648_o0_114688_S1x8192 : S1x155648.Slices ![0, 114688] S1x8192
  slices_S1x155648_o0_122880_S1x8192 : S1x155648.Slices ![0, 122880] S1x8192
  slices_S1x155648_o0_131072_S1x8192 : S1x155648.Slices ![0, 131072] S1x8192
  slices_S1x155648_o0_139264_S1x8192 : S1x155648.Slices ![0, 139264] S1x8192
  slices_S1x155648_o0_147456_S1x8192 : S1x155648.Slices ![0, 147456] S1x8192
  concatenates_S64x1_S64x1_S64x1_S64x1_S64x4_d1 : Shape.Concatenates [S64x1, S64x1, S64x1, S64x1] S64x4 1
  inb_S4x128_S4x128_0_0 : ∀ a, (![0, 0] : Fin 2 → Nat) a + S4x128.size a ≤ S4x128.size a
  h_S4x128 : 0 < S4x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S64x128 : S1x128.Broadcasts S64x128
  inb_S128x128_S128x128_0_0 : ∀ a, (![0, 0] : Fin 2 → Nat) a + S128x128.size a ≤ S128x128.size a
  h_S128x128 : 0 < S128x128.numel
  inb_S128x10_S128x10_0_0 : ∀ a, (![0, 0] : Fin 2 → Nat) a + S128x10.size a ≤ S128x10.size a
  h_S128x10 : 0 < S128x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S64x10 : S1x10.Broadcasts S64x10
  inb_S64x10_S64x10_0_0 : ∀ a, (![0, 0] : Fin 2 → Nat) a + S64x10.size a ≤ S64x10.size a
  h_S64x10 : 0 < S64x10.numel
  dot_S64x8192_S2x8192_S64x2_1_1_0_0_n_n_wf : DotDims.WF S64x8192 S2x8192 S64x2 [1] [1] [0] [0] [] []
  dot_S64x8192_S3x8192_S64x3_1_1_0_0_n_n_wf : DotDims.WF S64x8192 S3x8192 S64x3 [1] [1] [0] [0] [] []
  dot_S64x4_S4x128_S64x128_1_0_0_1_n_n_wf : DotDims.WF S64x4 S4x128 S64x128 [1] [0] [0] [1] [] []
  dot_S64x128_S128x128_S64x128_1_0_0_1_n_n_wf : DotDims.WF S64x128 S128x128 S64x128 [1] [0] [0] [1] [] []
  dot_S64x128_S128x10_S64x10_1_0_0_1_n_n_wf : DotDims.WF S64x128 S128x10 S64x10 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x106496.size a ≤ S1x106496.size a
  hwx0_0 : ∀ i : grid0.Coords, EltTy.bits .f32 = 32 ∨ (Rect.block (s := S1x106496) S1x106496.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x106496.size a ≤ S1x106496.size a
  hwx0_1 : ∀ i : grid0.Coords, EltTy.bits .i32 = 32 ∨ (Rect.block (s := S1x106496) S1x106496.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2x401408.size a ≤ S2x401408.size a
  hwx0_2 : ∀ i : grid0.Coords, EltTy.bits .f32 = 32 ∨ (Rect.block (s := S2x401408) S2x401408.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x401408.size a ≤ S1x401408.size a
  hwx0_3 : ∀ i : grid0.Coords, EltTy.bits .i32 = 32 ∨ (Rect.block (s := S1x401408) S1x401408.size (cc0_transform_3 i) (hinb0_3 i)).WholeWords (EltTy.packing .i32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x155648.size a ≤ S1x155648.size a
  hwx0_4 : ∀ i : grid0.Coords, EltTy.bits .f32 = 32 ∨ (Rect.block (s := S1x155648) S1x155648.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x155648.size a ≤ S1x155648.size a
  hwx0_5 : ∀ i : grid0.Coords, EltTy.bits .i32 = 32 ∨ (Rect.block (s := S1x155648) S1x155648.size (cc0_transform_5 i) (hinb0_5 i)).WholeWords (EltTy.packing .i32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S4x128.size a ≤ S4x128.size a
  hwx0_6 : ∀ i : grid0.Coords, EltTy.bits .f32 = 32 ∨ (Rect.block (s := S4x128) S4x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x128.size a ≤ S128x128.size a
  hwx0_8 : ∀ i : grid0.Coords, EltTy.bits .f32 = 32 ∨ (Rect.block (s := S128x128) S128x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128x10.size a ≤ S128x10.size a
  hwx0_10 : ∀ i : grid0.Coords, EltTy.bits .f32 = 32 ∨ (Rect.block (s := S128x10) S128x10.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x10.size a ≤ S1x10.size a
  hwx0_11 : ∀ i : grid0.Coords, EltTy.bits .f32 = 32 ∨ (Rect.block (s := S1x10) S1x10.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S64x10.size a ≤ S64x10.size a
  hwx0_12 : ∀ i : grid0.Coords, EltTy.bits .f32 = 32 ∨ (Rect.block (s := S64x10) S64x10.size (cc0_transform_12 i) (hinb0_12 i)).WholeWords (EltTy.packing .f32)

variable [Facts₀]

def dot_S64x8192_S2x8192_S64x2_1_1_0_0_n_n : DotDims S64x8192 S2x8192 S64x2 where
  lhsContracting := [1]
  rhsContracting := [1]
  lhsNonContracting := [0]
  rhsNonContracting := [0]
  lhsBatch := []
  rhsBatch := []
  wf := dot_S64x8192_S2x8192_S64x2_1_1_0_0_n_n_wf
def dot_S64x8192_S3x8192_S64x3_1_1_0_0_n_n : DotDims S64x8192 S3x8192 S64x3 where
  lhsContracting := [1]
  rhsContracting := [1]
  lhsNonContracting := [0]
  rhsNonContracting := [0]
  lhsBatch := []
  rhsBatch := []
  wf := dot_S64x8192_S3x8192_S64x3_1_1_0_0_n_n_wf
def dot_S64x4_S4x128_S64x128_1_0_0_1_n_n : DotDims S64x4 S4x128 S64x128 where
  lhsContracting := [1]
  rhsContracting := [0]
  lhsNonContracting := [0]
  rhsNonContracting := [1]
  lhsBatch := []
  rhsBatch := []
  wf := dot_S64x4_S4x128_S64x128_1_0_0_1_n_n_wf
def dot_S64x128_S128x128_S64x128_1_0_0_1_n_n : DotDims S64x128 S128x128 S64x128 where
  lhsContracting := [1]
  rhsContracting := [0]
  lhsNonContracting := [0]
  rhsNonContracting := [1]
  lhsBatch := []
  rhsBatch := []
  wf := dot_S64x128_S128x128_S64x128_1_0_0_1_n_n_wf
def dot_S64x128_S128x10_S64x10_1_0_0_1_n_n : DotDims S64x128 S128x10 S64x10 where
  lhsContracting := [1]
  rhsContracting := [0]
  lhsNonContracting := [0]
  rhsNonContracting := [1]
  lhsBatch := []
  rhsBatch := []
  wf := dot_S64x128_S128x10_S64x10_1_0_0_1_n_n_wf

abbrev win0_0 : Pipeline.Window sig grid0 :=
  Pipeline.Window.ofSpec (Memref.whole main_v2) S1x106496.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1x106496.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S2x401408.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1x401408.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S1x155648.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v11) S1x155648.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg22) S4x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v12) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg24) S128x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v13) S1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg26) S128x10.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v14) S1x10.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v15) S64x10.size cc0_transform_12 reads0_12 true true 1 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

abbrev idle0 : Fin 13 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun _ => false | 12 => fun i => !(k0_cond4 i == 1#1) | ⟨_ + 13, h⟩ => absurd h (Nat.not_lt.2 (Nat.le_add_left _ _))

class Facts : Prop extends Facts₀ where

variable [Facts]
-- ==== ReferenceIdeal.lean ====
abbrev S100000x1 : Shape := ⟨2, ![100000, 1]⟩
abbrev S400000x2 : Shape := ⟨2, ![400000, 2]⟩
abbrev S150000x1 : Shape := ⟨2, ![150000, 1]⟩
abbrev S400000 : Shape := ⟨1, ![400000]⟩
abbrev S100000 : Shape := ⟨1, ![100000]⟩
abbrev S150000 : Shape := ⟨1, ![150000]⟩
abbrev S1x128 : Shape := ⟨2, ![1, 128]⟩
abbrev S128 : Shape := ⟨1, ![128]⟩
abbrev S2x128 : Shape := ⟨2, ![2, 128]⟩
abbrev S128x128 : Shape := ⟨2, ![128, 128]⟩
abbrev S4x128 : Shape := ⟨2, ![4, 128]⟩
abbrev S128x10 : Shape := ⟨2, ![128, 10]⟩
abbrev S10 : Shape := ⟨1, ![10]⟩
abbrev S100000x128 : Shape := ⟨2, ![100000, 128]⟩
abbrev S_ : Shape := ⟨0, ![]⟩
abbrev S400000x1 : Shape := ⟨2, ![400000, 1]⟩
abbrev S400000x128 : Shape := ⟨2, ![400000, 128]⟩
abbrev S150000x128 : Shape := ⟨2, ![150000, 128]⟩
abbrev S64x1 : Shape := ⟨2, ![64, 1]⟩
abbrev S64x2 : Shape := ⟨2, ![64, 2]⟩
abbrev S64x4 : Shape := ⟨2, ![64, 4]⟩
abbrev S64x128 : Shape := ⟨2, ![64, 128]⟩
abbrev S64x10 : Shape := ⟨2, ![64, 10]⟩
abbrev S1x10 : Shape := ⟨2, ![1, 10]⟩

abbrev nBuf : Space → Nat
  | .hbm => 150
  | .vmem => 0
  | .smem => 0
  | _ => 0

abbrev hbmTy0_0 (i : Nat) : BufTy := match i % 128 with
  | 0 => ⟨S100000x1, .f32⟩
  | 1 => ⟨S400000x2, .f32⟩
  | 2 => ⟨S150000x1, .f32⟩
  | 3 => ⟨S400000, .i32⟩
  | 4 => ⟨S400000, .i32⟩
  | 5 => ⟨S400000, .i32⟩
  | 6 => ⟨S400000, .i32⟩
  | 7 => ⟨S100000, .i32⟩
  | 8 => ⟨S400000, .i32⟩
  | 9 => ⟨S150000, .i32⟩
  | 10 => ⟨S1x128, .f32⟩
  | 11 => ⟨S128, .f32⟩
  | 12 => ⟨S2x128, .f32⟩
  | 13 => ⟨S128, .f32⟩
  | 14 => ⟨S128x128, .f32⟩
  | 15 => ⟨S128, .f32⟩
  | 16 => ⟨S128x128, .f32⟩
  | 17 => ⟨S128, .f32⟩
  | 18 => ⟨S128x128, .f32⟩
  | 19 => ⟨S128, .f32⟩
  | 20 => ⟨S128x128, .f32⟩
  | 21 => ⟨S128, .f32⟩
  | 22 => ⟨S4x128, .f32⟩
  | 23 => ⟨S128, .f32⟩
  | 24 => ⟨S128x128, .f32⟩
  | 25 => ⟨S128, .f32⟩
  | 26 => ⟨S128x10, .f32⟩
  | 27 => ⟨S10, .f32⟩
  | 28 => ⟨S100000x128, .f32⟩
  | 29 => ⟨S_, .i32⟩
  | 30 => ⟨S400000, .i32⟩
  | 31 => ⟨S400000, .i1⟩
  | 32 => ⟨S_, .i32⟩
  | 33 => ⟨S400000, .i32⟩
  | 34 => ⟨S400000, .i32⟩
  | 35 => ⟨S400000, .i32⟩
  | 36 => ⟨S400000x1, .i32⟩
  | 37 => ⟨S400000x128, .f32⟩
  | 38 => ⟨S_, .f32⟩
  | 39 => ⟨S400000x128, .f32⟩
  | 40 => ⟨S400000x1, .i32⟩
  | 41 => ⟨S400000x128, .f32⟩
  | 42 => ⟨S1x128, .f32⟩
  | 43 => ⟨S400000x128, .f32⟩
  | 44 => ⟨S400000x128, .f32⟩
  | 45 => ⟨S_, .f32⟩
  | 46 => ⟨S400000x128, .f32⟩
  | 47 => ⟨S400000x128, .f32⟩
  | 48 => ⟨S400000x128, .f32⟩
  | 49 => ⟨S_, .i32⟩
  | 50 => ⟨S400000, .i32⟩
  | 51 => ⟨S400000, .i1⟩
  | 52 => ⟨S_, .i32⟩
  | 53 => ⟨S400000, .i32⟩
  | 54 => ⟨S400000, .i32⟩
  | 55 => ⟨S400000, .i32⟩
  | 56 => ⟨S400000x1, .i32⟩
  | 57 => ⟨S400000x128, .f32⟩
  | 58 => ⟨S_, .f32⟩
  | 59 => ⟨S150000x128, .f32⟩
  | 60 => ⟨S400000x1, .i32⟩
  | 61 => ⟨S150000x128, .f32⟩
  | 62 => ⟨S1x128, .f32⟩
  | 63 => ⟨S150000x128, .f32⟩
  | 64 => ⟨S150000x128, .f32⟩
  | 65 => ⟨S_, .f32⟩
  | 66 => ⟨S150000x128, .f32⟩
  | 67 => ⟨S150000x128, .f32⟩
  | 68 => ⟨S400000x128, .f32⟩
  | 69 => ⟨S_, .i32⟩
  | 70 => ⟨S400000, .i32⟩
  | 71 => ⟨S400000, .i1⟩
  | 72 => ⟨S_, .i32⟩
  | 73 => ⟨S400000, .i32⟩
  | 74 => ⟨S400000, .i32⟩
  | 75 => ⟨S400000, .i32⟩
  | 76 => ⟨S400000x1, .i32⟩
  | 77 => ⟨S400000x128, .f32⟩
  | 78 => ⟨S_, .f32⟩
  | 79 => ⟨S150000x128, .f32⟩
  | 80 => ⟨S400000x1, .i32⟩
  | 81 => ⟨S150000x128, .f32⟩
  | 82 => ⟨S1x128, .f32⟩
  | 83 => ⟨S150000x128, .f32⟩
  | 84 => ⟨S150000x128, .f32⟩
  | 85 => ⟨S_, .f32⟩
  | 86 => ⟨S150000x128, .f32⟩
  | 87 => ⟨S150000x128, .f32⟩
  | 88 => ⟨S_, .f32⟩
  | 89 => ⟨S64x1, .f32⟩
  | 90 => ⟨S100000x1, .i32⟩
  | 91 => ⟨S64x1, .f32⟩
  | 92 => ⟨S_, .f32⟩
  | 93 => ⟨S100000x1, .f32⟩
  | 94 => ⟨S_, .f32⟩
  | 95 => ⟨S64x1, .f32⟩
  | 96 => ⟨S100000x1, .i32⟩
  | 97 => ⟨S64x1, .f32⟩
  | 98 => ⟨S_, .f32⟩
  | 99 => ⟨S64x1, .f32⟩
  | 100 => ⟨S64x1, .f32⟩
  | 101 => ⟨S64x1, .f32⟩
  | 102 => ⟨S_, .f32⟩
  | 103 => ⟨S64x2, .f32⟩
  | 104 => ⟨S400000x1, .i32⟩
  | 105 => ⟨S64x2, .f32⟩
  | 106 => ⟨S_, .f32⟩
  | 107 => ⟨S400000x1, .f32⟩
  | 108 => ⟨S_, .f32⟩
  | 109 => ⟨S64x1, .f32⟩
  | 110 => ⟨S400000x1, .i32⟩
  | 111 => ⟨S64x1, .f32⟩
  | 112 => ⟨S_, .f32⟩
  | 113 => ⟨S64x1, .f32⟩
  | 114 => ⟨S64x1, .f32⟩
  | 115 => ⟨S64x2, .f32⟩
  | 116 => ⟨S64x2, .f32⟩
  | 117 => ⟨S_, .f32⟩
  | 118 => ⟨S64x1, .f32⟩
  | 119 => ⟨S150000x1, .i32⟩
  | 120 => ⟨S64x1, .f32⟩
  | 121 => ⟨S_, .f32⟩
  | 122 => ⟨S150000x1, .f32⟩
  | 123 => ⟨S_, .f32⟩
  | 124 => ⟨S64x1, .f32⟩
  | 125 => ⟨S150000x1, .i32⟩
  | 126 => ⟨S64x1, .f32⟩
  | 127 => ⟨S_, .f32⟩
  | _ => ⟨S100000x1, .f32⟩

abbrev hbmTy0_1 (i : Nat) : BufTy := match i % 128 with
  | 0 => ⟨S64x1, .f32⟩
  | 1 => ⟨S64x1, .f32⟩
  | 2 => ⟨S64x1, .f32⟩
  | 3 => ⟨S64x4, .f32⟩
  | 4 => ⟨S64x128, .f32⟩
  | 5 => ⟨S1x128, .f32⟩
  | 6 => ⟨S64x128, .f32⟩
  | 7 => ⟨S64x128, .f32⟩
  | 8 => ⟨S_, .f32⟩
  | 9 => ⟨S64x128, .f32⟩
  | 10 => ⟨S64x128, .f32⟩
  | 11 => ⟨S64x128, .f32⟩
  | 12 => ⟨S1x128, .f32⟩
  | 13 => ⟨S64x128, .f32⟩
  | 14 => ⟨S64x128, .f32⟩
  | 15 => ⟨S_, .f32⟩
  | 16 => ⟨S64x128, .f32⟩
  | 17 => ⟨S64x128, .f32⟩
  | 18 => ⟨S64x10, .f32⟩
  | 19 => ⟨S1x10, .f32⟩
  | 20 => ⟨S64x10, .f32⟩
  | 21 => ⟨S64x10, .f32⟩
  | _ => ⟨S100000x1, .f32⟩

abbrev hbmTy (i : Nat) : BufTy := match i / 128 with
  | 0 => hbmTy0_0 i
  | 1 => hbmTy0_1 i
  | _ => ⟨S100000x1, .f32⟩

abbrev bufTy : (tb : Table) → Fin (tcTables nBuf tb) → BufTy
  | .hbm, ⟨i, _⟩ => hbmTy i
  | _, _ => ⟨S100000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_v0 : Ref sig .tc := ⟨.hbm, 28, rfl⟩
abbrev main_c : Ref sig .tc := ⟨.hbm, 29, rfl⟩
abbrev main_v1 : Ref sig .tc := ⟨.hbm, 30, rfl⟩
abbrev main_v2 : Ref sig .tc := ⟨.hbm, 31, rfl⟩
abbrev main_c_0 : Ref sig .tc := ⟨.hbm, 32, rfl⟩
abbrev main_v3 : Ref sig .tc := ⟨.hbm, 33, rfl⟩
abbrev main_v4 : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩
abbrev main_cst : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_call0_cst : Ref sig .tc := ⟨.hbm, 45, rfl⟩
abbrev main_call0_v0 : Ref sig .tc := ⟨.hbm, 46, rfl⟩
abbrev main_v14 : Ref sig .tc := ⟨.hbm, 47, rfl⟩
abbrev main_v15 : Ref sig .tc := ⟨.hbm, 48, rfl⟩
abbrev main_c_1 : Ref sig .tc := ⟨.hbm, 49, rfl⟩
abbrev main_v16 : Ref sig .tc := ⟨.hbm, 50, rfl⟩
abbrev main_v17 : Ref sig .tc := ⟨.hbm, 51, rfl⟩
abbrev main_c_2 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_cst_3 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_call1_cst : Ref sig .tc := ⟨.hbm, 65, rfl⟩
abbrev main_call1_v0 : Ref sig .tc := ⟨.hbm, 66, rfl⟩
abbrev main_v29 : Ref sig .tc := ⟨.hbm, 67, rfl⟩
abbrev main_v30 : Ref sig .tc := ⟨.hbm, 68, rfl⟩
abbrev main_c_4 : Ref sig .tc := ⟨.hbm, 69, rfl⟩
abbrev main_v31 : Ref sig .tc := ⟨.hbm, 70, rfl⟩
abbrev main_v32 : Ref sig .tc := ⟨.hbm, 71, rfl⟩
abbrev main_c_5 : Ref sig .tc := ⟨.hbm, 72, rfl⟩
abbrev main_v33 : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_cst_6 : Ref sig .tc := ⟨.hbm, 78, rfl⟩
abbrev main_v38 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev main_call2_cst : Ref sig .tc := ⟨.hbm, 85, rfl⟩
abbrev main_call2_v0 : Ref sig .tc := ⟨.hbm, 86, rfl⟩
abbrev main_v44 : Ref sig .tc := ⟨.hbm, 87, rfl⟩
abbrev main_cst_7 : Ref sig .tc := ⟨.hbm, 88, rfl⟩
abbrev main_v45 : Ref sig .tc := ⟨.hbm, 89, rfl⟩
abbrev main_v46 : Ref sig .tc := ⟨.hbm, 90, rfl⟩
abbrev main_v47 : Ref sig .tc := ⟨.hbm, 91, rfl⟩
abbrev main_cst_8 : Ref sig .tc := ⟨.hbm, 92, rfl⟩
abbrev main_v48 : Ref sig .tc := ⟨.hbm, 93, rfl⟩
abbrev main_cst_9 : Ref sig .tc := ⟨.hbm, 94, rfl⟩
abbrev main_v49 : Ref sig .tc := ⟨.hbm, 95, rfl⟩
abbrev main_v50 : Ref sig .tc := ⟨.hbm, 96, rfl⟩
abbrev main_v51 : Ref sig .tc := ⟨.hbm, 97, rfl⟩
abbrev main_cst_10 : Ref sig .tc := ⟨.hbm, 98, rfl⟩
abbrev main_v52 : Ref sig .tc := ⟨.hbm, 99, rfl⟩
abbrev main_v53 : Ref sig .tc := ⟨.hbm, 100, rfl⟩
abbrev main_v54 : Ref sig .tc := ⟨.hbm, 101, rfl⟩
abbrev main_cst_11 : Ref sig .tc := ⟨.hbm, 102, rfl⟩
abbrev main_v55 : Ref sig .tc := ⟨.hbm, 103, rfl⟩
abbrev main_v56 : Ref sig .tc := ⟨.hbm, 104, rfl⟩
abbrev main_v57 : Ref sig .tc := ⟨.hbm, 105, rfl⟩
abbrev main_cst_12 : Ref sig .tc := ⟨.hbm, 106, rfl⟩
abbrev main_v58 : Ref sig .tc := ⟨.hbm, 107, rfl⟩
abbrev main_cst_13 : Ref sig .tc := ⟨.hbm, 108, rfl⟩
abbrev main_v59 : Ref sig .tc := ⟨.hbm, 109, rfl⟩
abbrev main_v60 : Ref sig .tc := ⟨.hbm, 110, rfl⟩
abbrev main_v61 : Ref sig .tc := ⟨.hbm, 111, rfl⟩
abbrev main_cst_14 : Ref sig .tc := ⟨.hbm, 112, rfl⟩
abbrev main_v62 : Ref sig .tc := ⟨.hbm, 113, rfl⟩
abbrev main_v63 : Ref sig .tc := ⟨.hbm, 114, rfl⟩
abbrev main_v64 : Ref sig .tc := ⟨.hbm, 115, rfl⟩
abbrev main_v65 : Ref sig .tc := ⟨.hbm, 116, rfl⟩
abbrev main_cst_15 : Ref sig .tc := ⟨.hbm, 117, rfl⟩
abbrev main_v66 : Ref sig .tc := ⟨.hbm, 118, rfl⟩
abbrev main_v67 : Ref sig .tc := ⟨.hbm, 119, rfl⟩
abbrev main_v68 : Ref sig .tc := ⟨.hbm, 120, rfl⟩
abbrev main_cst_16 : Ref sig .tc := ⟨.hbm, 121, rfl⟩
abbrev main_v69 : Ref sig .tc := ⟨.hbm, 122, rfl⟩
abbrev main_cst_17 : Ref sig .tc := ⟨.hbm, 123, rfl⟩
abbrev main_v70 : Ref sig .tc := ⟨.hbm, 124, rfl⟩
abbrev main_v71 : Ref sig .tc := ⟨.hbm, 125, rfl⟩
abbrev main_v72 : Ref sig .tc := ⟨.hbm, 126, rfl⟩
abbrev main_cst_18 : Ref sig .tc := ⟨.hbm, 127, rfl⟩
abbrev main_v73 : Ref sig .tc := ⟨.hbm, 128, rfl⟩
abbrev main_v74 : Ref sig .tc := ⟨.hbm, 129, rfl⟩
abbrev main_v75 : Ref sig .tc := ⟨.hbm, 130, rfl⟩
abbrev main_v76 : Ref sig .tc := ⟨.hbm, 131, rfl⟩
abbrev main_v77 : Ref sig .tc := ⟨.hbm, 132, rfl⟩
abbrev main_v78 : Ref sig .tc := ⟨.hbm, 133, rfl⟩
abbrev main_v79 : Ref sig .tc := ⟨.hbm, 134, rfl⟩
abbrev main_v80 : Ref sig .tc := ⟨.hbm, 135, rfl⟩
abbrev main_call3_cst : Ref sig .tc := ⟨.hbm, 136, rfl⟩
abbrev main_call3_v0 : Ref sig .tc := ⟨.hbm, 137, rfl⟩
abbrev main_v81 : Ref sig .tc := ⟨.hbm, 138, rfl⟩
abbrev main_v82 : Ref sig .tc := ⟨.hbm, 139, rfl⟩
abbrev main_v83 : Ref sig .tc := ⟨.hbm, 140, rfl⟩
abbrev main_v84 : Ref sig .tc := ⟨.hbm, 141, rfl⟩
abbrev main_v85 : Ref sig .tc := ⟨.hbm, 142, rfl⟩
abbrev main_call4_cst : Ref sig .tc := ⟨.hbm, 143, rfl⟩
abbrev main_call4_v0 : Ref sig .tc := ⟨.hbm, 144, rfl⟩
abbrev main_v86 : Ref sig .tc := ⟨.hbm, 145, rfl⟩
abbrev main_v87 : Ref sig .tc := ⟨.hbm, 146, rfl⟩
abbrev main_v88 : Ref sig .tc := ⟨.hbm, 147, rfl⟩
abbrev main_v89 : Ref sig .tc := ⟨.hbm, 148, rfl⟩
abbrev main_v90 : Ref sig .tc := ⟨.hbm, 149, rfl⟩

abbrev nD : Nat := 1
abbrev τ : Topo := Topo.v7x

variable {F : FTy → Type} [FloatOps F]

class Facts₀ : Prop where
  bcast_S_S400000 : S_.BroadcastsInDim S400000 (![] : Fin 0 → Fin S400000.rank)
  bcast_S400000_S400000x1_0 : S400000.BroadcastsInDim S400000x1 (![0] : Fin 1 → Fin S400000x1.rank)
  bcast_S_S400000x128 : S_.BroadcastsInDim S400000x128 (![] : Fin 0 → Fin S400000x128.rank)
  bcast_S128_S1x128_1 : S128.BroadcastsInDim S1x128 (![1] : Fin 1 → Fin S1x128.rank)
  bcast_S1x128_S400000x128_0_1 : S1x128.BroadcastsInDim S400000x128 (![0, 1] : Fin 2 → Fin S400000x128.rank)
  bcast_S_S150000x128 : S_.BroadcastsInDim S150000x128 (![] : Fin 0 → Fin S150000x128.rank)
  bcast_S1x128_S150000x128_0_1 : S1x128.BroadcastsInDim S150000x128 (![0, 1] : Fin 2 → Fin S150000x128.rank)
  bcast_S_S64x1 : S_.BroadcastsInDim S64x1 (![] : Fin 0 → Fin S64x1.rank)
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S_S64x2 : S_.BroadcastsInDim S64x2 (![] : Fin 0 → Fin S64x2.rank)
  bcast_S_S400000x1 : S_.BroadcastsInDim S400000x1 (![] : Fin 0 → Fin S400000x1.rank)
  bcast_S64x1_S64x2_0_1 : S64x1.BroadcastsInDim S64x2 (![0, 1] : Fin 2 → Fin S64x2.rank)
  bcast_S150000_S150000x1_0 : S150000.BroadcastsInDim S150000x1 (![0] : Fin 1 → Fin S150000x1.rank)
  bcast_S_S150000x1 : S_.BroadcastsInDim S150000x1 (![] : Fin 0 → Fin S150000x1.rank)
  concatenates_S64x1_S64x2_S64x1_S64x4_d1 : Shape.Concatenates [S64x1, S64x2, S64x1] S64x4 1
  bcast_S1x128_S64x128_0_1 : S1x128.BroadcastsInDim S64x128 (![0, 1] : Fin 2 → Fin S64x128.rank)
  bcast_S_S64x128 : S_.BroadcastsInDim S64x128 (![] : Fin 0 → Fin S64x128.rank)
  bcast_S10_S1x10_1 : S10.BroadcastsInDim S1x10 (![1] : Fin 1 → Fin S1x10.rank)
  bcast_S1x10_S64x10_0_1 : S1x10.BroadcastsInDim S64x10 (![0, 1] : Fin 2 → Fin S64x10.rank)
  dot_S100000x1_S1x128_S100000x128_1_0_0_1_n_n_wf : DotDims.WF S100000x1 S1x128 S100000x128 [1] [0] [0] [1] [] []
  gather_S100000x128_S400000x1_S400000x128_1_0_n_n_0_1_1128_wf : GatherDims.WF S100000x128 S400000x1 S400000x128 [1] [0] [] [0] [] 1 ![1, 128]
  scatter_S400000x128_S400000x1_S400000x128_1_0_0_1_wf : ScatterDims.WF S400000x128 S400000x1 S400000x128 [1] [0] [0] 1
  dot_S400000x2_S2x128_S400000x128_1_0_0_1_n_n_wf : DotDims.WF S400000x2 S2x128 S400000x128 [1] [0] [0] [1] [] []
  gather_S400000x128_S400000x1_S400000x128_1_0_n_n_0_1_1128_wf : GatherDims.WF S400000x128 S400000x1 S400000x128 [1] [0] [] [0] [] 1 ![1, 128]
  scatter_S150000x128_S400000x1_S400000x128_1_0_0_1_wf : ScatterDims.WF S150000x128 S400000x1 S400000x128 [1] [0] [0] 1
  dot_S400000x128_S128x128_S400000x128_1_0_0_1_n_n_wf : DotDims.WF S400000x128 S128x128 S400000x128 [1] [0] [0] [1] [] []
  scatter_S64x1_S100000x1_S100000x1_1_0_0_1_wf : ScatterDims.WF S64x1 S100000x1 S100000x1 [1] [0] [0] 1
  scatter_S64x2_S400000x1_S400000x2_1_0_0_1_wf : ScatterDims.WF S64x2 S400000x1 S400000x2 [1] [0] [0] 1
  scatter_S64x1_S400000x1_S400000x1_1_0_0_1_wf : ScatterDims.WF S64x1 S400000x1 S400000x1 [1] [0] [0] 1
  scatter_S64x1_S150000x1_S150000x1_1_0_0_1_wf : ScatterDims.WF S64x1 S150000x1 S150000x1 [1] [0] [0] 1
  dot_S64x4_S4x128_S64x128_1_0_0_1_n_n_wf : DotDims.WF S64x4 S4x128 S64x128 [1] [0] [0] [1] [] []
  dot_S64x128_S128x128_S64x128_1_0_0_1_n_n_wf : DotDims.WF S64x128 S128x128 S64x128 [1] [0] [0] [1] [] []
  dot_S64x128_S128x10_S64x10_1_0_0_1_n_n_wf : DotDims.WF S64x128 S128x10 S64x10 [1] [0] [0] [1] [] []

variable [Facts₀]

def dot_S100000x1_S1x128_S100000x128_1_0_0_1_n_n : DotDims S100000x1 S1x128 S100000x128 where
  lhsContracting := [1]
  rhsContracting := [0]
  lhsNonContracting := [0]
  rhsNonContracting := [1]
  lhsBatch := []
  rhsBatch := []
  wf := dot_S100000x1_S1x128_S100000x128_1_0_0_1_n_n_wf
def gather_S100000x128_S400000x1_S400000x128_1_0_n_n_0_1_1128 : GatherDims S100000x128 S400000x1 S400000x128 where
  offsetDims := [1]
  collapsedSliceDims := [0]
  operandBatchingDims := []
  startIndicesBatchingDims := []
  startIndexMap := [0]
  indexVectorDim := 1
  sliceSizes := ![1, 128]
  wf := gather_S100000x128_S400000x1_S400000x128_1_0_n_n_0_1_1128_wf
def scatter_S400000x128_S400000x1_S400000x128_1_0_0_1 : ScatterDims S400000x128 S400000x1 S400000x128 where
  updateWindowDims := [1]
  insertedWindowDims := [0]
  scatterDimsToOperandDims := [0]
  indexVectorDim := 1
  wf := scatter_S400000x128_S400000x1_S400000x128_1_0_0_1_wf
def dot_S400000x2_S2x128_S400000x128_1_0_0_1_n_n : DotDims S400000x2 S2x128 S400000x128 where
  lhsContracting := [1]
  rhsContracting := [0]
  lhsNonContracting := [0]
  rhsNonContracting := [1]
  lhsBatch := []
  rhsBatch := []
  wf := dot_S400000x2_S2x128_S400000x128_1_0_0_1_n_n_wf
def gather_S400000x128_S400000x1_S400000x128_1_0_n_n_0_1_1128 : GatherDims S400000x128 S400000x1 S400000x128 where
  offsetDims := [1]
  collapsedSliceDims := [0]
  operandBatchingDims := []
  startIndicesBatchingDims := []
  startIndexMap := [0]
  indexVectorDim := 1
  sliceSizes := ![1, 128]
  wf := gather_S400000x128_S400000x1_S400000x128_1_0_n_n_0_1_1128_wf
def scatter_S150000x128_S400000x1_S400000x128_1_0_0_1 : ScatterDims S150000x128 S400000x1 S400000x128 where
  updateWindowDims := [1]
  insertedWindowDims := [0]
  scatterDimsToOperandDims := [0]
  indexVectorDim := 1
  wf := scatter_S150000x128_S400000x1_S400000x128_1_0_0_1_wf
def dot_S400000x128_S128x128_S400000x128_1_0_0_1_n_n : DotDims S400000x128 S128x128 S400000x128 where
  lhsContracting := [1]
  rhsContracting := [0]
  lhsNonContracting := [0]
  rhsNonContracting := [1]
  lhsBatch := []
  rhsBatch := []
  wf := dot_S400000x128_S128x128_S400000x128_1_0_0_1_n_n_wf
def scatter_S64x1_S100000x1_S100000x1_1_0_0_1 : ScatterDims S64x1 S100000x1 S100000x1 where
  updateWindowDims := [1]
  insertedWindowDims := [0]
  scatterDimsToOperandDims := [0]
  indexVectorDim := 1
  wf := scatter_S64x1_S100000x1_S100000x1_1_0_0_1_wf
def scatter_S64x2_S400000x1_S400000x2_1_0_0_1 : ScatterDims S64x2 S400000x1 S400000x2 where
  updateWindowDims := [1]
  insertedWindowDims := [0]
  scatterDimsToOperandDims := [0]
  indexVectorDim := 1
  wf := scatter_S64x2_S400000x1_S400000x2_1_0_0_1_wf
def scatter_S64x1_S400000x1_S400000x1_1_0_0_1 : ScatterDims S64x1 S400000x1 S400000x1 where
  updateWindowDims := [1]
  insertedWindowDims := [0]
  scatterDimsToOperandDims := [0]
  indexVectorDim := 1
  wf := scatter_S64x1_S400000x1_S400000x1_1_0_0_1_wf
def scatter_S64x1_S150000x1_S150000x1_1_0_0_1 : ScatterDims S64x1 S150000x1 S150000x1 where
  updateWindowDims := [1]
  insertedWindowDims := [0]
  scatterDimsToOperandDims := [0]
  indexVectorDim := 1
  wf := scatter_S64x1_S150000x1_S150000x1_1_0_0_1_wf
def dot_S64x4_S4x128_S64x128_1_0_0_1_n_n : DotDims S64x4 S4x128 S64x128 where
  lhsContracting := [1]
  rhsContracting := [0]
  lhsNonContracting := [0]
  rhsNonContracting := [1]
  lhsBatch := []
  rhsBatch := []
  wf := dot_S64x4_S4x128_S64x128_1_0_0_1_n_n_wf
def dot_S64x128_S128x128_S64x128_1_0_0_1_n_n : DotDims S64x128 S128x128 S64x128 where
  lhsContracting := [1]
  rhsContracting := [0]
  lhsNonContracting := [0]
  rhsNonContracting := [1]
  lhsBatch := []
  rhsBatch := []
  wf := dot_S64x128_S128x128_S64x128_1_0_0_1_n_n_wf
def dot_S64x128_S128x10_S64x10_1_0_0_1_n_n : DotDims S64x128 S128x10 S64x10 where
  lhsContracting := [1]
  rhsContracting := [0]
  lhsNonContracting := [0]
  rhsNonContracting := [1]
  lhsBatch := []
  rhsBatch := []
  wf := dot_S64x128_S128x10_S64x10_1_0_0_1_n_n_wf

class Facts : Prop extends Facts₀ where

variable [Facts]
-- ==== Proof.SegSum.lean ====
/-
  Segment sums over the extended reals.

  A row with id word g and value x contributes x to segment b when g is the word of b, and nothing otherwise
  (`pick`); a segment's sum over a stretch of rows is `seg`.  A one-hot matrix (the equality test of a row
  counter against the id words, widened and converted) times a feature matrix contracted over the rows is such a
  sum, and consecutive stretches add up to the sum over their union.
-/
import Idealize.ShloMosaic.PureOps.Ideal.Laws
import Idealize.ShloMosaic.Lib.ValueIdx
import Idealize.ShloMosaic.Lib.Pipeline.Value
import Idealize.ShloMosaic.Lib.StableHlo.Predicate

noncomputable section

namespace Cert.Pool

open Idealize.ShloMosaic Idealize.ShloMosaic.ValueIdx

/-- What a row with id word `g` and value `x` contributes to segment `b`. -/
def pick (b : ℕ) (g : BitVec 32) (x : EReal) : EReal := if BitVec.ofNat 32 b = g then x else 0

/-- Row `r`, column `n` of a feature matrix laid out features × rows, as a total function of `n`. -/
def rowsE {R L : ℕ} (x : (⟨2, ![R, L]⟩ : Shape).Idx → EReal) (r : Fin R) (n : ℕ) : EReal :=
  if h : n < L then x (ix2 r ⟨n, h⟩) else 0

/-- The id word of row `n`, as a total function of `n`. -/
def rowsG {L : ℕ} (g : (⟨2, ![1, L]⟩ : Shape).Idx → BitVec 32) (n : ℕ) : BitVec 32 :=
  if h : n < L then g (ix2 0 ⟨n, h⟩) else 0

/-- Segment `b`'s sum over the rows `lo, …, lo + len - 1`. -/
def seg (b : ℕ) (G : ℕ → BitVec 32) (X : ℕ → EReal) (lo len : ℕ) : EReal :=
  ∑ k ∈ Finset.range len, pick b (G (lo + k)) (X (lo + k))

/-- Two consecutive stretches add up to their union. -/
theorem seg_append (b : ℕ) (G : ℕ → BitVec 32) (X : ℕ → EReal) (n m : ℕ) :
    seg b G X 0 n + seg b G X n m = seg b G X 0 (n + m) := by
  unfold seg
  rw [Finset.sum_range_add]
  simp only [zero_add]

/-- One more stretch joins an accumulated sum. -/
theorem acc_step (z : EReal) (b : ℕ) (G : ℕ → BitVec 32) (X : ℕ → EReal) (n m : ℕ) :
    (z + seg b G X 0 n) + seg b G X n m = z + seg b G X 0 (n + m) := by
  rw [add_assoc, seg_append]

/-- The one-hot entry times a value is the value picked. -/
theorem oneHot_mul (b : ℕ) (g : BitVec 32) (x : EReal) :
    (FloatOps.sitofp (F := Ideal) .f32 ((IntOp.cmpi .eq (BitVec.ofNat 32 b) g).setWidth 32) : EReal) * x = pick b g x := by
  unfold pick
  by_cases h : BitVec.ofNat 32 b = g
  · rw [if_pos h]
    have : IntOp.cmpi .eq (BitVec.ofNat 32 b) g = 1#1 := by simp [IntOp.cmpi, h]
    rw [this]
    show (((1#1 : BitVec 1).setWidth 32).toInt : ℝ) * x = x
    simp
  · rw [if_neg h]
    have : IntOp.cmpi .eq (BitVec.ofNat 32 b) g = 0#1 := by
      unfold IntOp.cmpi
      rw [show (BitVec.ofNat 32 b == g) = false from beq_eq_false_iff_ne.mpr h]
      rfl
    rw [this]
    show (((0#1 : BitVec 1).setWidth 32).toInt : ℝ) * x = 0
    simp

end Cert.Pool

end
-- ==== Proof.LibPlainDot.lean ====
/-
  Matrix products at the ideal values, read as plain sums over one contraction coordinate.

  A product whose dimension numbers are the library's `DotDims.plain M K N` (rows × contraction times contraction × columns, no batch
  axis) is, at the result index (r, c), the sum over k : Fin K of lhs (r, k) · rhs (k, c); one whose numbers are
  `DotDims.transposedRhs M K N` (the right operand contracted on its LAST axis) is the sum over k of lhs (r, k) · rhs (c, k).
  Stated for a kernel's `tpu.matmul` into the zero accumulator and for the host's `dot_general`, at every M, K, N: a printed
  record with these six lists is one of the two by `rfl` (the well-formedness field is a proposition).
-/
import Idealize.ShloMosaic.PureOps.Ideal.Laws
import Idealize.ShloMosaic.Lib.ValueIdx

noncomputable section

namespace Cert.Lib.PlainDot

open Idealize.ShloMosaic Idealize.ShloMosaic.ValueIdx

variable (M K N : Nat)

/-! ## The operand indices of a plain product, axis by axis -/

theorem plain_lhs_0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl
theorem plain_lhs_1 (i : (⟨2, ![M, N]⟩ : Shape).Idx) (q : (DotDims.plain M K N).contr.Idx) :
    ((DotDims.plain M K N).lhsIdx i q 1).val = (q ⟨0, Nat.zero_lt_one⟩).val :=
  (DotDims.plain M K N).lhsIdx_val_of_single rfl i q
theorem plain_rhs_0 (i : (⟨2, ![M, N]⟩ : Shape).Idx) (q : (DotDims.plain M K N).contr.Idx) :
    ((DotDims.plain M K N).rhsIdx i q 0).val = (q ⟨0, Nat.zero_lt_one⟩).val :=
  (DotDims.plain M K N).rhsIdx_val_of_single rfl i q
theorem plain_rhs_1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the contraction shape of a plain product, re-indexed by the one contraction coordinate. -/
theorem plain_sum (lhs : (⟨2, ![M, K]⟩ : Shape).Idx → EReal) (rhs : (⟨2, ![K, N]⟩ : Shape).Idx → EReal)
    (i : (⟨2, ![M, N]⟩ : Shape).Idx) :
    (∑ q : (DotDims.plain M K N).contr.Idx, lhs ((DotDims.plain M K N).lhsIdx i q) * rhs ((DotDims.plain M K N).rhsIdx i q))
      = ∑ k : Fin K, lhs (ix2 (i 0) k) * rhs (ix2 k (i 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx i ((contrEquiv1 (DotDims.plain M K N) K rfl rfl).symm k) = ix2 (i 0) k :=
    funext fun a => Fin.ext (by
      match a with
      | ⟨0, _⟩ => exact plain_lhs_0 M K N _ _
      | ⟨1, _⟩ => exact (plain_lhs_1 M K N _ _).trans hk)
  have er : (DotDims.plain M K N).rhsIdx i ((contrEquiv1 (DotDims.plain M K N) K rfl rfl).symm k) = ix2 k (i 1) :=
    funext fun a => Fin.ext (by
      match a with
      | ⟨0, _⟩ => exact (plain_rhs_0 M K N _ _).trans hk
      | ⟨1, _⟩ => exact plain_rhs_1 M K N _ _)
  exact congrArg₂ (fun a b : EReal => a * b) (congrArg lhs el) (congrArg rhs er)

/-- A kernel's `tpu.matmul` with plain dimension numbers into the zero accumulator, at an index. -/
theorem matmul_plain_zero_apply {φ₁ φ₂ : FTy} (prec : Option ContractPrecision)
    (lhs : FVec Ideal ⟨2, ![M, K]⟩ φ₁) (rhs : FVec Ideal ⟨2, ![K, N]⟩ φ₂) (i : (⟨2, ![M, N]⟩ : Shape).Idx) :
    FloatOps.matmul (DotDims.plain M K N) prec lhs rhs (constant ⟨2, ![M, N]⟩ .f32 0x00000000#32) i
      = ∑ k : Fin K, lhs (ix2 (i 0) k) * rhs (ix2 k (i 1)) := by
  rw [Ideal.matmul_constant_zero_apply]
  exact plain_sum M K N lhs rhs i

/-- The host's `dot_general` with plain dimension numbers, at an index. -/
theorem dotGeneral_plain_apply {φ₁ φ₂ : FTy} (prec : Option ContractPrecision) (sched : HostSchedule)
    (lhs : FVec Ideal ⟨2, ![M, K]⟩ φ₁) (rhs : FVec Ideal ⟨2, ![K, N]⟩ φ₂) (i : (⟨2, ![M, N]⟩ : Shape).Idx) :
    FloatOps.dotGeneral (DotDims.plain M K N) prec sched lhs rhs i = ∑ k : Fin K, lhs (ix2 (i 0) k) * rhs (ix2 k (i 1)) := by
  rw [Ideal.dotGeneral_apply]
  exact plain_sum M K N lhs rhs i

/-- The two at explicit coordinates (r, c): the form a proof rewrites with, free of the index's dependent coordinate types. -/
theorem matmul_plain_zero_ix2 {φ₁ φ₂ : FTy} (prec : Option ContractPrecision)
    (lhs : FVec Ideal ⟨2, ![M, K]⟩ φ₁) (rhs : FVec Ideal ⟨2, ![K, N]⟩ φ₂) (r : Fin M) (c : Fin N) :
    FloatOps.matmul (DotDims.plain M K N) prec lhs rhs (constant ⟨2, ![M, N]⟩ .f32 0x00000000#32) (ix2 r c)
      = ∑ k : Fin K, (lhs (ix2 r k) : EReal) * (rhs (ix2 k c) : EReal) :=
  matmul_plain_zero_apply M K N prec lhs rhs (ix2 r c)
theorem dotGeneral_plain_ix2 {φ₁ φ₂ : FTy} (prec : Option ContractPrecision) (sched : HostSchedule)
    (lhs : FVec Ideal ⟨2, ![M, K]⟩ φ₁) (rhs : FVec Ideal ⟨2, ![K, N]⟩ φ₂) (r : Fin M) (c : Fin N) :
    FloatOps.dotGeneral (DotDims.plain M K N) prec sched lhs rhs (ix2 r c)
      = ∑ k : Fin K, (lhs (ix2 r k) : EReal) * (rhs (ix2 k c) : EReal) :=
  dotGeneral_plain_apply M K N prec sched lhs rhs (ix2 r c)

/-! ## The right operand contracted on its last axis -/

theorem transposedRhs_lhs_0 (i : (⟨2, ![M, N]⟩ : Shape).Idx) (q : (DotDims.transposedRhs M K N).contr.Idx) :
    ((DotDims.transposedRhs M K N).lhsIdx i q 0).val = (i 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl
theorem transposedRhs_lhs_1 (i : (⟨2, ![M, N]⟩ : Shape).Idx) (q : (DotDims.transposedRhs M K N).contr.Idx) :
    ((DotDims.transposedRhs M K N).lhsIdx i q 1).val = (q ⟨0, Nat.zero_lt_one⟩).val :=
  (DotDims.transposedRhs M K N).lhsIdx_val_of_single rfl i q
theorem transposedRhs_rhs_0 (i : (⟨2, ![M, N]⟩ : Shape).Idx) (q : (DotDims.transposedRhs M K N).contr.Idx) :
    ((DotDims.transposedRhs M K N).rhsIdx i q 0).val = (i 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl
theorem transposedRhs_rhs_1 (i : (⟨2, ![M, N]⟩ : Shape).Idx) (q : (DotDims.transposedRhs M K N).contr.Idx) :
    ((DotDims.transposedRhs M K N).rhsIdx i q 1).val = (q ⟨0, Nat.zero_lt_one⟩).val :=
  (DotDims.transposedRhs M K N).rhsIdx_val_of_single rfl i q

/-- The host's `dot_general` contracting both operands' last axes, at an index. -/
theorem dotGeneral_transposedRhs_apply {φ₁ φ₂ : FTy} (prec : Option ContractPrecision) (sched : HostSchedule)
    (lhs : FVec Ideal ⟨2, ![M, K]⟩ φ₁) (rhs : FVec Ideal ⟨2, ![N, K]⟩ φ₂) (i : (⟨2, ![M, N]⟩ : Shape).Idx) :
    FloatOps.dotGeneral (DotDims.transposedRhs M K N) prec sched lhs rhs i
      = ∑ k : Fin K, lhs (ix2 (i 0) k) * rhs (ix2 (i 1) k) := by
  rw [Ideal.dotGeneral_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx i ((contrEquiv1 (DotDims.transposedRhs M K N) K rfl rfl).symm k) = ix2 (i 0) k :=
    funext fun a => Fin.ext (by
      match a with
      | ⟨0, _⟩ => exact transposedRhs_lhs_0 M K N _ _
      | ⟨1, _⟩ => exact (transposedRhs_lhs_1 M K N _ _).trans hk)
  have er : (DotDims.transposedRhs M K N).rhsIdx i ((contrEquiv1 (DotDims.transposedRhs M K N) K rfl rfl).symm k) = ix2 (i 1) k :=
    funext fun a => Fin.ext (by
      match a with
      | ⟨0, _⟩ => exact transposedRhs_rhs_0 M K N _ _
      | ⟨1, _⟩ => exact (transposedRhs_rhs_1 M K N _ _).trans hk)
  exact congrArg₂ (fun a b : EReal => a * b) (congrArg lhs el) (congrArg rhs er)

theorem dotGeneral_transposedRhs_ix2 {φ₁ φ₂ : FTy} (prec : Option ContractPrecision) (sched : HostSchedule)
    (lhs : FVec Ideal ⟨2, ![M, K]⟩ φ₁) (rhs : FVec Ideal ⟨2, ![N, K]⟩ φ₂) (r : Fin M) (c : Fin N) :
    FloatOps.dotGeneral (DotDims.transposedRhs M K N) prec sched lhs rhs (ix2 r c)
      = ∑ k : Fin K, (lhs (ix2 r k) : EReal) * (rhs (ix2 c k) : EReal) :=
  dotGeneral_transposedRhs_apply M K N prec sched lhs rhs (ix2 r c)

end Cert.Lib.PlainDot

end
-- ==== Proof.DotLast.lean ====
/-
  A matrix product that contracts both operands' last axes, into the zero accumulator, read at (r, c) as the sum over the
  contraction coordinate k of lhs (r, k) · rhs (c, k).
-/
import Idealize.ShloMosaic.PureOps.Ideal.Laws
import Idealize.ShloMosaic.Lib.ValueIdx
import proofs.«430187_j28956669509884_3_alg».proof.Proof.LibPlainDot

noncomputable section

namespace Cert.Pool

open Idealize.ShloMosaic Idealize.ShloMosaic.ValueIdx

/-- A kernel's matrix product contracting both operands' last axes, into the zero accumulator, at (r, c). -/
theorem matmul_transposedRhs_zero_ix2 (M K N : ℕ) {φ₁ φ₂ : FTy} (prec : Option ContractPrecision)
    (lhs : FVec Ideal ⟨2, ![M, K]⟩ φ₁) (rhs : FVec Ideal ⟨2, ![N, K]⟩ φ₂) (r : Fin M) (c : Fin N) :
    FloatOps.matmul (DotDims.transposedRhs M K N) prec lhs rhs (constant ⟨2, ![M, N]⟩ .f32 0x00000000#32) (ix2 r c)
      = ∑ k : Fin K, (lhs (ix2 r k) : EReal) * (rhs (ix2 c k) : EReal) :=
  (Ideal.matmul_constant_zero_apply _ prec lhs rhs _).trans
    ((Ideal.dotGeneral_apply _ prec .single lhs rhs _).symm.trans
      (Cert.Lib.PlainDot.dotGeneral_transposedRhs_ix2 M K N prec .single lhs rhs r c))

end Cert.Pool

end
-- ==== Proof.Chunk.lean ====
/-
  One stretch of rows through the one-hot product.

  The kernel takes 8192 rows at a time: the id words of the stretch are compared with a graph counter (a one-hot matrix,
  graphs × rows), the feature rows of the stretch get a row of ones appended, and the two are contracted over the rows.
  Entry (b, f) of the product is segment b's sum over the stretch of feature row f — and of the ones, in the appended
  row, which counts the stretch's rows of segment b.
-/
import Idealize.ShloMosaic.PureOps.Ideal.Laws
import Idealize.ShloMosaic.Lib.ValueIdx
import Idealize.ShloMosaic.Lib.Pipeline.Value
import proofs.«430187_j28956669509884_3_alg».proof.Proof.SegSum
import proofs.«430187_j28956669509884_3_alg».proof.Proof.DotLast

noncomputable section

namespace Cert.Pool

open Idealize.ShloMosaic Idealize.ShloMosaic.ValueIdx

/-- Entry (b, k) of a stretch's one-hot matrix, times a value: the value picked by the id word of row o + k. -/
theorem oneHot_entry {L : ℕ} (o : ℕ) (g : (⟨2, ![1, L]⟩ : Shape).Idx → BitVec 32)
    (hsg : (⟨2, ![1, L]⟩ : Shape).Slices ![0, o] ⟨2, ![1, 8192]⟩)
    (hi : (⟨2, ![64, 8192]⟩ : Shape).Iotas .tc 32 [0]) (hb : (⟨2, ![1, 8192]⟩ : Shape).Broadcasts ⟨2, ![64, 8192]⟩) (hlt : 1 < 32)
    (b : Fin 64) (k : Fin 8192) (x : EReal) :
    ((sitofp .f32 (extui 32 (cmpi .eq (iota .tc ⟨2, ![64, 8192]⟩ 32 [0] hi)
        (broadcastTo ⟨2, ![64, 8192]⟩ (extractStridedSlice ⟨2, ![1, 8192]⟩ ![0, o] g hsg) hb)) hlt)
          : FVec Ideal ⟨2, ![64, 8192]⟩ .f32) (ix2 b k) : EReal) * x
      = pick b.val (rowsG g (o + k.val)) x := by
  have hL : o + k.val < L := by
    have h1 := hsg.2 1
    have h2 : o + 8192 ≤ L := h1
    have := k.isLt
    omega
  have e1 : iota .tc ⟨2, ![64, 8192]⟩ 32 [0] hi (ix2 b k) = BitVec.ofNat 32 b.val := by
    rw [iota_single_apply]
  have e2 : broadcastTo ⟨2, ![64, 8192]⟩ (extractStridedSlice ⟨2, ![1, 8192]⟩ ![0, o] g hsg) hb (ix2 b k)
      = g (ix2 0 ⟨o + k.val, hL⟩) := by
    rw [broadcastTo_apply _ hb (ix2 b k) (ix2 0 k) (by
      intro a
      match a with
      | ⟨0, _⟩ => rfl
      | ⟨1, _⟩ => rfl)]
    exact extractStridedSlice_apply _ g hsg (ix2 0 k) (ix2 0 ⟨o + k.val, hL⟩) (by
      intro a
      match a with
      | ⟨0, _⟩ => rfl
      | ⟨1, _⟩ => rfl)
  show (FloatOps.sitofp (F := Ideal) .f32
      ((IntOp.cmpi .eq (iota .tc ⟨2, ![64, 8192]⟩ 32 [0] hi (ix2 b k))
        (broadcastTo ⟨2, ![64, 8192]⟩ (extractStridedSlice ⟨2, ![1, 8192]⟩ ![0, o] g hsg) hb (ix2 b k))).setWidth 32) : EReal) * x = _
  rw [e1, e2, oneHot_mul]
  unfold rowsG
  rw [dif_pos hL]

/-- Entry (f, k) of a stretch's feature rows with the row of ones appended, for a feature row f. -/
theorem aug_entry_row {R R1 L : ℕ} (o : ℕ) (x : (⟨2, ![R, L]⟩ : Shape).Idx → EReal) (one : EReal)
    (hsx : (⟨2, ![R, L]⟩ : Shape).Slices ![0, o] ⟨2, ![R, 8192]⟩)
    (hc : Shape.Concatenates [⟨2, ![R, 8192]⟩, ⟨2, ![1, 8192]⟩] ⟨2, ![R1, 8192]⟩ 0)
    (f : Fin R1) (hf : f.val < R) (k : Fin 8192) :
    concatenate ⟨2, ![R1, 8192]⟩ 0 [⟨⟨2, ![R, 8192]⟩, extractStridedSlice ⟨2, ![R, 8192]⟩ ![0, o] x hsx⟩,
        ⟨⟨2, ![1, 8192]⟩, broadcast ⟨2, ![1, 8192]⟩ one⟩] hc (ix2 f k)
      = rowsE x ⟨f.val, hf⟩ (o + k.val) := by
  have hL : o + k.val < L := by
    have h2 : o + 8192 ≤ L := hsx.2 1
    have := k.isLt
    omega
  rw [concatenate_pair_apply_left (t := ⟨2, ![R1, 8192]⟩) (s₁ := ⟨2, ![R, 8192]⟩) (s₂ := ⟨2, ![1, 8192]⟩) (0 : Fin 2) _ _ hc (ix2 f k) rfl (ix2 (⟨f.val, hf⟩ : Fin R) k : (⟨2, ![R, 8192]⟩ : Shape).Idx) (by
    intro a
    match a with
    | ⟨0, _⟩ => rfl
    | ⟨1, _⟩ => rfl)]
  rw [extractStridedSlice_apply _ x hsx (ix2 (⟨f.val, hf⟩ : Fin R) k : (⟨2, ![R, 8192]⟩ : Shape).Idx) (ix2 (⟨f.val, hf⟩ : Fin R) (⟨o + k.val, hL⟩ : Fin L)) (by
    intro a
    match a with
    | ⟨0, _⟩ => exact (Nat.zero_add _).symm
    | ⟨1, _⟩ => rfl)]
  unfold rowsE
  rw [dif_pos hL]

/-- Entry (R, k) of the same: the appended one. -/
theorem aug_entry_one {R R1 L : ℕ} (o : ℕ) (x : (⟨2, ![R, L]⟩ : Shape).Idx → EReal) (one : EReal)
    (hsx : (⟨2, ![R, L]⟩ : Shape).Slices ![0, o] ⟨2, ![R, 8192]⟩)
    (hc : Shape.Concatenates [⟨2, ![R, 8192]⟩, ⟨2, ![1, 8192]⟩] ⟨2, ![R1, 8192]⟩ 0)
    (f : Fin R1) (hf : f.val = R) (k : Fin 8192) :
    concatenate ⟨2, ![R1, 8192]⟩ 0 [⟨⟨2, ![R, 8192]⟩, extractStridedSlice ⟨2, ![R, 8192]⟩ ![0, o] x hsx⟩,
        ⟨⟨2, ![1, 8192]⟩, broadcast ⟨2, ![1, 8192]⟩ one⟩] hc (ix2 f k)
      = one := by
  rw [concatenate_pair_apply_right (t := ⟨2, ![R1, 8192]⟩) (s₁ := ⟨2, ![R, 8192]⟩) (s₂ := ⟨2, ![1, 8192]⟩) (0 : Fin 2) _ _ hc (ix2 f k) rfl rfl (ix2 (0 : Fin 1) k : (⟨2, ![1, 8192]⟩ : Shape).Idx) (by
    intro a ha
    match a with
    | ⟨0, _⟩ => exact absurd rfl ha
    | ⟨1, _⟩ => rfl) (by
      show (0 : ℕ) + R = f.val
      omega)]
  rfl

/-- A stretch's product at (b, f), f a feature row: segment b's sum of that row over the stretch. -/
theorem chunk_row {R R1 L : ℕ} (o : ℕ) (x : (⟨2, ![R, L]⟩ : Shape).Idx → EReal) (g : (⟨2, ![1, L]⟩ : Shape).Idx → BitVec 32)
    (one : EReal) (d : DotDims ⟨2, ![64, 8192]⟩ ⟨2, ![R1, 8192]⟩ ⟨2, ![64, R1]⟩) (hd : d = DotDims.transposedRhs 64 8192 R1)
    (prec : Option ContractPrecision)
    (hsx : (⟨2, ![R, L]⟩ : Shape).Slices ![0, o] ⟨2, ![R, 8192]⟩)
    (hsg : (⟨2, ![1, L]⟩ : Shape).Slices ![0, o] ⟨2, ![1, 8192]⟩)
    (hi : (⟨2, ![64, 8192]⟩ : Shape).Iotas .tc 32 [0]) (hb : (⟨2, ![1, 8192]⟩ : Shape).Broadcasts ⟨2, ![64, 8192]⟩) (hlt : 1 < 32)
    (hc : Shape.Concatenates [⟨2, ![R, 8192]⟩, ⟨2, ![1, 8192]⟩] ⟨2, ![R1, 8192]⟩ 0)
    (b : Fin 64) (f : Fin R1) (hf : f.val < R) :
    FloatOps.matmul d prec
      (sitofp .f32 (extui 32 (cmpi .eq (iota .tc ⟨2, ![64, 8192]⟩ 32 [0] hi)
        (broadcastTo ⟨2, ![64, 8192]⟩ (extractStridedSlice ⟨2, ![1, 8192]⟩ ![0, o] g hsg) hb)) hlt) : FVec Ideal ⟨2, ![64, 8192]⟩ .f32)
      (concatenate ⟨2, ![R1, 8192]⟩ 0 [⟨⟨2, ![R, 8192]⟩, extractStridedSlice ⟨2, ![R, 8192]⟩ ![0, o] x hsx⟩,
        ⟨⟨2, ![1, 8192]⟩, broadcast ⟨2, ![1, 8192]⟩ one⟩] hc : FVec Ideal ⟨2, ![R1, 8192]⟩ .f32)
      (constant ⟨2, ![64, R1]⟩ .f32 0x00000000#32) (ix2 b f)
      = seg b.val (rowsG g) (rowsE x ⟨f.val, hf⟩) o 8192 := by
  subst hd
  rw [matmul_transposedRhs_zero_ix2]
  unfold seg
  rw [Finset.sum_range]
  refine Finset.sum_congr rfl fun k _ => ?_
  rw [aug_entry_row o x one hsx hc f hf k]
  exact oneHot_entry o g hsg hi hb hlt b k _

/-- A stretch's product at (b, R): the stretch's count of rows of segment b, in ones. -/
theorem chunk_one {R R1 L : ℕ} (o : ℕ) (x : (⟨2, ![R, L]⟩ : Shape).Idx → EReal) (g : (⟨2, ![1, L]⟩ : Shape).Idx → BitVec 32)
    (one : EReal) (d : DotDims ⟨2, ![64, 8192]⟩ ⟨2, ![R1, 8192]⟩ ⟨2, ![64, R1]⟩) (hd : d = DotDims.transposedRhs 64 8192 R1)
    (prec : Option ContractPrecision)
    (hsx : (⟨2, ![R, L]⟩ : Shape).Slices ![0, o] ⟨2, ![R, 8192]⟩)
    (hsg : (⟨2, ![1, L]⟩ : Shape).Slices ![0, o] ⟨2, ![1, 8192]⟩)
    (hi : (⟨2, ![64, 8192]⟩ : Shape).Iotas .tc 32 [0]) (hb : (⟨2, ![1, 8192]⟩ : Shape).Broadcasts ⟨2, ![64, 8192]⟩) (hlt : 1 < 32)
    (hc : Shape.Concatenates [⟨2, ![R, 8192]⟩, ⟨2, ![1, 8192]⟩] ⟨2, ![R1, 8192]⟩ 0)
    (b : Fin 64) (f : Fin R1) (hf : f.val = R) :
    FloatOps.matmul d prec
      (sitofp .f32 (extui 32 (cmpi .eq (iota .tc ⟨2, ![64, 8192]⟩ 32 [0] hi)
        (broadcastTo ⟨2, ![64, 8192]⟩ (extractStridedSlice ⟨2, ![1, 8192]⟩ ![0, o] g hsg) hb)) hlt) : FVec Ideal ⟨2, ![64, 8192]⟩ .f32)
      (concatenate ⟨2, ![R1, 8192]⟩ 0 [⟨⟨2, ![R, 8192]⟩, extractStridedSlice ⟨2, ![R, 8192]⟩ ![0, o] x hsx⟩,
        ⟨⟨2, ![1, 8192]⟩, broadcast ⟨2, ![1, 8192]⟩ one⟩] hc : FVec Ideal ⟨2, ![R1, 8192]⟩ .f32)
      (constant ⟨2, ![64, R1]⟩ .f32 0x00000000#32) (ix2 b f)
      = seg b.val (rowsG g) (fun _ => one) o 8192 := by
  subst hd
  rw [matmul_transposedRhs_zero_ix2]
  unfold seg
  rw [Finset.sum_range]
  refine Finset.sum_congr rfl fun k _ => ?_
  rw [aug_entry_one o x one hsx hc f hf k]
  exact oneHot_entry o g hsg hi hb hlt b k _

end Cert.Pool

end
-- ==== Proof.CanonAt.lean ====
/-
  What a list of stores leaves at an index, when the last store is a unit-stride rectangle: inside the rectangle the last
  store's value at the shifted index, outside it what the earlier stores left.
-/
import Idealize.ShloMosaic.Lib.Pipeline.Value

noncomputable section

namespace Cert.Pool

open Idealize.ShloMosaic

variable {Val : EltTy → Type} [∀ e, Nonempty (Val e)] {S : Shape} {e : EltTy}

theorem canon_cons_unit_inside (off size : Fin S.rank → Nat) (inb : ∀ a, off a + size a ≤ S.size a)
    (w : (Rect.unit off size inb).shape.Idx → Val e) (L : List (View.Piece Val S e)) (y : S.Idx)
    (x : (Rect.unit off size inb).shape.Idx) (hx : ∀ a, (y a).val = off a + (x a).val) :
    View.canon ((⟨Rect.unit off size inb, w⟩ : View.Piece Val S e) :: L) y = w x := by
  have hy : y = (Rect.unit off size inb).emb x := funext fun a => Fin.ext (by
    rw [hx a]
    simp [Rect.emb_apply])
  rw [hy, View.canon_cons_emb]

theorem canon_cons_unit_outside (off size : Fin S.rank → Nat) (inb : ∀ a, off a + size a ≤ S.size a)
    (w : (Rect.unit off size inb).shape.Idx → Val e) (L : List (View.Piece Val S e)) (y : S.Idx)
    (a : Fin S.rank) (ha : off a + size a ≤ (y a).val) :
    View.canon ((⟨Rect.unit off size inb, w⟩ : View.Piece Val S e) :: L) y = View.canon L y := by
  refine View.canon_cons_of_not_mem _ _ ?_
  intro hm
  have hm' : y ∈ (Rect.unit off size inb).set := hm
  have := ((Rect.mem_set_unit (inb := inb)).mp hm' a).2
  omega

/-- A load of a window after ONE store of the whole buffer reads that store's value at the window's indices. -/
theorem readCov_single_whole {sig : RefSig} {κ : Kind} {sp : Space} (v : View sig κ sp S e)
    {off : Fin S.rank → Nat} (h0 : off = fun _ => 0) (inb : ∀ a, off a + S.size a ≤ S.size a) (w : S.Idx → Val e)
    (off' size' : Fin S.rank → Nat) (inb' : ∀ a, off' a + size' a ≤ S.size a)
    (j : (Rect.unit off' size' inb').shape.Idx) (y : S.Idx) (hy : ∀ a, (y a).val = off' a + (j a).val) :
    v.readCov [(⟨Rect.unit off S.size inb, w⟩ : View.Piece Val S e)] (Rect.unit off' size' inb').toLoadRect j = w y := by
  rw [View.readCov_eq_canon_ld v _ (Rect.unit off' size' inb') (fun z => ⟨_, List.mem_singleton_self _, View.mem_set_unit_zero h0 inb z⟩),
    View.canon_unit_zero h0]
  show w ((Rect.unit off' size' inb').emb j) = w y
  refine congrArg w (funext fun a => Fin.ext ?_)
  rw [hy a]
  simp [Rect.emb_apply]

end Cert.Pool

end
-- ==== Proof.ChunkK.lean ====
/-
  The kernel's stretches, at this program's own records: column 0 of a one-feature stretch's product is the stretch's
  segment sum, column 1 its count; of a two-feature stretch's, columns 0 and 1 the sums and column 2 the count.  And a
  load of a whole block reads the block.
-/
import proofs.«430187_j28956669509884_3_alg».proof.KernelIdeal
import proofs.«430187_j28956669509884_3_alg».proof.Proof.Chunk
import proofs.«430187_j28956669509884_3_alg».proof.Proof.CanonAt

noncomputable section

namespace Cert.KernelIdeal.ChunkK

open Cert.KernelIdeal Cert.Pool
open Idealize.ShloMosaic Idealize.ShloMosaic.ValueIdx

variable {L : ℕ} [Facts₀]

theorem zero2 : (![0, 0] : Fin 2 → Nat) = fun _ => 0 := by
  funext a
  match a with
  | ⟨0, _⟩ => rfl
  | ⟨1, _⟩ => rfl

/-- Column c of a 64 × W array sliced out as a 64 × 1 block, at row b. -/
theorem slice_col {W : ℕ} (c : ℕ) (v : (⟨2, ![64, W]⟩ : Shape).Idx → EReal)
    (hs : (⟨2, ![64, W]⟩ : Shape).Slices ![0, c] ⟨2, ![64, 1]⟩) (b : Fin 64) (hc : c < W) :
    extractStridedSlice ⟨2, ![64, 1]⟩ ![0, c] v hs (ix2 b (0 : Fin 1)) = v (ix2 b ⟨c, hc⟩) :=
  Idealize.ShloMosaic.extractStridedSlice_apply _ v hs _ _ (by
    intro a
    match a with
    | ⟨0, _⟩ => exact (Nat.zero_add _).symm
    | ⟨1, _⟩ => rfl)

/-- Columns 0, 1 of a 64 × 3 array sliced out as a 64 × 2 block. -/
theorem slice_col2 (v : (⟨2, ![64, 3]⟩ : Shape).Idx → EReal)
    (hs : (⟨2, ![64, 3]⟩ : Shape).Slices ![0, 0] ⟨2, ![64, 2]⟩) (b : Fin 64) (j : Fin 2) :
    extractStridedSlice ⟨2, ![64, 2]⟩ ![0, 0] v hs (ix2 b j) = v (ix2 b ⟨j.val, by omega⟩) :=
  Idealize.ShloMosaic.extractStridedSlice_apply _ v hs _ _ (by
    intro a
    match a with
    | ⟨0, _⟩ => exact (Nat.zero_add _).symm
    | ⟨1, _⟩ => exact (Nat.zero_add _).symm)

section one
variable (o : ℕ) (x : (⟨2, ![1, L]⟩ : Shape).Idx → EReal) (g : (⟨2, ![1, L]⟩ : Shape).Idx → BitVec 32) (one : EReal)
  (prec : Option ContractPrecision)
  (hsx : (⟨2, ![1, L]⟩ : Shape).Slices ![0, o] S1x8192) (hsg : (⟨2, ![1, L]⟩ : Shape).Slices ![0, o] S1x8192)
  (hi : S64x8192.Iotas .tc 32 [0]) (hb : S1x8192.Broadcasts S64x8192) (hlt : 1 < 32)
  (hc : Shape.Concatenates [S1x8192, S1x8192] S2x8192 0) (b : Fin 64)

theorem sum1 (hsl : S64x2.Slices ![0, 0] S64x1) :
    extractStridedSlice S64x1 ![0, 0]
      (FloatOps.matmul dot_S64x8192_S2x8192_S64x2_1_1_0_0_n_n prec
        (sitofp .f32 (extui 32 (cmpi .eq (iota .tc S64x8192 32 [0] hi)
          (broadcastTo S64x8192 (extractStridedSlice S1x8192 ![0, o] g hsg) hb)) hlt) : FVec Ideal S64x8192 .f32)
        (concatenate S2x8192 0 [⟨S1x8192, extractStridedSlice S1x8192 ![0, o] x hsx⟩, ⟨S1x8192, broadcast S1x8192 one⟩] hc : FVec Ideal S2x8192 .f32)
        (constant S64x2 .f32 0x00000000#32)) hsl (ix2 b 0)
      = seg b.val (rowsG g) (rowsE x 0) o 8192 :=
  (slice_col 0 _ hsl b (by decide)).trans
    (chunk_row (R := 1) (R1 := 2) o x g one _ rfl prec hsx hsg hi hb hlt hc b ⟨0, by decide⟩ (by decide))

theorem cnt1 (hsl : S64x2.Slices ![0, 1] S64x1) :
    extractStridedSlice S64x1 ![0, 1]
      (FloatOps.matmul dot_S64x8192_S2x8192_S64x2_1_1_0_0_n_n prec
        (sitofp .f32 (extui 32 (cmpi .eq (iota .tc S64x8192 32 [0] hi)
          (broadcastTo S64x8192 (extractStridedSlice S1x8192 ![0, o] g hsg) hb)) hlt) : FVec Ideal S64x8192 .f32)
        (concatenate S2x8192 0 [⟨S1x8192, extractStridedSlice S1x8192 ![0, o] x hsx⟩, ⟨S1x8192, broadcast S1x8192 one⟩] hc : FVec Ideal S2x8192 .f32)
        (constant S64x2 .f32 0x00000000#32)) hsl (ix2 b 0)
      = seg b.val (rowsG g) (fun _ => one) o 8192 :=
  (slice_col 1 _ hsl b (by decide)).trans
    (chunk_one (R := 1) (R1 := 2) o x g one _ rfl prec hsx hsg hi hb hlt hc b ⟨1, by decide⟩ rfl)
end one

section two
variable (o : ℕ) (x : (⟨2, ![2, L]⟩ : Shape).Idx → EReal) (g : (⟨2, ![1, L]⟩ : Shape).Idx → BitVec 32) (one : EReal)
  (prec : Option ContractPrecision)
  (hsx : (⟨2, ![2, L]⟩ : Shape).Slices ![0, o] S2x8192) (hsg : (⟨2, ![1, L]⟩ : Shape).Slices ![0, o] S1x8192)
  (hi : S64x8192.Iotas .tc 32 [0]) (hb : S1x8192.Broadcasts S64x8192) (hlt : 1 < 32)
  (hc : Shape.Concatenates [S2x8192, S1x8192] S3x8192 0) (b : Fin 64)

theorem sum2 (hsl : S64x3.Slices ![0, 0] S64x2) (j : Fin 2) :
    extractStridedSlice S64x2 ![0, 0]
      (FloatOps.matmul dot_S64x8192_S3x8192_S64x3_1_1_0_0_n_n prec
        (sitofp .f32 (extui 32 (cmpi .eq (iota .tc S64x8192 32 [0] hi)
          (broadcastTo S64x8192 (extractStridedSlice S1x8192 ![0, o] g hsg) hb)) hlt) : FVec Ideal S64x8192 .f32)
        (concatenate S3x8192 0 [⟨S2x8192, extractStridedSlice S2x8192 ![0, o] x hsx⟩, ⟨S1x8192, broadcast S1x8192 one⟩] hc : FVec Ideal S3x8192 .f32)
        (constant S64x3 .f32 0x00000000#32)) hsl (ix2 b j)
      = seg b.val (rowsG g) (rowsE x j) o 8192 :=
  (slice_col2 _ hsl b j).trans
    (chunk_row (R := 2) (R1 := 3) o x g one _ rfl prec hsx hsg hi hb hlt hc b ⟨j.val, by omega⟩ j.isLt)

theorem cnt2 (hsl : S64x3.Slices ![0, 2] S64x1) :
    extractStridedSlice S64x1 ![0, 2]
      (FloatOps.matmul dot_S64x8192_S3x8192_S64x3_1_1_0_0_n_n prec
        (sitofp .f32 (extui 32 (cmpi .eq (iota .tc S64x8192 32 [0] hi)
          (broadcastTo S64x8192 (extractStridedSlice S1x8192 ![0, o] g hsg) hb)) hlt) : FVec Ideal S64x8192 .f32)
        (concatenate S3x8192 0 [⟨S2x8192, extractStridedSlice S2x8192 ![0, o] x hsx⟩, ⟨S1x8192, broadcast S1x8192 one⟩] hc : FVec Ideal S3x8192 .f32)
        (constant S64x3 .f32 0x00000000#32)) hsl (ix2 b 0)
      = seg b.val (rowsG g) (fun _ => one) o 8192 :=
  (slice_col 2 _ hsl b (by decide)).trans
    (chunk_one (R := 2) (R1 := 3) o x g one _ rfl prec hsx hsg hi hb hlt hc b ⟨2, by decide⟩ rfl)
end two

end Cert.KernelIdeal.ChunkK

end
-- ==== Proof.Spec.lean ====
/-
  What both programs compute, as one function of the argument arrays.

  For each of the three node types the features are pooled per graph: segment b's total of a feature column over the
  rows whose graph id is b, divided by max(count of such rows, 1).  The four pooled columns (one, two and one per type)
  feed a three-layer perceptron: two layers followed by max(·, 0), then a linear layer.  Every sum starts from the
  word of zero and every count adds the word of one; neither word is ever evaluated.
-/
import Idealize.ShloMosaic.PureOps.Ideal.Laws
import Idealize.ShloMosaic.Lib.ValueIdx
import proofs.«430187_j28956669509884_3_alg».proof.Proof.SegSum

noncomputable section

namespace Cert.Pool

open Idealize.ShloMosaic Idealize.ShloMosaic.ValueIdx

/-- The word of zero and the word of one, as the programs spell them. -/
abbrev zeroW : EReal := Ideal.ofBits .f32 0x00000000#32
abbrev oneW : EReal := Ideal.ofBits .f32 0x3F800000#32

/-- Column `f` of a rows × features array, as a total function of the row. -/
def colE {N Fd : ℕ} (h : (⟨2, ![N, Fd]⟩ : Shape).Idx → EReal) (f : Fin Fd) (n : ℕ) : EReal :=
  if hn : n < N then h (ix2 ⟨n, hn⟩ f) else 0

/-- The graph id word of a row, as a total function of the row. -/
def idsG {N : ℕ} (g : (⟨1, ![N]⟩ : Shape).Idx → BitVec 32) (n : ℕ) : BitVec 32 :=
  if hn : n < N then g (ix1 ⟨n, hn⟩) else 0

/-- Segment `b`'s total of column `f`. -/
def total {N Fd : ℕ} (g : (⟨1, ![N]⟩ : Shape).Idx → BitVec 32) (h : (⟨2, ![N, Fd]⟩ : Shape).Idx → EReal) (f : Fin Fd) (b : ℕ) : EReal :=
  zeroW + seg b (idsG g) (colE h f) 0 N

/-- Segment `b`'s row count. -/
def count {N : ℕ} (g : (⟨1, ![N]⟩ : Shape).Idx → BitVec 32) (b : ℕ) : EReal :=
  zeroW + seg b (idsG g) (fun _ => oneW) 0 N

/-- Segment `b`'s mean of column `f`, an empty segment counted as one row. -/
def mean {N Fd : ℕ} (g : (⟨1, ![N]⟩ : Shape).Idx → BitVec 32) (h : (⟨2, ![N, Fd]⟩ : Shape).Idx → EReal) (f : Fin Fd) (b : ℕ) : EReal :=
  Ideal.div (total g h f b) (max (count g b) oneW)

section
variable (hc : (⟨2, ![100000, 1]⟩ : Shape).Idx → EReal) (hp : (⟨2, ![400000, 2]⟩ : Shape).Idx → EReal)
  (hn : (⟨2, ![150000, 1]⟩ : Shape).Idx → EReal)
  (gc : (⟨1, ![100000]⟩ : Shape).Idx → BitVec 32) (gp : (⟨1, ![400000]⟩ : Shape).Idx → BitVec 32)
  (gn : (⟨1, ![150000]⟩ : Shape).Idx → BitVec 32)
  (w1 : (⟨2, ![4, 128]⟩ : Shape).Idx → EReal) (b1 : (⟨1, ![128]⟩ : Shape).Idx → EReal)
  (w2 : (⟨2, ![128, 128]⟩ : Shape).Idx → EReal) (b2 : (⟨1, ![128]⟩ : Shape).Idx → EReal)
  (w3 : (⟨2, ![128, 10]⟩ : Shape).Idx → EReal) (b3 : (⟨1, ![10]⟩ : Shape).Idx → EReal)

/-- The pooled features of graph `b`: the first type's column, the second type's two, the third type's. -/
def pooled (b : ℕ) (j : Fin 4) : EReal :=
  match j with
  | 0 => mean gc hc 0 b
  | 1 => mean gp hp 0 b
  | 2 => mean gp hp 1 b
  | 3 => mean gn hn 0 b

def layer1 (b : ℕ) (j : Fin 128) : EReal :=
  max ((∑ k : Fin 4, pooled hc hp hn gc gp gn b k * w1 (ix2 k j)) + b1 (ix1 j)) zeroW

def layer2 (b : ℕ) (j : Fin 128) : EReal :=
  max ((∑ k : Fin 128, layer1 hc hp hn gc gp gn w1 b1 b k * w2 (ix2 k j)) + b2 (ix1 j)) zeroW

/-- The result at (graph b, class j). -/
def logits (b : ℕ) (j : Fin 10) : EReal :=
  (∑ k : Fin 128, layer2 hc hp hn gc gp gn w1 b1 w2 b2 b k * w3 (ix2 k j)) + b3 (ix1 j)

/-- The result array. -/
def result : (⟨2, ![64, 10]⟩ : Shape).Idx → EReal :=
  fun i => logits hc hp hn gc gp gn w1 b1 w2 b2 w3 b3 (i 0).val (i 1)
end

end Cert.Pool

end
-- ==== Proof.CaseA.lean ====
/-
  The first grid point.  Both accumulators are set to zero, then the first node type's rows go through the one-hot product
  thirteen stretches at a time: afterwards column 0 of the sums holds, for graph b, zero plus segment b's total of the one
  feature over all 106496 padded rows, column 0 of the counts zero plus segment b's count of them, and every other column
  the zero it was set to.
-/
import proofs.«430187_j28956669509884_3_alg».proof.Proof.Gen.KernelIdeal.Frame
import proofs.«430187_j28956669509884_3_alg».proof.Proof.ChunkK
import proofs.«430187_j28956669509884_3_alg».proof.Proof.CanonAt
import proofs.«430187_j28956669509884_3_alg».proof.Proof.Spec

set_option maxRecDepth 16384

noncomputable section

namespace Cert.KernelIdeal.CaseA

open Cert.KernelIdeal Cert.KernelIdeal.Gen Cert.Pool Cert.KernelIdeal.ChunkK
open Idealize.ShloMosaic Idealize.ShloMosaic.TcCoe Idealize.ShloMosaic.Tactic Idealize.ShloMosaic.ValueIdx
open Idealize.SL Idealize.SL.Sem

/-- The sums after the first point. -/
theorem sumA (c : Dev nD) (i : grid0.Coords) (arg1 : Memref sig .tc .vmem S1x106496 .f32) (harg1 : arg1.IsWhole) (arg2 : Memref sig .tc .vmem S1x106496 .i32) (harg2 : arg2.IsWhole) (arg3 : Memref sig .tc .vmem S2x401408 .f32) (harg3 : arg3.IsWhole) (arg4 : Memref sig .tc .vmem S1x401408 .i32) (harg4 : arg4.IsWhole) (arg5 : Memref sig .tc .vmem S1x155648 .f32) (harg5 : arg5.IsWhole) (arg6 : Memref sig .tc .vmem S1x155648 .i32) (harg6 : arg6.IsWhole) (arg7 : Memref sig .tc .vmem S4x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S128x10 .f32) (harg11 : arg11.IsWhole) (arg12 : Memref sig .tc .vmem S1x10 .f32) (harg12 : arg12.IsWhole) (arg13 : Memref sig .tc .vmem S64x10 .f32) (harg13 : arg13.IsWhole) (arg14 : Memref sig .tc .vmem S64x4 .f32) (harg14 : arg14.IsWhole) (arg15 : Memref sig .tc .vmem S64x3 .f32) (harg15 : arg15.IsWhole) (hc0 : cond0_0 i) (hc1 : cond0_1 i) (hc2 : ¬cond0_2 i) (hc3 : ¬cond0_3 i)
    (x0 : Vec Ideal S1x106496 .f32) (x1 : Vec Ideal S1x106496 .i32) (x2 : Vec Ideal S2x401408 .f32) (x3 : Vec Ideal S1x401408 .i32) (x4 : Vec Ideal S1x155648 .f32) (x5 : Vec Ideal S1x155648 .i32) (x6 : Vec Ideal S4x128 .f32) (x7 : Vec Ideal S1x128 .f32) (x8 : Vec Ideal S128x128 .f32) (x9 : Vec Ideal S1x128 .f32) (x10 : Vec Ideal S128x10 .f32) (x11 : Vec Ideal S1x10 .f32) (b : Fin 64) (j : Fin 4) :
    sout0_A_0 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 x8 x9 x10 x11 (ix2 b j)
      = if j = 0 then zeroW + seg b.val (rowsG x1) (rowsE x0 0) 0 106496 else zeroW := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 x8 x9 x10 x11)]
  unfold kernelRun0_A
  dsimp only
  sl_unfold_words
  have hl0 : View.readAt (Elt Ideal) arg1.view (Rect.unit ![0, 0] S1x106496.size inb_S1x106496_S1x106496_0_0).toLoadRect (harg1.unread x0) = x0 := by
    rw [View.readAt_eq_ld, harg1.read_unread, View.ld_unit_zero (S := S1x106496) zero2]
  have hl1 : View.readAt (Elt Ideal) arg2.view (Rect.unit ![0, 0] S1x106496.size inb_S1x106496_S1x106496_0_0).toLoadRect (harg2.unread x1) = x1 := by
    rw [View.readAt_eq_ld, harg2.read_unread, View.ld_unit_zero (S := S1x106496) zero2]
  by_cases hj : j = 0
  · subst hj
    rw [if_pos rfl]
    refine (canon_cons_unit_inside (S := S64x4) ![0, 0] ![64, 1] inb_S64x4_S64x1_0_0 _ _ (ix2 b 0) (ix2 b (0 : Fin 1)) (by
      intro a
      match a with
      | ⟨0, _⟩ => exact (Nat.zero_add _).symm
      | ⟨1, _⟩ => rfl)).trans ?_
    simp only [hl0, hl1]
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33]
    have hz0 := fun (w : S64x4.Idx → EReal) =>
      readCov_single_whole (Val := Elt Ideal) (S := S64x4) (e := .f32) arg14.view zero2 inb_S64x4_S64x4_0_0 w ![0, 0] ![64, 1] inb_S64x4_S64x1_0_0 (ix2 b (0 : Fin 1)) (ix2 b 0) (by
        intro a
        match a with
        | ⟨0, _⟩ => exact (Nat.zero_add _).symm
        | ⟨1, _⟩ => rfl)
    simp only [Idealize.ShloMosaic.shapeCast_self, addf_apply, hz0, broadcast_apply]
    simp (config := {index := false}) only [sum1]
    simp only [Idealize.ShloMosaic.shapeCast_self, acc_step, Nat.reduceAdd]
    rfl
  · rw [if_neg hj]
    refine (canon_cons_unit_outside (S := S64x4) ![0, 0] ![64, 1] inb_S64x4_S64x1_0_0 _ _ (ix2 b j) 1 (by
      show 0 + 1 ≤ j.val
      have : j.val ≠ 0 := fun h => hj (Fin.ext h)
      omega)).trans ?_
    rw [View.canon_unit_zero zero2]
    simp only [k0_pay1, Idealize.ShloMosaic.shapeCast_self, broadcast_apply]
    rfl

/-- The counts after the first point. -/
theorem cntA (c : Dev nD) (i : grid0.Coords) (arg1 : Memref sig .tc .vmem S1x106496 .f32) (harg1 : arg1.IsWhole) (arg2 : Memref sig .tc .vmem S1x106496 .i32) (harg2 : arg2.IsWhole) (arg3 : Memref sig .tc .vmem S2x401408 .f32) (harg3 : arg3.IsWhole) (arg4 : Memref sig .tc .vmem S1x401408 .i32) (harg4 : arg4.IsWhole) (arg5 : Memref sig .tc .vmem S1x155648 .f32) (harg5 : arg5.IsWhole) (arg6 : Memref sig .tc .vmem S1x155648 .i32) (harg6 : arg6.IsWhole) (arg7 : Memref sig .tc .vmem S4x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S128x10 .f32) (harg11 : arg11.IsWhole) (arg12 : Memref sig .tc .vmem S1x10 .f32) (harg12 : arg12.IsWhole) (arg13 : Memref sig .tc .vmem S64x10 .f32) (harg13 : arg13.IsWhole) (arg14 : Memref sig .tc .vmem S64x4 .f32) (harg14 : arg14.IsWhole) (arg15 : Memref sig .tc .vmem S64x3 .f32) (harg15 : arg15.IsWhole) (hc0 : cond0_0 i) (hc1 : cond0_1 i) (hc2 : ¬cond0_2 i) (hc3 : ¬cond0_3 i)
    (x0 : Vec Ideal S1x106496 .f32) (x1 : Vec Ideal S1x106496 .i32) (x2 : Vec Ideal S2x401408 .f32) (x3 : Vec Ideal S1x401408 .i32) (x4 : Vec Ideal S1x155648 .f32) (x5 : Vec Ideal S1x155648 .i32) (x6 : Vec Ideal S4x128 .f32) (x7 : Vec Ideal S1x128 .f32) (x8 : Vec Ideal S128x128 .f32) (x9 : Vec Ideal S1x128 .f32) (x10 : Vec Ideal S128x10 .f32) (x11 : Vec Ideal S1x10 .f32) (b : Fin 64) (j : Fin 3) :
    sout0_A_1 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 x8 x9 x10 x11 (ix2 b j)
      = if j = 0 then zeroW + seg b.val (rowsG x1) (fun _ => oneW) 0 106496 else zeroW := by
  unfold sout0_A_1
  rw [View.read_writes_eq_canon _ _ _ (scover0_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 x8 x9 x10 x11)]
  unfold kernelRun0_A
  dsimp only
  sl_unfold_words
  have hl0 : View.readAt (Elt Ideal) arg1.view (Rect.unit ![0, 0] S1x106496.size inb_S1x106496_S1x106496_0_0).toLoadRect (harg1.unread x0) = x0 := by
    rw [View.readAt_eq_ld, harg1.read_unread, View.ld_unit_zero (S := S1x106496) zero2]
  have hl1 : View.readAt (Elt Ideal) arg2.view (Rect.unit ![0, 0] S1x106496.size inb_S1x106496_S1x106496_0_0).toLoadRect (harg2.unread x1) = x1 := by
    rw [View.readAt_eq_ld, harg2.read_unread, View.ld_unit_zero (S := S1x106496) zero2]
  by_cases hj : j = 0
  · subst hj
    rw [if_pos rfl]
    refine (canon_cons_unit_inside (S := S64x3) ![0, 0] ![64, 1] inb_S64x3_S64x1_0_0 _ _ (ix2 b 0) (ix2 b (0 : Fin 1)) (by
      intro a
      match a with
      | ⟨0, _⟩ => exact (Nat.zero_add _).symm
      | ⟨1, _⟩ => rfl)).trans ?_
    simp only [hl0, hl1]
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33]
    have hz0 := fun (w : S64x3.Idx → EReal) =>
      readCov_single_whole (Val := Elt Ideal) (S := S64x3) (e := .f32) arg15.view zero2 inb_S64x3_S64x3_0_0 w ![0, 0] ![64, 1] inb_S64x3_S64x1_0_0 (ix2 b (0 : Fin 1)) (ix2 b 0) (by
        intro a
        match a with
        | ⟨0, _⟩ => exact (Nat.zero_add _).symm
        | ⟨1, _⟩ => rfl)
    simp only [Idealize.ShloMosaic.shapeCast_self, addf_apply, hz0, broadcast_apply]
    simp (config := {index := false}) only [cnt1]
    simp only [Idealize.ShloMosaic.shapeCast_self, acc_step, Nat.reduceAdd]
    rfl
  · rw [if_neg hj]
    refine (canon_cons_unit_outside (S := S64x3) ![0, 0] ![64, 1] inb_S64x3_S64x1_0_0 _ _ (ix2 b j) 1 (by
      show 0 + 1 ≤ j.val
      have : j.val ≠ 0 := fun h => hj (Fin.ext h)
      omega)).trans ?_
    rw [View.canon_unit_zero zero2]
    simp only [k0_pay2, Idealize.ShloMosaic.shapeCast_self, broadcast_apply]
    rfl

end Cert.KernelIdeal.CaseA

end
-- ==== Proof.CaseB.lean ====
/-
  The second point of the grid: the second node type's 49 stretches of 8192 rows are added into columns 1 and 2 of the
  carried sums and into column 1 of the carried counts; the other columns keep what the point before left.

  The point loads the two windows of the carried arrays first, adds the stretches' products to them one after another,
  and stores each window back once.  Inside a stored window the result is the loaded value plus the segment's sum over
  all 401408 rows; outside it the carried contents are read back unchanged.
-/
import proofs.«430187_j28956669509884_3_alg».proof.Proof.Gen.KernelIdeal.Frame
import proofs.«430187_j28956669509884_3_alg».proof.Proof.ChunkK
import proofs.«430187_j28956669509884_3_alg».proof.Proof.CanonAt
import proofs.«430187_j28956669509884_3_alg».proof.Proof.Spec
import Idealize.ShloMosaic.Lib.WritesUnit
set_option maxRecDepth 16384
noncomputable section
namespace Cert.KernelIdeal.CaseB
open Cert.KernelIdeal Cert.KernelIdeal.Gen Cert.Pool
open Idealize.ShloMosaic Idealize.ShloMosaic.TcCoe Idealize.ShloMosaic.Tactic Idealize.ShloMosaic.ValueIdx
open Idealize.SL Idealize.SL.Sem

open Cert.KernelIdeal.ChunkK

/-- A load of a unit-stride window of a whole buffer holding X reads X at the shifted index. -/
theorem readAt_unread_unit {Val : EltTy → Type} {S : Shape} {e : EltTy} {sig : RefSig} {κ : Kind} {sp : Space}
    (m : Memref sig κ sp S e) (h : m.IsWhole) (X : S.Idx → Val e)
    (off size : Fin S.rank → Nat) (inb : ∀ a, off a + size a ≤ S.size a)
    (x : (Rect.unit off size inb).shape.Idx) (y : S.Idx) (hy : ∀ a, (y a).val = off a + (x a).val) :
    View.readAt Val m.view (Rect.unit off size inb).toLoadRect (h.unread X) x = X y := by
  rw [View.readAt_eq_ld, h.read_unread]
  show X ((Rect.unit off size inb).emb x) = X y
  refine congrArg X (funext fun a => Fin.ext ?_)
  rw [hy a]
  simp [Rect.emb_apply]

/-- Columns 1 and 2 of the sums: the carried value plus the segment's sum of feature row k over all the rows. -/
theorem sum_col (c : Dev nD) (i : grid0.Coords) (arg1 : Memref sig .tc .vmem S1x106496 .f32) (harg1 : arg1.IsWhole) (arg2 : Memref sig .tc .vmem S1x106496 .i32) (harg2 : arg2.IsWhole) (arg3 : Memref sig .tc .vmem S2x401408 .f32) (harg3 : arg3.IsWhole) (arg4 : Memref sig .tc .vmem S1x401408 .i32) (harg4 : arg4.IsWhole) (arg5 : Memref sig .tc .vmem S1x155648 .f32) (harg5 : arg5.IsWhole) (arg6 : Memref sig .tc .vmem S1x155648 .i32) (harg6 : arg6.IsWhole) (arg7 : Memref sig .tc .vmem S4x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S128x10 .f32) (harg11 : arg11.IsWhole) (arg12 : Memref sig .tc .vmem S1x10 .f32) (harg12 : arg12.IsWhole) (arg13 : Memref sig .tc .vmem S64x10 .f32) (harg13 : arg13.IsWhole) (arg14 : Memref sig .tc .vmem S64x4 .f32) (harg14 : arg14.IsWhole) (arg15 : Memref sig .tc .vmem S64x3 .f32) (harg15 : arg15.IsWhole) (hc0 : ¬cond0_0 i) (hc1 : ¬cond0_1 i) (hc2 : cond0_2 i) (hc3 : ¬cond0_3 i) (x0 : Vec Ideal S1x106496 .f32) (x1 : Vec Ideal S1x106496 .i32) (x2 : Vec Ideal S2x401408 .f32) (x3 : Vec Ideal S1x401408 .i32) (x4 : Vec Ideal S1x155648 .f32) (x5 : Vec Ideal S1x155648 .i32) (x6 : Vec Ideal S4x128 .f32) (x7 : Vec Ideal S1x128 .f32) (x8 : Vec Ideal S128x128 .f32) (x9 : Vec Ideal S1x128 .f32) (x10 : Vec Ideal S128x10 .f32) (x11 : Vec Ideal S1x10 .f32) (xs0 : Vec Ideal S64x4 .f32) (xs1 : Vec Ideal S64x3 .f32) (b : Fin 64) (k : Fin 2) :
    sout0_B_0 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 x8 x9 x10 x11 xs0 xs1 (ix2 b ⟨1 + k.val, by omega⟩)
      = xs0 (ix2 b ⟨1 + k.val, by omega⟩) + seg b.val (rowsG x3) (rowsE x2 k) 0 401408 := by
  unfold sout0_B_0
  unfold kernelRun0_B
  dsimp only
  sl_unfold_words
  refine (View.read_writes_cons_unit_of_mem (s := S64x4) arg14.view (harg14.unread xs0) inb_S64x4_S64x2_0_1 _ [] (ix2 b ⟨1 + k.val, by omega⟩) (ix2 b k) rfl (by
    intro a
    match a with
    | ⟨0, _⟩ => exact (Nat.zero_add _).symm
    | ⟨1, _⟩ => rfl)).trans ?_
  have hl0 : View.readAt (Elt Ideal) arg3.view (Rect.unit ![0, 0] S2x401408.size inb_S2x401408_S2x401408_0_0).toLoadRect (harg3.unread x2) = x2 := by
    rw [View.readAt_eq_ld, harg3.read_unread, View.ld_unit_zero (S := S2x401408) zero2]
  have hl1 : View.readAt (Elt Ideal) arg4.view (Rect.unit ![0, 0] S1x401408.size inb_S1x401408_S1x401408_0_0).toLoadRect (harg4.unread x3) = x3 := by
    rw [View.readAt_eq_ld, harg4.read_unread, View.ld_unit_zero (S := S1x401408) zero2]
  simp only [hl0, hl1]
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168]
  have hz := readAt_unread_unit (Val := Elt Ideal) arg14 harg14 xs0 ![0, 1] S64x2.size inb_S64x4_S64x2_0_1 (ix2 b k) (ix2 b ⟨1 + k.val, by omega⟩) (by
    intro a
    match a with
    | ⟨0, _⟩ => exact (Nat.zero_add _).symm
    | ⟨1, _⟩ => rfl)
  simp only [Idealize.ShloMosaic.shapeCast_self, addf_apply, hz, broadcast_apply]
  simp (config := {index := false}) only [sum2]
  simp only [Idealize.ShloMosaic.shapeCast_self, acc_step, Nat.reduceAdd]

/-- Columns 0 and 3 of the sums keep the carried value. -/
theorem sum_keep (c : Dev nD) (i : grid0.Coords) (arg1 : Memref sig .tc .vmem S1x106496 .f32) (harg1 : arg1.IsWhole) (arg2 : Memref sig .tc .vmem S1x106496 .i32) (harg2 : arg2.IsWhole) (arg3 : Memref sig .tc .vmem S2x401408 .f32) (harg3 : arg3.IsWhole) (arg4 : Memref sig .tc .vmem S1x401408 .i32) (harg4 : arg4.IsWhole) (arg5 : Memref sig .tc .vmem S1x155648 .f32) (harg5 : arg5.IsWhole) (arg6 : Memref sig .tc .vmem S1x155648 .i32) (harg6 : arg6.IsWhole) (arg7 : Memref sig .tc .vmem S4x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S128x10 .f32) (harg11 : arg11.IsWhole) (arg12 : Memref sig .tc .vmem S1x10 .f32) (harg12 : arg12.IsWhole) (arg13 : Memref sig .tc .vmem S64x10 .f32) (harg13 : arg13.IsWhole) (arg14 : Memref sig .tc .vmem S64x4 .f32) (harg14 : arg14.IsWhole) (arg15 : Memref sig .tc .vmem S64x3 .f32) (harg15 : arg15.IsWhole) (hc0 : ¬cond0_0 i) (hc1 : ¬cond0_1 i) (hc2 : cond0_2 i) (hc3 : ¬cond0_3 i) (x0 : Vec Ideal S1x106496 .f32) (x1 : Vec Ideal S1x106496 .i32) (x2 : Vec Ideal S2x401408 .f32) (x3 : Vec Ideal S1x401408 .i32) (x4 : Vec Ideal S1x155648 .f32) (x5 : Vec Ideal S1x155648 .i32) (x6 : Vec Ideal S4x128 .f32) (x7 : Vec Ideal S1x128 .f32) (x8 : Vec Ideal S128x128 .f32) (x9 : Vec Ideal S1x128 .f32) (x10 : Vec Ideal S128x10 .f32) (x11 : Vec Ideal S1x10 .f32) (xs0 : Vec Ideal S64x4 .f32) (xs1 : Vec Ideal S64x3 .f32) (b : Fin 64) (j : Fin 4) (hj : j.val < 1 ∨ 1 + 2 ≤ j.val) :
    sout0_B_0 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 x8 x9 x10 x11 xs0 xs1 (ix2 b j) = xs0 (ix2 b j) := by
  unfold sout0_B_0
  unfold kernelRun0_B
  dsimp only
  sl_unfold_words
  refine (View.read_writes_cons_unit_of_not_mem (s := S64x4) arg14.view (harg14.unread xs0) inb_S64x4_S64x2_0_1 _ [] (ix2 b j) rfl 1 hj).trans ?_
  rw [View.writes_nil, harg14.read_unread]

/-- Column 1 of the counts: the carried value plus the segment's row count over all the rows. -/
theorem cnt_col (c : Dev nD) (i : grid0.Coords) (arg1 : Memref sig .tc .vmem S1x106496 .f32) (harg1 : arg1.IsWhole) (arg2 : Memref sig .tc .vmem S1x106496 .i32) (harg2 : arg2.IsWhole) (arg3 : Memref sig .tc .vmem S2x401408 .f32) (harg3 : arg3.IsWhole) (arg4 : Memref sig .tc .vmem S1x401408 .i32) (harg4 : arg4.IsWhole) (arg5 : Memref sig .tc .vmem S1x155648 .f32) (harg5 : arg5.IsWhole) (arg6 : Memref sig .tc .vmem S1x155648 .i32) (harg6 : arg6.IsWhole) (arg7 : Memref sig .tc .vmem S4x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S128x10 .f32) (harg11 : arg11.IsWhole) (arg12 : Memref sig .tc .vmem S1x10 .f32) (harg12 : arg12.IsWhole) (arg13 : Memref sig .tc .vmem S64x10 .f32) (harg13 : arg13.IsWhole) (arg14 : Memref sig .tc .vmem S64x4 .f32) (harg14 : arg14.IsWhole) (arg15 : Memref sig .tc .vmem S64x3 .f32) (harg15 : arg15.IsWhole) (hc0 : ¬cond0_0 i) (hc1 : ¬cond0_1 i) (hc2 : cond0_2 i) (hc3 : ¬cond0_3 i) (x0 : Vec Ideal S1x106496 .f32) (x1 : Vec Ideal S1x106496 .i32) (x2 : Vec Ideal S2x401408 .f32) (x3 : Vec Ideal S1x401408 .i32) (x4 : Vec Ideal S1x155648 .f32) (x5 : Vec Ideal S1x155648 .i32) (x6 : Vec Ideal S4x128 .f32) (x7 : Vec Ideal S1x128 .f32) (x8 : Vec Ideal S128x128 .f32) (x9 : Vec Ideal S1x128 .f32) (x10 : Vec Ideal S128x10 .f32) (x11 : Vec Ideal S1x10 .f32) (xs0 : Vec Ideal S64x4 .f32) (xs1 : Vec Ideal S64x3 .f32) (b : Fin 64) :
    sout0_B_1 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 x8 x9 x10 x11 xs0 xs1 (ix2 b 1)
      = xs1 (ix2 b 1) + seg b.val (rowsG x3) (fun _ => oneW) 0 401408 := by
  unfold sout0_B_1
  unfold kernelRun0_B
  dsimp only
  sl_unfold_words
  refine (View.read_writes_cons_unit_of_mem (s := S64x3) arg15.view (harg15.unread xs1) inb_S64x3_S64x1_0_1 _ [] (ix2 b 1) (ix2 b (0 : Fin 1)) rfl (by
    intro a
    match a with
    | ⟨0, _⟩ => exact (Nat.zero_add _).symm
    | ⟨1, _⟩ => rfl)).trans ?_
  have hl0 : View.readAt (Elt Ideal) arg3.view (Rect.unit ![0, 0] S2x401408.size inb_S2x401408_S2x401408_0_0).toLoadRect (harg3.unread x2) = x2 := by
    rw [View.readAt_eq_ld, harg3.read_unread, View.ld_unit_zero (S := S2x401408) zero2]
  have hl1 : View.readAt (Elt Ideal) arg4.view (Rect.unit ![0, 0] S1x401408.size inb_S1x401408_S1x401408_0_0).toLoadRect (harg4.unread x3) = x3 := by
    rw [View.readAt_eq_ld, harg4.read_unread, View.ld_unit_zero (S := S1x401408) zero2]
  simp only [hl0, hl1]
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168]
  have hz := readAt_unread_unit (Val := Elt Ideal) arg15 harg15 xs1 ![0, 1] S64x1.size inb_S64x3_S64x1_0_1 (ix2 b (0 : Fin 1)) (ix2 b 1) (by
    intro a
    match a with
    | ⟨0, _⟩ => exact (Nat.zero_add _).symm
    | ⟨1, _⟩ => rfl)
  simp only [Idealize.ShloMosaic.shapeCast_self, addf_apply, hz, broadcast_apply]
  simp (config := {index := false}) only [cnt2]
  simp only [Idealize.ShloMosaic.shapeCast_self, acc_step, Nat.reduceAdd]
  rfl

/-- Columns 0 and 2 of the counts keep the carried value. -/
theorem cnt_keep (c : Dev nD) (i : grid0.Coords) (arg1 : Memref sig .tc .vmem S1x106496 .f32) (harg1 : arg1.IsWhole) (arg2 : Memref sig .tc .vmem S1x106496 .i32) (harg2 : arg2.IsWhole) (arg3 : Memref sig .tc .vmem S2x401408 .f32) (harg3 : arg3.IsWhole) (arg4 : Memref sig .tc .vmem S1x401408 .i32) (harg4 : arg4.IsWhole) (arg5 : Memref sig .tc .vmem S1x155648 .f32) (harg5 : arg5.IsWhole) (arg6 : Memref sig .tc .vmem S1x155648 .i32) (harg6 : arg6.IsWhole) (arg7 : Memref sig .tc .vmem S4x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S128x10 .f32) (harg11 : arg11.IsWhole) (arg12 : Memref sig .tc .vmem S1x10 .f32) (harg12 : arg12.IsWhole) (arg13 : Memref sig .tc .vmem S64x10 .f32) (harg13 : arg13.IsWhole) (arg14 : Memref sig .tc .vmem S64x4 .f32) (harg14 : arg14.IsWhole) (arg15 : Memref sig .tc .vmem S64x3 .f32) (harg15 : arg15.IsWhole) (hc0 : ¬cond0_0 i) (hc1 : ¬cond0_1 i) (hc2 : cond0_2 i) (hc3 : ¬cond0_3 i) (x0 : Vec Ideal S1x106496 .f32) (x1 : Vec Ideal S1x106496 .i32) (x2 : Vec Ideal S2x401408 .f32) (x3 : Vec Ideal S1x401408 .i32) (x4 : Vec Ideal S1x155648 .f32) (x5 : Vec Ideal S1x155648 .i32) (x6 : Vec Ideal S4x128 .f32) (x7 : Vec Ideal S1x128 .f32) (x8 : Vec Ideal S128x128 .f32) (x9 : Vec Ideal S1x128 .f32) (x10 : Vec Ideal S128x10 .f32) (x11 : Vec Ideal S1x10 .f32) (xs0 : Vec Ideal S64x4 .f32) (xs1 : Vec Ideal S64x3 .f32) (b : Fin 64) (j : Fin 3) (hj : j.val < 1 ∨ 1 + 1 ≤ j.val) :
    sout0_B_1 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 x8 x9 x10 x11 xs0 xs1 (ix2 b j) = xs1 (ix2 b j) := by
  unfold sout0_B_1
  unfold kernelRun0_B
  dsimp only
  sl_unfold_words
  refine (View.read_writes_cons_unit_of_not_mem (s := S64x3) arg15.view (harg15.unread xs1) inb_S64x3_S64x1_0_1 _ [] (ix2 b j) rfl 1 hj).trans ?_
  rw [View.writes_nil, harg15.read_unread]

/-- What the second point leaves in the sums. -/
theorem sumB (c : Dev nD) (i : grid0.Coords) (arg1 : Memref sig .tc .vmem S1x106496 .f32) (harg1 : arg1.IsWhole) (arg2 : Memref sig .tc .vmem S1x106496 .i32) (harg2 : arg2.IsWhole) (arg3 : Memref sig .tc .vmem S2x401408 .f32) (harg3 : arg3.IsWhole) (arg4 : Memref sig .tc .vmem S1x401408 .i32) (harg4 : arg4.IsWhole) (arg5 : Memref sig .tc .vmem S1x155648 .f32) (harg5 : arg5.IsWhole) (arg6 : Memref sig .tc .vmem S1x155648 .i32) (harg6 : arg6.IsWhole) (arg7 : Memref sig .tc .vmem S4x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S128x10 .f32) (harg11 : arg11.IsWhole) (arg12 : Memref sig .tc .vmem S1x10 .f32) (harg12 : arg12.IsWhole) (arg13 : Memref sig .tc .vmem S64x10 .f32) (harg13 : arg13.IsWhole) (arg14 : Memref sig .tc .vmem S64x4 .f32) (harg14 : arg14.IsWhole) (arg15 : Memref sig .tc .vmem S64x3 .f32) (harg15 : arg15.IsWhole) (hc0 : ¬cond0_0 i) (hc1 : ¬cond0_1 i) (hc2 : cond0_2 i) (hc3 : ¬cond0_3 i) (x0 : Vec Ideal S1x106496 .f32) (x1 : Vec Ideal S1x106496 .i32) (x2 : Vec Ideal S2x401408 .f32) (x3 : Vec Ideal S1x401408 .i32) (x4 : Vec Ideal S1x155648 .f32) (x5 : Vec Ideal S1x155648 .i32) (x6 : Vec Ideal S4x128 .f32) (x7 : Vec Ideal S1x128 .f32) (x8 : Vec Ideal S128x128 .f32) (x9 : Vec Ideal S1x128 .f32) (x10 : Vec Ideal S128x10 .f32) (x11 : Vec Ideal S1x10 .f32) (xs0 : Vec Ideal S64x4 .f32) (xs1 : Vec Ideal S64x3 .f32) (b : Fin 64) (j : Fin 4) :
    sout0_B_0 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 x8 x9 x10 x11 xs0 xs1 (ix2 b j)
      = if j = 1 then xs0 (ix2 b 1) + seg b.val (rowsG x3) (rowsE x2 0) 0 401408
        else if j = 2 then xs0 (ix2 b 2) + seg b.val (rowsG x3) (rowsE x2 1) 0 401408
        else xs0 (ix2 b j) := by
  match j with
  | ⟨0, _⟩ =>
    rw [if_neg (fun h => absurd (show (0 : ℕ) = 1 from congrArg Fin.val h) (by decide)), if_neg (fun h => absurd (show (0 : ℕ) = 2 from congrArg Fin.val h) (by decide))]
    exact sum_keep c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 x8 x9 x10 x11 xs0 xs1 b ⟨0, by omega⟩ (Or.inl Nat.zero_lt_one)
  | ⟨1, _⟩ =>
    rw [if_pos (show ((⟨1, by omega⟩ : Fin 4) = 1) from rfl)]
    exact sum_col c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 x8 x9 x10 x11 xs0 xs1 b 0
  | ⟨2, _⟩ =>
    rw [if_neg (fun h => absurd (show (2 : ℕ) = 1 from congrArg Fin.val h) (by decide)), if_pos (show ((⟨2, by omega⟩ : Fin 4) = 2) from rfl)]
    exact sum_col c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 x8 x9 x10 x11 xs0 xs1 b 1
  | ⟨3, _⟩ =>
    rw [if_neg (fun h => absurd (show (3 : ℕ) = 1 from congrArg Fin.val h) (by decide)), if_neg (fun h => absurd (show (3 : ℕ) = 2 from congrArg Fin.val h) (by decide))]
    exact sum_keep c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 x8 x9 x10 x11 xs0 xs1 b ⟨3, by omega⟩ (Or.inr (Nat.le_refl 3))

/-- What the second point leaves in the counts. -/
theorem cntB (c : Dev nD) (i : grid0.Coords) (arg1 : Memref sig .tc .vmem S1x106496 .f32) (harg1 : arg1.IsWhole) (arg2 : Memref sig .tc .vmem S1x106496 .i32) (harg2 : arg2.IsWhole) (arg3 : Memref sig .tc .vmem S2x401408 .f32) (harg3 : arg3.IsWhole) (arg4 : Memref sig .tc .vmem S1x401408 .i32) (harg4 : arg4.IsWhole) (arg5 : Memref sig .tc .vmem S1x155648 .f32) (harg5 : arg5.IsWhole) (arg6 : Memref sig .tc .vmem S1x155648 .i32) (harg6 : arg6.IsWhole) (arg7 : Memref sig .tc .vmem S4x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S128x10 .f32) (harg11 : arg11.IsWhole) (arg12 : Memref sig .tc .vmem S1x10 .f32) (harg12 : arg12.IsWhole) (arg13 : Memref sig .tc .vmem S64x10 .f32) (harg13 : arg13.IsWhole) (arg14 : Memref sig .tc .vmem S64x4 .f32) (harg14 : arg14.IsWhole) (arg15 : Memref sig .tc .vmem S64x3 .f32) (harg15 : arg15.IsWhole) (hc0 : ¬cond0_0 i) (hc1 : ¬cond0_1 i) (hc2 : cond0_2 i) (hc3 : ¬cond0_3 i) (x0 : Vec Ideal S1x106496 .f32) (x1 : Vec Ideal S1x106496 .i32) (x2 : Vec Ideal S2x401408 .f32) (x3 : Vec Ideal S1x401408 .i32) (x4 : Vec Ideal S1x155648 .f32) (x5 : Vec Ideal S1x155648 .i32) (x6 : Vec Ideal S4x128 .f32) (x7 : Vec Ideal S1x128 .f32) (x8 : Vec Ideal S128x128 .f32) (x9 : Vec Ideal S1x128 .f32) (x10 : Vec Ideal S128x10 .f32) (x11 : Vec Ideal S1x10 .f32) (xs0 : Vec Ideal S64x4 .f32) (xs1 : Vec Ideal S64x3 .f32) (b : Fin 64) (j : Fin 3) :
    sout0_B_1 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 x8 x9 x10 x11 xs0 xs1 (ix2 b j)
      = if j = 1 then xs1 (ix2 b 1) + seg b.val (rowsG x3) (fun _ => oneW) 0 401408 else xs1 (ix2 b j) := by
  match j with
  | ⟨0, _⟩ =>
    rw [if_neg (fun h => absurd (show (0 : ℕ) = 1 from congrArg Fin.val h) (by decide))]
    exact cnt_keep c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 x8 x9 x10 x11 xs0 xs1 b ⟨0, by omega⟩ (Or.inl Nat.zero_lt_one)
  | ⟨1, _⟩ =>
    rw [if_pos (show ((⟨1, by omega⟩ : Fin 3) = 1) from rfl)]
    exact cnt_col c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 x8 x9 x10 x11 xs0 xs1 b
  | ⟨2, _⟩ =>
    rw [if_neg (fun h => absurd (show (2 : ℕ) = 1 from congrArg Fin.val h) (by decide))]
    exact cnt_keep c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 x8 x9 x10 x11 xs0 xs1 b ⟨2, by omega⟩ (Or.inr (Nat.le_refl 2))

end Cert.KernelIdeal.CaseB
end
-- ==== Proof.Mlp.lean ====
/-
  The perceptron on its own: the two hidden layers and the linear layer as functions of the four pooled values of one graph,
  the weights, and the biases as functions of the column.  The specification's result is this at the pooled means.
-/
import Idealize.ShloMosaic.PureOps.Ideal.Laws
import Idealize.ShloMosaic.Lib.ValueIdx
import proofs.«430187_j28956669509884_3_alg».proof.Proof.Spec

noncomputable section

namespace Cert.Pool

open Idealize.ShloMosaic Idealize.ShloMosaic.ValueIdx

variable (hg : Fin 4 → EReal)
  (w1 : (⟨2, ![4, 128]⟩ : Shape).Idx → EReal) (b1 : Fin 128 → EReal)
  (w2 : (⟨2, ![128, 128]⟩ : Shape).Idx → EReal) (b2 : Fin 128 → EReal)
  (w3 : (⟨2, ![128, 10]⟩ : Shape).Idx → EReal) (b3 : Fin 10 → EReal)

def mlpHidden1 (j : Fin 128) : EReal :=
  max ((∑ k : Fin 4, hg k * w1 (ix2 k j)) + b1 j) zeroW

def mlpHidden2 (j : Fin 128) : EReal :=
  max ((∑ k : Fin 128, mlpHidden1 hg w1 b1 k * w2 (ix2 k j)) + b2 j) zeroW

def mlpOut (j : Fin 10) : EReal :=
  (∑ k : Fin 128, mlpHidden2 hg w1 b1 w2 b2 k * w3 (ix2 k j)) + b3 j

/-- A pooled value from its accumulated total and count: total / max(count, 1). -/
def hgOf (s c : Fin 4 → EReal) (k : Fin 4) : EReal := Ideal.div (s k) (max (c k) oneW)

/-- The specification's result is the perceptron at the pooled means. -/
theorem logits_eq_mlp (hc : (⟨2, ![100000, 1]⟩ : Shape).Idx → EReal) (hp : (⟨2, ![400000, 2]⟩ : Shape).Idx → EReal)
    (hn : (⟨2, ![150000, 1]⟩ : Shape).Idx → EReal)
    (gc : (⟨1, ![100000]⟩ : Shape).Idx → BitVec 32) (gp : (⟨1, ![400000]⟩ : Shape).Idx → BitVec 32)
    (gn : (⟨1, ![150000]⟩ : Shape).Idx → BitVec 32)
    (a1 : (⟨1, ![128]⟩ : Shape).Idx → EReal) (a2 : (⟨1, ![128]⟩ : Shape).Idx → EReal) (a3 : (⟨1, ![10]⟩ : Shape).Idx → EReal)
    (b : ℕ) (j : Fin 10) :
    logits hc hp hn gc gp gn w1 a1 w2 a2 w3 a3 b j
      = mlpOut (pooled hc hp hn gc gp gn b) w1 (fun j => a1 (ix1 j)) w2 (fun j => a2 (ix1 j)) w3 (fun j => a3 (ix1 j)) j := rfl

end Cert.Pool

end
-- ==== Proof.CaseCLayers.lean ====
/-
  The kernel's last point after the pooling, read at an index: the four count columns laid side by side, the division of the
  accumulated totals by max(count, 1), and the three layers of the perceptron, each a plain product into the zero accumulator plus
  a bias row repeated over the graphs.
-/
import proofs.«430187_j28956669509884_3_alg».proof.Proof.Gen.KernelIdeal.Frame
import proofs.«430187_j28956669509884_3_alg».proof.Proof.Spec
import proofs.«430187_j28956669509884_3_alg».proof.Proof.Mlp
import proofs.«430187_j28956669509884_3_alg».proof.Proof.LibPlainDot
import Idealize.ShloMosaic.Lib.ValueLayout
set_option maxRecDepth 16384
noncomputable section
namespace Cert.KernelIdeal.CaseC
open Cert.KernelIdeal Cert.KernelIdeal.Gen Cert.Pool Cert.Lib.PlainDot
open Idealize.ShloMosaic Idealize.ShloMosaic.TcCoe Idealize.ShloMosaic.Tactic Idealize.ShloMosaic.ValueIdx
open Idealize.SL Idealize.SL.Sem

section reads
variable {Val : EltTy → Type} [∀ e, Nonempty (Val e)] {S : Shape} {e : EltTy} {sig' : RefSig} {κ : Kind} {sp : Space}
  {m : Memref sig' κ sp S e}

/-- A load of a window of a whole buffer that reads X reads X at the window's indices. -/
theorem readAt_unread (h : m.IsWhole) (X : S.Idx → Val e)
    (off size : Fin S.rank → Nat) (inb : ∀ a, off a + size a ≤ S.size a)
    (j : (Rect.unit off size inb).shape.Idx) (y : S.Idx) (hy : ∀ a, (y a).val = off a + (j a).val) :
    View.readAt Val m.view (Rect.unit off size inb).toLoadRect (h.unread X) j = X y := by
  rw [View.readAt_eq_ld, h.read_unread]
  show X ((Rect.unit off size inb).emb j) = X y
  refine congrArg X (funext fun a => Fin.ext ?_)
  rw [hy a]
  simp [Rect.emb_apply]

/-- A load of the whole buffer after ONE store of a window over contents X, at an index inside the window: the stored value. -/
theorem readAt_writes1_inside (h : m.IsWhole) (X : S.Idx → Val e)
    {off0 : Fin S.rank → Nat} (h0 : off0 = fun _ => 0) (inb0 : ∀ a, off0 a + S.size a ≤ S.size a)
    (off size : Fin S.rank → Nat) (inb : ∀ a, off a + size a ≤ S.size a) (w : (Rect.unit off size inb).shape.Idx → Val e)
    (y : S.Idx) (x : (Rect.unit off size inb).shape.Idx) (hx : ∀ a, (y a).val = off a + (x a).val) :
    View.readAt Val m.view (Rect.unit off0 S.size inb0).toLoadRect
      (m.view.writes Val (h.unread X) [(⟨Rect.unit off size inb, w⟩ : View.Piece Val S e)]) y = w x := by
  rw [View.readAt_eq_ld, View.ld_unit_zero h0 inb0]
  have hy : y = (Rect.unit off size inb).emb x := funext fun a => Fin.ext (by
    rw [hx a]
    simp [Rect.emb_apply])
  rw [hy, View.read_writes_cons_emb]

/-- The same at an index outside the window: what the buffer held. -/
theorem readAt_writes1_outside (h : m.IsWhole) (X : S.Idx → Val e)
    {off0 : Fin S.rank → Nat} (h0 : off0 = fun _ => 0) (inb0 : ∀ a, off0 a + S.size a ≤ S.size a)
    (off size : Fin S.rank → Nat) (inb : ∀ a, off a + size a ≤ S.size a) (w : (Rect.unit off size inb).shape.Idx → Val e)
    (y : S.Idx) (a : Fin S.rank) (ha : (y a).val < off a) :
    View.readAt Val m.view (Rect.unit off0 S.size inb0).toLoadRect
      (m.view.writes Val (h.unread X) [(⟨Rect.unit off size inb, w⟩ : View.Piece Val S e)]) y = X y := by
  rw [View.readAt_eq_ld, View.ld_unit_zero h0 inb0, View.read_writes_apply_of_forall_not_mem, h.read_unread]
  intro p hp hm
  rw [List.mem_singleton.mp hp] at hm
  have hm' : y ∈ (Rect.unit off size inb).set := hm
  have := ((Rect.mem_set_unit (inb := inb)).mp hm' a).1
  omega
end reads

/-- The bias row of the first layer, repeated over the graphs. -/
theorem pay168_apply (v : Vec Ideal S1x128 .f32) (b : Fin 64) (k : Fin 128) :
    k0_pay168 (F := Ideal) v (ix2 b k) = v (ix2 0 k) := by
  unfold k0_pay168
  rw [Idealize.ShloMosaic.shapeCast_self]
  exact broadcastTo_1b_ab_apply v _ b k

/-- Four 64 × 1 columns laid side by side, read at (b, q). -/
theorem cat4_apply (v0 v1 v2 v3 : Vec Ideal S64x1 .f32) (h : Shape.Concatenates [S64x1, S64x1, S64x1, S64x1] S64x4 1)
    (b : Fin 64) (q : Fin 4) (c : Fin 4 → EReal)
    (h0 : v0 (ix2 b 0) = c 0) (h1 : v1 (ix2 b 0) = c 1) (h2 : v2 (ix2 b 0) = c 2) (h3 : v3 (ix2 b 0) = c 3) :
    (concatenate S64x4 1 [⟨S64x1, v0⟩, ⟨S64x1, v1⟩, ⟨S64x1, v2⟩, ⟨S64x1, v3⟩] h : FVec Ideal S64x4 .f32) (ix2 b q) = c q := by
  match q with
  | ⟨0, _⟩ =>
    refine (concatenate_apply_piece (t := S64x4) 1 [⟨S64x1, v0⟩, ⟨S64x1, v1⟩, ⟨S64x1, v2⟩, ⟨S64x1, v3⟩] h (ix2 b (⟨0, by omega⟩ : Fin 4)) 0 (by show (0 : ℕ) < 4; omega) S64x1 v0 rfl rfl 0 rfl (ix2 b 0) ?_ rfl).trans h0
    intro a ha
    match a with
    | ⟨0, _⟩ => rfl
    | ⟨1, _⟩ => exact absurd rfl ha
  | ⟨1, _⟩ =>
    refine (concatenate_apply_piece (t := S64x4) 1 [⟨S64x1, v0⟩, ⟨S64x1, v1⟩, ⟨S64x1, v2⟩, ⟨S64x1, v3⟩] h (ix2 b (⟨1, by omega⟩ : Fin 4)) 1 (by show (1 : ℕ) < 4; omega) S64x1 v1 rfl rfl 1 rfl (ix2 b 0) ?_ rfl).trans h1
    intro a ha
    match a with
    | ⟨0, _⟩ => rfl
    | ⟨1, _⟩ => exact absurd rfl ha
  | ⟨2, _⟩ =>
    refine (concatenate_apply_piece (t := S64x4) 1 [⟨S64x1, v0⟩, ⟨S64x1, v1⟩, ⟨S64x1, v2⟩, ⟨S64x1, v3⟩] h (ix2 b (⟨2, by omega⟩ : Fin 4)) 2 (by show (2 : ℕ) < 4; omega) S64x1 v2 rfl rfl 2 rfl (ix2 b 0) ?_ rfl).trans h2
    intro a ha
    match a with
    | ⟨0, _⟩ => rfl
    | ⟨1, _⟩ => exact absurd rfl ha
  | ⟨3, _⟩ =>
    refine (concatenate_apply_piece (t := S64x4) 1 [⟨S64x1, v0⟩, ⟨S64x1, v1⟩, ⟨S64x1, v2⟩, ⟨S64x1, v3⟩] h (ix2 b (⟨3, by omega⟩ : Fin 4)) 3 (by show (3 : ℕ) < 4; omega) S64x1 v3 rfl rfl 3 rfl (ix2 b 0) ?_ rfl).trans h3
    intro a ha
    match a with
    | ⟨0, _⟩ => rfl
    | ⟨1, _⟩ => exact absurd rfl ha

/-- The first layer's product: the totals divided by max(count, 1), times the first weight matrix. -/
theorem pay167_apply (v290 v291 v292 v293 : Vec Ideal S64x1 .f32) (v295 : Vec Ideal S64x4 .f32) (v299 : Vec Ideal S4x128 .f32)
    (b : Fin 64) (k : Fin 128) (s c : Fin 4 → EReal) (hs : ∀ q, v295 (ix2 b q) = s q)
    (h0 : v290 (ix2 b 0) = c 0) (h1 : v291 (ix2 b 0) = c 1) (h2 : v292 (ix2 b 0) = c 2) (h3 : v293 (ix2 b 0) = c 3) :
    k0_pay167 (F := Ideal) v290 v291 v292 v293 v295 v299 (ix2 b k) = ∑ q : Fin 4, hgOf s c q * v299 (ix2 q k) := by
  unfold k0_pay167
  refine (matmul_plain_zero_ix2 64 4 128 _ _ _ b k).trans ?_
  refine Finset.sum_congr rfl fun q _ => ?_
  refine congrArg (fun a : EReal => a * v299 (ix2 q k)) ?_
  unfold hgOf
  rw [divf_apply, maximumf_apply, broadcast_apply, hs q, cat4_apply v290 v291 v292 v293 _ b q c h0 h1 h2 h3]
  rfl

/-- The perceptron over the pooled block: the last point's result at (b, j). -/
theorem head_apply (v290 v291 v292 v293 : Vec Ideal S64x1 .f32) (v295 : Vec Ideal S64x4 .f32)
    (x6 : Vec Ideal S4x128 .f32) (x7 : Vec Ideal S1x128 .f32) (x8 : Vec Ideal S128x128 .f32) (x9 : Vec Ideal S1x128 .f32)
    (x10 : Vec Ideal S128x10 .f32) (x11 : Vec Ideal S1x10 .f32)
    (b : Fin 64) (j : Fin 10) (s c : Fin 4 → EReal) (hs : ∀ q, v295 (ix2 b q) = s q)
    (h0 : v290 (ix2 b 0) = c 0) (h1 : v291 (ix2 b 0) = c 1) (h2 : v292 (ix2 b 0) = c 2) (h3 : v293 (ix2 b 0) = c 3) :
    k0_pay11 (F := Ideal) (k0_pay167 v290 v291 v292 v293 v295 x6) (k0_pay168 x7) x8 x9 x10 x11 (ix2 b j)
      = mlpOut (hgOf s c) x6 (fun j => x7 (ix2 0 j)) x8 (fun j => x9 (ix2 0 j)) x10 (fun j => x11 (ix2 0 j)) j := by
  unfold k0_pay11 mlpOut
  simp only [Idealize.ShloMosaic.shapeCast_self]
  rw [addf_apply, broadcastTo_1b_ab_apply x11 _ b j]
  refine congrArg (fun a : EReal => a + x11 (ix2 0 j)) ?_
  refine (matmul_plain_zero_ix2 64 128 10 _ _ _ b j).trans ?_
  refine Finset.sum_congr rfl fun k _ => ?_
  refine congrArg (fun a : EReal => a * x10 (ix2 k j)) ?_
  unfold mlpHidden2
  rw [maximumf_apply, broadcast_apply, addf_apply, broadcastTo_1b_ab_apply x9 _ b k]
  refine congrArg₂ (fun a z : EReal => max (a + x9 (ix2 0 k)) z) ?_ rfl
  refine (matmul_plain_zero_ix2 64 128 128 _ _ _ b k).trans ?_
  refine Finset.sum_congr rfl fun k' _ => ?_
  refine congrArg (fun a : EReal => a * x8 (ix2 k' k)) ?_
  unfold mlpHidden1
  rw [maximumf_apply, broadcast_apply, addf_apply, pay168_apply,
    pay167_apply v290 v291 v292 v293 v295 x6 b k' s c hs h0 h1 h2 h3]
  rfl

end Cert.KernelIdeal.CaseC
end
-- ==== Proof.CaseCChain.lean ====
/-
  The last point's pooling of the third node type: nineteen stretches of 8192 rows added, one after the other, to what the point
  before left in the last column of the totals and of the counts.
-/
import proofs.«430187_j28956669509884_3_alg».proof.Proof.Gen.KernelIdeal.Frame
import proofs.«430187_j28956669509884_3_alg».proof.Proof.ChunkK
import proofs.«430187_j28956669509884_3_alg».proof.Proof.Spec
set_option maxRecDepth 16384
noncomputable section
namespace Cert.KernelIdeal.CaseC
open Cert.KernelIdeal Cert.KernelIdeal.Gen Cert.Pool
open Idealize.ShloMosaic Idealize.ShloMosaic.TcCoe Idealize.ShloMosaic.Tactic Idealize.ShloMosaic.ValueIdx
open Idealize.SL Idealize.SL.Sem
open Cert.KernelIdeal.ChunkK

/-- The totals' last column after the nineteen stretches: what it held plus the segment's sum over all the rows. -/
theorem sumChain (x4 : Vec Ideal S1x155648 .f32) (x5 : Vec Ideal S1x155648 .i32) (z : Vec Ideal S64x1 .f32) (b : Fin 64) :
    (k0_pay165 (k0_pay128 x4) (k0_pay129 x5) (k0_pay163 (k0_pay128 x4) (k0_pay129 x5) (k0_pay154 (k0_pay128 x4) (k0_pay129 x5) (k0_pay146 (k0_pay128 x4) (k0_pay129 x5) (k0_pay138 (k0_pay128 x4) (k0_pay129 x5) (k0_pay134 x4 x5 z)) (k0_pay140 (k0_pay128 x4)) (k0_pay141 (k0_pay129 x5))) (k0_pay148 (k0_pay129 x5)) (k0_pay149 (k0_pay128 x4)) (iota .tc S64x8192 32 [0] iota_S64x8192_d0_w32)) (k0_pay156 (k0_pay128 x4)) (k0_pay157 (k0_pay129 x5))) : FVec Ideal S64x1 .f32) (ix2 b 0)
      = z (ix2 b 0) + seg b.val (rowsG x5) (rowsE x4 0) 0 155648 := by
  simp only [k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166]
  simp only [Idealize.ShloMosaic.shapeCast_self, addf_apply]
  simp (config := {index := false}) only [sum1]
  simp only [Idealize.ShloMosaic.shapeCast_self, acc_step, Nat.reduceAdd]

/-- The counts' last column after the nineteen stretches: what it held plus the segment's count of rows, in ones. -/
theorem cntChain (x4 : Vec Ideal S1x155648 .f32) (x5 : Vec Ideal S1x155648 .i32) (z : Vec Ideal S64x1 .f32) (b : Fin 64) :
    (k0_pay166 (k0_pay128 x4) (k0_pay129 x5) (k0_pay161 (k0_pay128 x4) (k0_pay129 x5) (k0_pay155 (k0_pay128 x4) (k0_pay129 x5) (k0_pay147 (k0_pay128 x4) (k0_pay129 x5) (k0_pay139 (k0_pay128 x4) (k0_pay129 x5) (k0_pay132 x4 x5 z) (k0_pay133 x4 x5)) (k0_pay140 (k0_pay128 x4)) (k0_pay141 (k0_pay129 x5))) (k0_pay148 (k0_pay129 x5)) (k0_pay149 (k0_pay128 x4)) (iota .tc S64x8192 32 [0] iota_S64x8192_d0_w32)) (k0_pay156 (k0_pay128 x4)) (k0_pay157 (k0_pay129 x5))) (k0_pay162 (k0_pay128 x4) (k0_pay129 x5)) : FVec Ideal S64x1 .f32) (ix2 b 0)
      = z (ix2 b 0) + seg b.val (rowsG x5) (fun _ => oneW) 0 155648 := by
  simp only [k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166]
  simp only [Idealize.ShloMosaic.shapeCast_self, addf_apply]
  simp (config := {index := false}) only [cnt1]
  simp only [acc_step, Nat.reduceAdd]
  rfl

end Cert.KernelIdeal.CaseC
end
-- ==== Proof.CaseC.lean ====
/-
  The kernel's last point: the third node type's rows are pooled into the last column of the totals and of the counts, over what
  the points before left there; the four totals are divided by max(count, 1) and fed to the perceptron.  Its result at (b, j) is
  the perceptron at the pooled values of graph b.
-/
import proofs.«430187_j28956669509884_3_alg».proof.Proof.Gen.KernelIdeal.Frame
import proofs.«430187_j28956669509884_3_alg».proof.Proof.ChunkK
import proofs.«430187_j28956669509884_3_alg».proof.Proof.CanonAt
import proofs.«430187_j28956669509884_3_alg».proof.Proof.Spec
import proofs.«430187_j28956669509884_3_alg».proof.Proof.Mlp
import proofs.«430187_j28956669509884_3_alg».proof.Proof.LibPlainDot
import proofs.«430187_j28956669509884_3_alg».proof.Proof.CaseCLayers
import proofs.«430187_j28956669509884_3_alg».proof.Proof.CaseCChain
set_option maxRecDepth 16384
noncomputable section
namespace Cert.KernelIdeal.CaseC
open Cert.KernelIdeal Cert.KernelIdeal.Gen Cert.Pool
open Idealize.ShloMosaic Idealize.ShloMosaic.TcCoe Idealize.ShloMosaic.Tactic Idealize.ShloMosaic.ValueIdx
open Idealize.SL Idealize.SL.Sem
open Cert.KernelIdeal.ChunkK

/-- The four accumulated totals of graph b after the last point: the first three as the points before left them, the last with the
    third node type's rows added. -/
def sAccC (xs0 : Vec Ideal S64x4 .f32) (x4 : Vec Ideal S1x155648 .f32) (x5 : Vec Ideal S1x155648 .i32) (b : Fin 64) (k : Fin 4) : EReal :=
  match k with
  | 0 => xs0 (ix2 b 0) | 1 => xs0 (ix2 b 1) | 2 => xs0 (ix2 b 2)
  | 3 => xs0 (ix2 b 3) + seg b.val (rowsG x5) (rowsE x4 0) 0 155648

/-- The count each total is divided by: the second node type's count serves its two feature columns. -/
def cAccC (xs1 : Vec Ideal S64x3 .f32) (x5 : Vec Ideal S1x155648 .i32) (b : Fin 64) (k : Fin 4) : EReal :=
  match k with
  | 0 => xs1 (ix2 b 0) | 1 => xs1 (ix2 b 1) | 2 => xs1 (ix2 b 1)
  | 3 => xs1 (ix2 b 2) + seg b.val (rowsG x5) (fun _ => oneW) 0 155648

theorem outC (c : Dev nD) (i : grid0.Coords) (arg1 : Memref sig .tc .vmem S1x106496 .f32) (harg1 : arg1.IsWhole) (arg2 : Memref sig .tc .vmem S1x106496 .i32) (harg2 : arg2.IsWhole) (arg3 : Memref sig .tc .vmem S2x401408 .f32) (harg3 : arg3.IsWhole) (arg4 : Memref sig .tc .vmem S1x401408 .i32) (harg4 : arg4.IsWhole) (arg5 : Memref sig .tc .vmem S1x155648 .f32) (harg5 : arg5.IsWhole) (arg6 : Memref sig .tc .vmem S1x155648 .i32) (harg6 : arg6.IsWhole) (arg7 : Memref sig .tc .vmem S4x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S128x10 .f32) (harg11 : arg11.IsWhole) (arg12 : Memref sig .tc .vmem S1x10 .f32) (harg12 : arg12.IsWhole) (arg13 : Memref sig .tc .vmem S64x10 .f32) (harg13 : arg13.IsWhole) (arg14 : Memref sig .tc .vmem S64x4 .f32) (harg14 : arg14.IsWhole) (arg15 : Memref sig .tc .vmem S64x3 .f32) (harg15 : arg15.IsWhole) (hc0 : ¬cond0_0 i) (hc1 : ¬cond0_1 i) (hc2 : ¬cond0_2 i) (hc3 : cond0_3 i)
    (x0 : Vec Ideal S1x106496 .f32) (x1 : Vec Ideal S1x106496 .i32) (x2 : Vec Ideal S2x401408 .f32) (x3 : Vec Ideal S1x401408 .i32) (x4 : Vec Ideal S1x155648 .f32) (x5 : Vec Ideal S1x155648 .i32) (x6 : Vec Ideal S4x128 .f32) (x7 : Vec Ideal S1x128 .f32) (x8 : Vec Ideal S128x128 .f32) (x9 : Vec Ideal S1x128 .f32) (x10 : Vec Ideal S128x10 .f32) (x11 : Vec Ideal S1x10 .f32) (xs0 : Vec Ideal S64x4 .f32) (xs1 : Vec Ideal S64x3 .f32) (b : Fin 64) (j : Fin 10) :
    out0_C_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 x8 x9 x10 x11 xs0 xs1 (ix2 b j)
      = mlpOut (hgOf (sAccC xs0 x4 x5 b) (cAccC xs1 x5 b)) x6 (fun j => x7 (ix2 0 j)) x8 (fun j => x9 (ix2 0 j)) x10 (fun j => x11 (ix2 0 j)) j := by
  unfold out0_C_12
  rw [View.read_writes_eq_canon _ _ _ (cover0_C_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 x8 x9 x10 x11 xs0 xs1)]
  unfold kernelRun0_C
  dsimp only
  sl_unfold_words
  refine (congrFun (View.canon_unit_zero (S := S64x10) zero2 inb_S64x10_S64x10_0_0 _) (ix2 b j)).trans ?_
  have hl5 : View.readAt (Elt Ideal) arg5.view (Rect.unit ![0, 0] S1x155648.size inb_S1x155648_S1x155648_0_0).toLoadRect (harg5.unread x4) = x4 := by
    rw [View.readAt_eq_ld, harg5.read_unread, View.ld_unit_zero (S := S1x155648) zero2]
  have hl6 : View.readAt (Elt Ideal) arg6.view (Rect.unit ![0, 0] S1x155648.size inb_S1x155648_S1x155648_0_0).toLoadRect (harg6.unread x5) = x5 := by
    rw [View.readAt_eq_ld, harg6.read_unread, View.ld_unit_zero (S := S1x155648) zero2]
  have hl7 : View.readAt (Elt Ideal) arg7.view (Rect.unit ![0, 0] S4x128.size inb_S4x128_S4x128_0_0).toLoadRect (harg7.unread x6) = x6 := by
    rw [View.readAt_eq_ld, harg7.read_unread, View.ld_unit_zero (S := S4x128) zero2]
  have hl8 : View.readAt (Elt Ideal) arg8.view (Rect.unit ![0, 0] S1x128.size inb_S1x128_S1x128_0_0).toLoadRect (harg8.unread x7) = x7 := by
    rw [View.readAt_eq_ld, harg8.read_unread, View.ld_unit_zero (S := S1x128) zero2]
  have hl9 : View.readAt (Elt Ideal) arg9.view (Rect.unit ![0, 0] ![128, 128] inb_S128x128_S128x128_0_0).toLoadRect (harg9.unread x8) = x8 := by
    rw [View.readAt_eq_ld, harg9.read_unread, View.ld_unit_zero (S := S128x128) zero2]
  have hl10 : View.readAt (Elt Ideal) arg10.view (Rect.unit ![0, 0] ![1, 128] inb_S1x128_S1x128_0_0).toLoadRect (harg10.unread x9) = x9 := by
    rw [View.readAt_eq_ld, harg10.read_unread, View.ld_unit_zero (S := S1x128) zero2]
  have hl11 : View.readAt (Elt Ideal) arg11.view (Rect.unit ![0, 0] ![128, 10] inb_S128x10_S128x10_0_0).toLoadRect (harg11.unread x10) = x10 := by
    rw [View.readAt_eq_ld, harg11.read_unread, View.ld_unit_zero (S := S128x10) zero2]
  have hl12 : View.readAt (Elt Ideal) arg12.view (Rect.unit ![0, 0] ![1, 10] inb_S1x10_S1x10_0_0).toLoadRect (harg12.unread x11) = x11 := by
    rw [View.readAt_eq_ld, harg12.read_unread, View.ld_unit_zero (S := S1x10) zero2]
  simp only [hl5, hl6, hl7, hl8, hl9, hl10, hl11, hl12]
  refine head_apply _ _ _ _ _ x6 x7 x8 x9 x10 x11 b j (sAccC xs0 x4 x5 b) (cAccC xs1 x5 b) ?_ ?_ ?_ ?_ ?_
  · intro q
    match q with
    | ⟨0, _⟩ =>
      exact readAt_writes1_outside harg14 xs0 zero2 _ _ _ _ _ (ix2 b (⟨0, by omega⟩ : Fin 4)) 1 (by show (0 : ℕ) < 3; omega)
    | ⟨1, _⟩ =>
      exact readAt_writes1_outside harg14 xs0 zero2 _ _ _ _ _ (ix2 b (⟨1, by omega⟩ : Fin 4)) 1 (by show (1 : ℕ) < 3; omega)
    | ⟨2, _⟩ =>
      exact readAt_writes1_outside harg14 xs0 zero2 _ _ _ _ _ (ix2 b (⟨2, by omega⟩ : Fin 4)) 1 (by show (2 : ℕ) < 3; omega)
    | ⟨3, _⟩ =>
      refine ((readAt_writes1_inside harg14 xs0 zero2 _ _ _ _ _ (ix2 b (⟨3, by omega⟩ : Fin 4)) (ix2 b (0 : Fin 1)) (by
        intro a
        match a with
        | ⟨0, _⟩ => exact (Nat.zero_add _).symm
        | ⟨1, _⟩ => rfl)).trans (sumChain x4 x5 _ b)).trans ?_
      refine congrArg (fun a : EReal => a + seg b.val (rowsG x5) (rowsE x4 0) 0 155648) ?_
      exact readAt_unread harg14 xs0 _ _ _ (ix2 b (0 : Fin 1)) (ix2 b (3 : Fin 4)) (by
        intro a
        match a with
        | ⟨0, _⟩ => exact (Nat.zero_add _).symm
        | ⟨1, _⟩ => rfl)
  · exact readAt_unread harg15 xs1 _ _ _ (ix2 b (0 : Fin 1)) (ix2 b (0 : Fin 3)) (by
      intro a
      match a with
      | ⟨0, _⟩ => exact (Nat.zero_add _).symm
      | ⟨1, _⟩ => rfl)
  · exact readAt_unread harg15 xs1 _ _ _ (ix2 b (0 : Fin 1)) (ix2 b (1 : Fin 3)) (by
      intro a
      match a with
      | ⟨0, _⟩ => exact (Nat.zero_add _).symm
      | ⟨1, _⟩ => rfl)
  · exact readAt_unread harg15 xs1 _ _ _ (ix2 b (0 : Fin 1)) (ix2 b (1 : Fin 3)) (by
      intro a
      match a with
      | ⟨0, _⟩ => exact (Nat.zero_add _).symm
      | ⟨1, _⟩ => rfl)
  · rw [View.readCov_cons_toLoadRect]
    refine (cntChain x4 x5 _ b).trans ?_
    refine congrArg (fun a : EReal => a + seg b.val (rowsG x5) (fun _ => oneW) 0 155648) ?_
    exact readAt_unread harg15 xs1 _ _ _ (ix2 b (0 : Fin 1)) (ix2 b (2 : Fin 3)) (by
      intro a
      match a with
      | ⟨0, _⟩ => exact (Nat.zero_add _).symm
      | ⟨1, _⟩ => rfl)

end Cert.KernelIdeal.CaseC
end
-- ==== Proof.PadSeg.lean ====
/-
  Padding rows whose id word is the word of no segment leave every segment's sum as it was.

  A padded array agrees with the original on the original's rows; every further row carries the id word 64.  For a
  segment b < 64 the word of b is not the word 64, so such a row contributes nothing, whatever its value is.
-/
import proofs.«430187_j28956669509884_3_alg».proof.Proof.SegSum

noncomputable section

namespace Cert.Pool

/-- The word of a number below 64 is not the word 64. -/
theorem ofNat_ne_pad (b : ℕ) (hb : b < 64) : BitVec.ofNat 32 b ≠ 64#32 := by
  intro h
  have h' := congrArg BitVec.toNat h
  rw [BitVec.toNat_ofNat, BitVec.toNat_ofNat] at h'
  omega

/-- A row with the id word 64 contributes nothing to a segment below 64. -/
theorem pick_pad (b : ℕ) (hb : b < 64) (x : EReal) : pick b (64#32) x = 0 := by
  unfold pick
  rw [if_neg (ofNat_ne_pad b hb)]

/-- The padded arrays' segment sum over all their rows is the original arrays' over theirs. -/
theorem seg_pad (b : ℕ) (hb : b < 64) (G G' : ℕ → BitVec 32) (X X' : ℕ → EReal) (N L : ℕ) (hNL : N ≤ L)
    (hG : ∀ n < N, G' n = G n) (hX : ∀ n < N, X' n = X n) (hpad : ∀ n, N ≤ n → n < L → G' n = 64#32) :
    seg b G' X' 0 L = seg b G X 0 N := by
  obtain ⟨d, rfl⟩ := Nat.exists_eq_add_of_le hNL
  unfold seg
  rw [Finset.sum_range_add]
  have htail : ∑ k ∈ Finset.range d, pick b (G' (0 + (N + k))) (X' (0 + (N + k))) = 0 := by
    apply Finset.sum_eq_zero
    intro k hk
    rw [Finset.mem_range] at hk
    rw [zero_add, hpad (N + k) (Nat.le_add_right _ _) (by omega), pick_pad b hb]
  rw [htail, add_zero]
  apply Finset.sum_congr rfl
  intro k hk
  rw [Finset.mem_range] at hk
  rw [zero_add, hG k hk, hX k hk]

end Cert.Pool

end
-- ==== Proof.PadRead.lean ====
/-
  A padded, re-laid-out array read at an index.

  An id vector of N words is padded at its end to L words and laid out as one row of L; a feature matrix of N rows
  is padded at its end to L rows and then laid out features × rows (one feature: the same words in order; several:
  the transpose).  Read at row n, each is the original at row n where n < N and the padding value past it.  In the
  segment sums' terms: the padded arrays agree with the originals on the first N rows, and with the id rows padded
  by the word 64 every segment below 64 sums to what it did.
-/
import Idealize.ShloMosaic.Lib.KernelVsHost
import Idealize.ShloMosaic.Lib.ValueLayout
import Idealize.ShloMosaic.Lib.Pipeline.Value
import proofs.«430187_j28956669509884_3_alg».proof.Proof.Spec
import proofs.«430187_j28956669509884_3_alg».proof.Proof.PadSeg

noncomputable section

namespace Cert.Pool

open Idealize.ShloMosaic Idealize.ShloMosaic.ValueIdx

variable {α : Type}

/-- A vector padded at its end, at index n. -/
theorem pad1_apply {N L hi : ℕ} (x : (⟨1, ![N]⟩ : Shape).Idx → α) {u : Shape} (v : u.Idx → α)
    (hp : (⟨1, ![N]⟩ : Shape).Pads (![0] : Fin 1 → Nat) ![hi] ![0] ⟨1, ![L]⟩) (hu : 0 < u.numel) (n : Fin L) :
    pad ⟨1, ![L]⟩ ![0] ![hi] ![0] x v hp hu (ix1 n) = if hn : n.val < N then x (ix1 ⟨n.val, hn⟩) else v (Shape.Idx.first hu) := by
  by_cases hn : n.val < N
  · rw [dif_pos hn]
    refine pad_apply_of_inside _ _ _ x v hp hu (ix1 n) (ix1 ⟨n.val, hn⟩) ?_
    intro a
    match a with
    | ⟨0, _⟩ => show n.val = 0 + n.val * (0 + 1); omega
  · rw [dif_neg hn]
    refine pad_apply_of_not_inside _ _ _ x v hp hu (ix1 n) (0 : Fin 1) ?_
    rintro ⟨-, -, h3⟩
    have h3' : (n.val - 0) / (0 + 1) < N := h3
    rw [Nat.sub_zero, Nat.zero_add, Nat.div_one] at h3'
    exact hn h3'

/-- A matrix padded at the end of its rows, at row n and column f. -/
theorem pad2_apply {N L Fd hi : ℕ} (x : (⟨2, ![N, Fd]⟩ : Shape).Idx → α) {u : Shape} (v : u.Idx → α)
    (hp : (⟨2, ![N, Fd]⟩ : Shape).Pads (![0, 0] : Fin 2 → Nat) ![hi, 0] ![0, 0] ⟨2, ![L, Fd]⟩) (hu : 0 < u.numel)
    (n : Fin L) (f : Fin Fd) :
    pad ⟨2, ![L, Fd]⟩ ![0, 0] ![hi, 0] ![0, 0] x v hp hu (ix2 n f)
      = if hn : n.val < N then x (ix2 ⟨n.val, hn⟩ f) else v (Shape.Idx.first hu) := by
  by_cases hn : n.val < N
  · rw [dif_pos hn]
    refine pad_apply_of_inside _ _ _ x v hp hu (ix2 n f) (ix2 ⟨n.val, hn⟩ f) ?_
    intro a
    match a with
    | ⟨0, _⟩ => show n.val = 0 + n.val * (0 + 1); omega
    | ⟨1, _⟩ => show f.val = 0 + f.val * (0 + 1); omega
  · rw [dif_neg hn]
    refine pad_apply_of_not_inside _ _ _ x v hp hu (ix2 n f) (0 : Fin 2) ?_
    rintro ⟨-, -, h3⟩
    have h3' : (n.val - 0) / (0 + 1) < N := h3
    rw [Nat.sub_zero, Nat.zero_add, Nat.div_one] at h3'
    exact hn h3'

/-- A vector of L words laid out as one row, at column n. -/
theorem row_of_vec_apply {L : ℕ} (x : (⟨1, ![L]⟩ : Shape).Idx → α)
    (hc : (⟨1, ![L]⟩ : Shape).ShapeCasts ⟨2, ![1, L]⟩) (n : Fin L) :
    shapeCast ⟨2, ![1, L]⟩ x hc (ix2 0 n) = x (ix1 n) := by
  refine shapeCast_apply x hc (ix2 0 n) (ix1 n) ?_
  rw [Shape.rowMajor_val_one, Shape.rowMajor_val_two]
  show n.val = 0 * L + n.val
  omega

/-- A column of L words laid out as one row, at column n. -/
theorem row_of_col_apply {L : ℕ} (x : (⟨2, ![L, 1]⟩ : Shape).Idx → α)
    (hc : (⟨2, ![L, 1]⟩ : Shape).ShapeCasts ⟨2, ![1, L]⟩) (n : Fin L) :
    shapeCast ⟨2, ![1, L]⟩ x hc (ix2 0 n) = x (ix2 n 0) := by
  refine shapeCast_apply x hc (ix2 0 n) (ix2 n 0) ?_
  rw [Shape.rowMajor_val_two, Shape.rowMajor_val_two]
  show n.val * 1 + 0 = 0 * L + n.val
  omega

/-! ## In the segment sums' terms -/

/-- The padded id row: the id vector's word on its rows, the padding word past them. -/
theorem rowsG_padded {N L hi : ℕ} (g : (⟨1, ![N]⟩ : Shape).Idx → BitVec 32) {u : Shape} (v : u.Idx → BitVec 32)
    (hp : (⟨1, ![N]⟩ : Shape).Pads (![0] : Fin 1 → Nat) ![hi] ![0] ⟨1, ![L]⟩) (hu : 0 < u.numel)
    (hc : (⟨1, ![L]⟩ : Shape).ShapeCasts ⟨2, ![1, L]⟩) (n : ℕ) (hn : n < L) :
    rowsG (shapeCast ⟨2, ![1, L]⟩ (pad ⟨1, ![L]⟩ ![0] ![hi] ![0] g v hp hu) hc) n
      = if n < N then idsG g n else v (Shape.Idx.first hu) := by
  unfold rowsG idsG
  rw [dif_pos hn, row_of_vec_apply, pad1_apply]
  by_cases h : n < N
  · rw [dif_pos h, if_pos h, dif_pos h]
  · rw [dif_neg h, if_neg h]

/-- The padded one-feature matrix laid out as a row agrees with the matrix's column on its rows. -/
theorem rowsE_padded_col {N L hi : ℕ} (x : (⟨2, ![N, 1]⟩ : Shape).Idx → EReal) {u : Shape} (v : u.Idx → EReal)
    (hp : (⟨2, ![N, 1]⟩ : Shape).Pads (![0, 0] : Fin 2 → Nat) ![hi, 0] ![0, 0] ⟨2, ![L, 1]⟩) (hu : 0 < u.numel)
    (hc : (⟨2, ![L, 1]⟩ : Shape).ShapeCasts ⟨2, ![1, L]⟩) (n : ℕ) (hn : n < N) (hL : n < L) :
    rowsE (shapeCast ⟨2, ![1, L]⟩ (pad ⟨2, ![L, 1]⟩ ![0, 0] ![hi, 0] ![0, 0] x v hp hu) hc) 0 n = colE x 0 n := by
  unfold rowsE colE
  rw [dif_pos hL, row_of_col_apply, pad2_apply, dif_pos hn, dif_pos hn]

/-- The padded matrix transposed agrees, row j, with the matrix's column j on its rows. -/
theorem rowsE_padded_tr {N L Fd hi : ℕ} (x : (⟨2, ![N, Fd]⟩ : Shape).Idx → EReal) {u : Shape} (v : u.Idx → EReal)
    (hp : (⟨2, ![N, Fd]⟩ : Shape).Pads (![0, 0] : Fin 2 → Nat) ![hi, 0] ![0, 0] ⟨2, ![L, Fd]⟩) (hu : 0 < u.numel)
    (ht : (⟨2, ![L, Fd]⟩ : Shape).Transposes [1, 0] ⟨2, ![Fd, L]⟩) (j : Fin Fd) (n : ℕ) (hn : n < N) (hL : n < L) :
    rowsE (transpose ⟨2, ![Fd, L]⟩ [1, 0] (pad ⟨2, ![L, Fd]⟩ ![0, 0] ![hi, 0] ![0, 0] x v hp hu) ht) j n = colE x j n := by
  unfold rowsE colE
  rw [dif_pos hL, transpose_ix2_apply, pad2_apply, dif_pos hn, dif_pos hn]

/-- Segment sums over the padded arrays, one feature: the arguments' sums. -/
theorem seg_padded_ids (b : ℕ) (hb : b < 64) {N L hi : ℕ} (hNL : N ≤ L)
    (g : (⟨1, ![N]⟩ : Shape).Idx → BitVec 32) {u : Shape} (v : u.Idx → BitVec 32)
    (hp : (⟨1, ![N]⟩ : Shape).Pads (![0] : Fin 1 → Nat) ![hi] ![0] ⟨1, ![L]⟩) (hu : 0 < u.numel)
    (hc : (⟨1, ![L]⟩ : Shape).ShapeCasts ⟨2, ![1, L]⟩) (hv : v (Shape.Idx.first hu) = 64#32)
    (X X' : ℕ → EReal) (hX : ∀ n < N, X' n = X n) :
    seg b (rowsG (shapeCast ⟨2, ![1, L]⟩ (pad ⟨1, ![L]⟩ ![0] ![hi] ![0] g v hp hu) hc)) X' 0 L = seg b (idsG g) X 0 N := by
  refine seg_pad b hb _ _ _ _ N L hNL ?_ hX ?_
  · intro n hn
    rw [rowsG_padded g v hp hu hc n (by omega), if_pos hn]
  · intro n h1 h2
    rw [rowsG_padded g v hp hu hc n h2, if_neg (by omega), hv]

end Cert.Pool

end
-- ==== Proof.HostBlocks.lean ====
/-
  The input windows of the pooled-perceptron kernel: every input window's block, at every grid point, is its whole
  array as the region finds it.
-/
import proofs.«430187_j28956669509884_3_alg».proof.Proof.Gen.KernelIdeal.Frame
import proofs.«430187_j28956669509884_3_alg».proof.Proof.Spec
import Idealize.ShloMosaic.Lib.StableHlo.Run

set_option maxRecDepth 16384

noncomputable section

namespace Cert.KernelIdeal.HostSide

open Cert.KernelIdeal Cert.KernelIdeal.Gen Cert.Pool Idealize.ShloMosaic Idealize.ShloMosaic.TcCoe Idealize.ShloMosaic.ValueIdx Idealize.ShloMosaic.StableHlo

variable (m : (ℓ : Loc nD τ sig) → Buf (Elt Ideal) ℓ) (c : Dev nD)

/-! ## The input windows' blocks are their arrays

Every input window's block is its whole array and its index map is constantly (0, 0): decided over the three grid
points.  A block's coordinate is index × size + the coordinate inside the block, so the block read is the array. -/

/-- Window 0's block index is (0, 0) at every point. -/
theorem idx0 : ∀ t : Fin cfg0.N, win0_0.index t (0 : Fin 2) = 0 ∧ win0_0.index t (1 : Fin 2) = 0 :=
  (by decide +kernel : ∀ t : Fin grid0.N, _)

/-- Window 0's block at any point is its array as the region finds it. -/
theorem iblk0 (t : Fin cfg0.N) : iblk m c 0 t = V m c main_v2 := by
  funext y
  show V m c main_v2 (((cfg0.win 0).blk t).view.emb y) = V m c main_v2 y
  obtain ⟨e0, e1⟩ := idx0 t
  refine congrArg (V m c main_v2) ?_
  funext a; apply Fin.ext
  match a with
  | ⟨0, _⟩ => show win0_0.index t (0 : Fin 2) * 1 + 1 * (y 0).val = (y 0).val; omega
  | ⟨1, _⟩ => show win0_0.index t (1 : Fin 2) * 106496 + 1 * (y 1).val = (y 1).val; omega

/-- Window 1's block index is (0, 0) at every point. -/
theorem idx1 : ∀ t : Fin cfg0.N, win0_1.index t (0 : Fin 2) = 0 ∧ win0_1.index t (1 : Fin 2) = 0 :=
  (by decide +kernel : ∀ t : Fin grid0.N, _)

/-- Window 1's block at any point is its array as the region finds it. -/
theorem iblk1 (t : Fin cfg0.N) : iblk m c 1 t = V m c main_v3 := by
  funext y
  show V m c main_v3 (((cfg0.win 1).blk t).view.emb y) = V m c main_v3 y
  obtain ⟨e0, e1⟩ := idx1 t
  refine congrArg (V m c main_v3) ?_
  funext a; apply Fin.ext
  match a with
  | ⟨0, _⟩ => show win0_1.index t (0 : Fin 2) * 1 + 1 * (y 0).val = (y 0).val; omega
  | ⟨1, _⟩ => show win0_1.index t (1 : Fin 2) * 106496 + 1 * (y 1).val = (y 1).val; omega

/-- Window 2's block index is (0, 0) at every point. -/
theorem idx2 : ∀ t : Fin cfg0.N, win0_2.index t (0 : Fin 2) = 0 ∧ win0_2.index t (1 : Fin 2) = 0 :=
  (by decide +kernel : ∀ t : Fin grid0.N, _)

/-- Window 2's block at any point is its array as the region finds it. -/
theorem iblk2 (t : Fin cfg0.N) : iblk m c 2 t = V m c main_v6 := by
  funext y
  show V m c main_v6 (((cfg0.win 2).blk t).view.emb y) = V m c main_v6 y
  obtain ⟨e0, e1⟩ := idx2 t
  refine congrArg (V m c main_v6) ?_
  funext a; apply Fin.ext
  match a with
  | ⟨0, _⟩ => show win0_2.index t (0 : Fin 2) * 2 + 1 * (y 0).val = (y 0).val; omega
  | ⟨1, _⟩ => show win0_2.index t (1 : Fin 2) * 401408 + 1 * (y 1).val = (y 1).val; omega

/-- Window 3's block index is (0, 0) at every point. -/
theorem idx3 : ∀ t : Fin cfg0.N, win0_3.index t (0 : Fin 2) = 0 ∧ win0_3.index t (1 : Fin 2) = 0 :=
  (by decide +kernel : ∀ t : Fin grid0.N, _)

/-- Window 3's block at any point is its array as the region finds it. -/
theorem iblk3 (t : Fin cfg0.N) : iblk m c 3 t = V m c main_v7 := by
  funext y
  show V m c main_v7 (((cfg0.win 3).blk t).view.emb y) = V m c main_v7 y
  obtain ⟨e0, e1⟩ := idx3 t
  refine congrArg (V m c main_v7) ?_
  funext a; apply Fin.ext
  match a with
  | ⟨0, _⟩ => show win0_3.index t (0 : Fin 2) * 1 + 1 * (y 0).val = (y 0).val; omega
  | ⟨1, _⟩ => show win0_3.index t (1 : Fin 2) * 401408 + 1 * (y 1).val = (y 1).val; omega

/-- Window 4's block index is (0, 0) at every point. -/
theorem idx4 : ∀ t : Fin cfg0.N, win0_4.index t (0 : Fin 2) = 0 ∧ win0_4.index t (1 : Fin 2) = 0 :=
  (by decide +kernel : ∀ t : Fin grid0.N, _)

/-- Window 4's block at any point is its array as the region finds it. -/
theorem iblk4 (t : Fin cfg0.N) : iblk m c 4 t = V m c main_v10 := by
  funext y
  show V m c main_v10 (((cfg0.win 4).blk t).view.emb y) = V m c main_v10 y
  obtain ⟨e0, e1⟩ := idx4 t
  refine congrArg (V m c main_v10) ?_
  funext a; apply Fin.ext
  match a with
  | ⟨0, _⟩ => show win0_4.index t (0 : Fin 2) * 1 + 1 * (y 0).val = (y 0).val; omega
  | ⟨1, _⟩ => show win0_4.index t (1 : Fin 2) * 155648 + 1 * (y 1).val = (y 1).val; omega

/-- Window 5's block index is (0, 0) at every point. -/
theorem idx5 : ∀ t : Fin cfg0.N, win0_5.index t (0 : Fin 2) = 0 ∧ win0_5.index t (1 : Fin 2) = 0 :=
  (by decide +kernel : ∀ t : Fin grid0.N, _)

/-- Window 5's block at any point is its array as the region finds it. -/
theorem iblk5 (t : Fin cfg0.N) : iblk m c 5 t = V m c main_v11 := by
  funext y
  show V m c main_v11 (((cfg0.win 5).blk t).view.emb y) = V m c main_v11 y
  obtain ⟨e0, e1⟩ := idx5 t
  refine congrArg (V m c main_v11) ?_
  funext a; apply Fin.ext
  match a with
  | ⟨0, _⟩ => show win0_5.index t (0 : Fin 2) * 1 + 1 * (y 0).val = (y 0).val; omega
  | ⟨1, _⟩ => show win0_5.index t (1 : Fin 2) * 155648 + 1 * (y 1).val = (y 1).val; omega

/-- Window 6's block index is (0, 0) at every point. -/
theorem idx6 : ∀ t : Fin cfg0.N, win0_6.index t (0 : Fin 2) = 0 ∧ win0_6.index t (1 : Fin 2) = 0 :=
  (by decide +kernel : ∀ t : Fin grid0.N, _)

/-- Window 6's block at any point is its array as the region finds it. -/
theorem iblk6 (t : Fin cfg0.N) : iblk m c 6 t = V m c main_arg22 := by
  funext y
  show V m c main_arg22 (((cfg0.win 6).blk t).view.emb y) = V m c main_arg22 y
  obtain ⟨e0, e1⟩ := idx6 t
  refine congrArg (V m c main_arg22) ?_
  funext a; apply Fin.ext
  match a with
  | ⟨0, _⟩ => show win0_6.index t (0 : Fin 2) * 4 + 1 * (y 0).val = (y 0).val; omega
  | ⟨1, _⟩ => show win0_6.index t (1 : Fin 2) * 128 + 1 * (y 1).val = (y 1).val; omega

/-- Window 7's block index is (0, 0) at every point. -/
theorem idx7 : ∀ t : Fin cfg0.N, win0_7.index t (0 : Fin 2) = 0 ∧ win0_7.index t (1 : Fin 2) = 0 :=
  (by decide +kernel : ∀ t : Fin grid0.N, _)

/-- Window 7's block at any point is its array as the region finds it. -/
theorem iblk7 (t : Fin cfg0.N) : iblk m c 7 t = V m c main_v12 := by
  funext y
  show V m c main_v12 (((cfg0.win 7).blk t).view.emb y) = V m c main_v12 y
  obtain ⟨e0, e1⟩ := idx7 t
  refine congrArg (V m c main_v12) ?_
  funext a; apply Fin.ext
  match a with
  | ⟨0, _⟩ => show win0_7.index t (0 : Fin 2) * 1 + 1 * (y 0).val = (y 0).val; omega
  | ⟨1, _⟩ => show win0_7.index t (1 : Fin 2) * 128 + 1 * (y 1).val = (y 1).val; omega

/-- Window 8's block index is (0, 0) at every point. -/
theorem idx8 : ∀ t : Fin cfg0.N, win0_8.index t (0 : Fin 2) = 0 ∧ win0_8.index t (1 : Fin 2) = 0 :=
  (by decide +kernel : ∀ t : Fin grid0.N, _)

/-- Window 8's block at any point is its array as the region finds it. -/
theorem iblk8 (t : Fin cfg0.N) : iblk m c 8 t = V m c main_arg24 := by
  funext y
  show V m c main_arg24 (((cfg0.win 8).blk t).view.emb y) = V m c main_arg24 y
  obtain ⟨e0, e1⟩ := idx8 t
  refine congrArg (V m c main_arg24) ?_
  funext a; apply Fin.ext
  match a with
  | ⟨0, _⟩ => show win0_8.index t (0 : Fin 2) * 128 + 1 * (y 0).val = (y 0).val; omega
  | ⟨1, _⟩ => show win0_8.index t (1 : Fin 2) * 128 + 1 * (y 1).val = (y 1).val; omega

/-- Window 9's block index is (0, 0) at every point. -/
theorem idx9 : ∀ t : Fin cfg0.N, win0_9.index t (0 : Fin 2) = 0 ∧ win0_9.index t (1 : Fin 2) = 0 :=
  (by decide +kernel : ∀ t : Fin grid0.N, _)

/-- Window 9's block at any point is its array as the region finds it. -/
theorem iblk9 (t : Fin cfg0.N) : iblk m c 9 t = V m c main_v13 := by
  funext y
  show V m c main_v13 (((cfg0.win 9).blk t).view.emb y) = V m c main_v13 y
  obtain ⟨e0, e1⟩ := idx9 t
  refine congrArg (V m c main_v13) ?_
  funext a; apply Fin.ext
  match a with
  | ⟨0, _⟩ => show win0_9.index t (0 : Fin 2) * 1 + 1 * (y 0).val = (y 0).val; omega
  | ⟨1, _⟩ => show win0_9.index t (1 : Fin 2) * 128 + 1 * (y 1).val = (y 1).val; omega

/-- Window 10's block index is (0, 0) at every point. -/
theorem idx10 : ∀ t : Fin cfg0.N, win0_10.index t (0 : Fin 2) = 0 ∧ win0_10.index t (1 : Fin 2) = 0 :=
  (by decide +kernel : ∀ t : Fin grid0.N, _)

/-- Window 10's block at any point is its array as the region finds it. -/
theorem iblk10 (t : Fin cfg0.N) : iblk m c 10 t = V m c main_arg26 := by
  funext y
  show V m c main_arg26 (((cfg0.win 10).blk t).view.emb y) = V m c main_arg26 y
  obtain ⟨e0, e1⟩ := idx10 t
  refine congrArg (V m c main_arg26) ?_
  funext a; apply Fin.ext
  match a with
  | ⟨0, _⟩ => show win0_10.index t (0 : Fin 2) * 128 + 1 * (y 0).val = (y 0).val; omega
  | ⟨1, _⟩ => show win0_10.index t (1 : Fin 2) * 10 + 1 * (y 1).val = (y 1).val; omega

/-- Window 11's block index is (0, 0) at every point. -/
theorem idx11 : ∀ t : Fin cfg0.N, win0_11.index t (0 : Fin 2) = 0 ∧ win0_11.index t (1 : Fin 2) = 0 :=
  (by decide +kernel : ∀ t : Fin grid0.N, _)

/-- Window 11's block at any point is its array as the region finds it. -/
theorem iblk11 (t : Fin cfg0.N) : iblk m c 11 t = V m c main_v14 := by
  funext y
  show V m c main_v14 (((cfg0.win 11).blk t).view.emb y) = V m c main_v14 y
  obtain ⟨e0, e1⟩ := idx11 t
  refine congrArg (V m c main_v14) ?_
  funext a; apply Fin.ext
  match a with
  | ⟨0, _⟩ => show win0_11.index t (0 : Fin 2) * 1 + 1 * (y 0).val = (y 0).val; omega
  | ⟨1, _⟩ => show win0_11.index t (1 : Fin 2) * 10 + 1 * (y 1).val = (y 1).val; omega

end Cert.KernelIdeal.HostSide

end
-- ==== Proof.HostArrays.lean ====
/-
  The arrays the host operations of the pooled-perceptron kernel wrote before the region, as terms over the arguments.

  Each node type's feature array is padded with rows of the converted word 0 and laid out features × rows (a reshape
  for one feature, a transpose for two); its graph-id vector is padded with the word 64 and laid out as one row; three
  bias vectors are laid out as rows.
-/
import proofs.«430187_j28956669509884_3_alg».proof.Proof.Gen.KernelIdeal.Frame
import proofs.«430187_j28956669509884_3_alg».proof.Proof.Spec
import Idealize.ShloMosaic.Lib.StableHlo.Run

set_option maxRecDepth 16384

noncomputable section

namespace Cert.KernelIdeal.HostSide

open Cert.KernelIdeal Cert.KernelIdeal.Gen Cert.Pool Idealize.ShloMosaic Idealize.ShloMosaic.TcCoe Idealize.ShloMosaic.ValueIdx Idealize.ShloMosaic.StableHlo

variable (m : (ℓ : Loc nD τ sig) → Buf (Elt Ideal) ℓ) (c : Dev nD)

/-- The region-entry contents of a buffer unfolded to the chain of host operations that wrote it. -/
local macro "unfold_host" : tactic =>
  `(tactic| (dsimp only [Gen.V]
             simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, List.flatten_cons, List.flatten_nil, List.append_nil, List.cons_append, List.nil_append]
             after_results))

/-! ## The arrays the host operations wrote, as terms over the arguments

Each padded and re-laid-out array is the chain of its operations applied to the argument as launched: the pad by the
converted constant (the word 0 converted for the features, the word 64 for the ids), then the reshape or transpose. -/

/-- The comp id row: the id vector padded by the word 64, as one row. -/
theorem main_v3_eq : (V m c main_v3 : S1x106496.Idx → BitVec 32)
    = shapeCast S1x106496 (pad S106496 ![0] ![6496] ![0] (m ((c : Thread nD τ).loc main_arg7) : S100000.Idx → BitVec 32) (constantI S_ 32 64#32) pads_S100000_S106496_064960 h_S_) shapeCasts_S106496_S1x106496 := by
  unfold_host
  rfl

/-- The comp feature row: the feature column padded by the converted word 0, as one row. -/
theorem main_v2_eq : (V m c main_v2 : S1x106496.Idx → EReal)
    = shapeCast S1x106496 (pad S106496x1 ![0, 0] ![6496, 0] ![0, 0] (m ((c : Thread nD τ).loc main_arg0) : S100000x1.Idx → EReal) (sitofp (F := Ideal) .f32 (constantI S_ 32 0#32)) pads_S100000x1_S106496x1_064960_000 h_S_) shapeCasts_S106496x1_S1x106496 := by
  unfold_host
  rfl

/-- The port id row: the id vector padded by the word 64, as one row. -/
theorem main_v7_eq : (V m c main_v7 : S1x401408.Idx → BitVec 32)
    = shapeCast S1x401408 (pad S401408 ![0] ![1408] ![0] (m ((c : Thread nD τ).loc main_arg8) : S400000.Idx → BitVec 32) (constantI S_ 32 64#32) pads_S400000_S401408_014080 h_S_) shapeCasts_S401408_S1x401408 := by
  unfold_host
  rfl

/-- The port feature rows: the feature matrix padded by the converted word 0, transposed. -/
theorem main_v6_eq : (V m c main_v6 : S2x401408.Idx → EReal)
    = transpose S2x401408 [1, 0] (pad S401408x2 ![0, 0] ![1408, 0] ![0, 0] (m ((c : Thread nD τ).loc main_arg1) : S400000x2.Idx → EReal) (sitofp (F := Ideal) .f32 (constantI S_ 32 0#32)) pads_S400000x2_S401408x2_014080_000 h_S_) transposes_S401408x2_S2x401408_1_0 := by
  unfold_host
  rfl

/-- The net id row: the id vector padded by the word 64, as one row. -/
theorem main_v11_eq : (V m c main_v11 : S1x155648.Idx → BitVec 32)
    = shapeCast S1x155648 (pad S155648 ![0] ![5648] ![0] (m ((c : Thread nD τ).loc main_arg9) : S150000.Idx → BitVec 32) (constantI S_ 32 64#32) pads_S150000_S155648_056480 h_S_) shapeCasts_S155648_S1x155648 := by
  unfold_host
  rfl

/-- The net feature row: the feature column padded by the converted word 0, as one row. -/
theorem main_v10_eq : (V m c main_v10 : S1x155648.Idx → EReal)
    = shapeCast S1x155648 (pad S155648x1 ![0, 0] ![5648, 0] ![0, 0] (m ((c : Thread nD τ).loc main_arg2) : S150000x1.Idx → EReal) (sitofp (F := Ideal) .f32 (constantI S_ 32 0#32)) pads_S150000x1_S155648x1_056480_000 h_S_) shapeCasts_S155648x1_S1x155648 := by
  unfold_host
  rfl

/-! ## The bias rows -/

/-- Bias row 1: its argument laid out as one row. -/
theorem main_v12_eq : (V m c main_v12 : S1x128.Idx → EReal)
    = shapeCast S1x128 (m ((c : Thread nD τ).loc main_arg23) : S128.Idx → EReal) shapeCasts_S128_S1x128 := by
  unfold_host
  rfl

/-- Bias row 2: its argument laid out as one row. -/
theorem main_v13_eq : (V m c main_v13 : S1x128.Idx → EReal)
    = shapeCast S1x128 (m ((c : Thread nD τ).loc main_arg25) : S128.Idx → EReal) shapeCasts_S128_S1x128 := by
  unfold_host
  rfl

/-- Bias row 3: its argument laid out as one row. -/
theorem main_v14_eq : (V m c main_v14 : S1x10.Idx → EReal)
    = shapeCast S1x10 (m ((c : Thread nD τ).loc main_arg27) : S10.Idx → EReal) shapeCasts_S10_S1x10 := by
  unfold_host
  rfl

end Cert.KernelIdeal.HostSide

end
-- ==== Proof.HostSide.lean ====
/-
  The host side of the pooled-perceptron kernel: what the region finds in its windows, as functions of the arguments.

  Before the region the program pads each node type's feature array with rows of the converted word 0 and its graph-id
  vector with the word 64, lays the padded arrays out features × rows and the ids as one row, and lays three bias
  vectors out as rows.  Here: each padded array's segment sums and counts, for a segment below 64, are the
  argument's; each bias row is its argument.  (That every input window's block is its whole array is the blocks
  module's; the arrays as terms over the arguments are the arrays module's.)
-/
import proofs.«430187_j28956669509884_3_alg».proof.Proof.Gen.KernelIdeal.Frame
import proofs.«430187_j28956669509884_3_alg».proof.Proof.Spec
import proofs.«430187_j28956669509884_3_alg».proof.Proof.PadSeg
import proofs.«430187_j28956669509884_3_alg».proof.Proof.PadRead
import proofs.«430187_j28956669509884_3_alg».proof.Proof.HostBlocks
import proofs.«430187_j28956669509884_3_alg».proof.Proof.HostArrays
import Idealize.ShloMosaic.Lib.StableHlo.Run

set_option maxRecDepth 16384

noncomputable section

namespace Cert.KernelIdeal.HostSide

open Cert.KernelIdeal Cert.KernelIdeal.Gen Cert.Pool Idealize.ShloMosaic Idealize.ShloMosaic.TcCoe Idealize.ShloMosaic.ValueIdx Idealize.ShloMosaic.StableHlo

variable (m : (ℓ : Loc nD τ sig) → Buf (Elt Ideal) ℓ) (c : Dev nD)

/-! ## Segment sums depend on the arrays only -/

/-- Equal id rows and equal feature rows give equal segment sums. -/
theorem seg_rows_congr {R L : ℕ} (b : ℕ) (g g' : (⟨2, ![1, L]⟩ : Shape).Idx → BitVec 32)
    (x x' : (⟨2, ![R, L]⟩ : Shape).Idx → EReal) (r : Fin R) (hg : g = g') (hx : x = x') (lo len : ℕ) :
    seg b (rowsG g) (rowsE x r) lo len = seg b (rowsG g') (rowsE x' r) lo len := by
  subst hg hx; rfl

/-- Equal id rows give equal segment sums of any values. -/
theorem seg_ids_congr {L : ℕ} (b : ℕ) (g g' : (⟨2, ![1, L]⟩ : Shape).Idx → BitVec 32) (X : ℕ → EReal)
    (hg : g = g') (lo len : ℕ) : seg b (rowsG g) X lo len = seg b (rowsG g') X lo len := by
  subst hg; rfl

/-! ## The padded arrays' segment sums are the arguments'

The padded id rows carry the word 64 past the argument's rows, the word of no segment below 64, and agree with the
argument on its rows; the feature rows agree with the argument's columns there.  So each segment's sum (and count)
over all the padded rows is the sum over the argument's rows. -/

section Segments
variable (b : ℕ) (hb : b < 64)
include hb

/-- The first node type's feature sums. -/
theorem comp_sum : seg b (rowsG (V m c main_v3)) (rowsE (V m c main_v2) 0) 0 106496
    = seg b (idsG (m ((c : Thread nD τ).loc main_arg7))) (colE (m ((c : Thread nD τ).loc main_arg0)) 0) 0 100000 := by
  refine (seg_rows_congr b _ _ _ _ 0 (main_v3_eq m c) (main_v2_eq m c) 0 106496).trans ?_
  refine seg_padded_ids b hb (by omega) _ _ pads_S100000_S106496_064960 h_S_ shapeCasts_S106496_S1x106496 rfl _ _ ?_
  intro n hn
  exact rowsE_padded_col _ _ pads_S100000x1_S106496x1_064960_000 h_S_ shapeCasts_S106496x1_S1x106496 n hn (by omega)

/-- The first node type's row counts. -/
theorem comp_cnt (one : EReal) : seg b (rowsG (V m c main_v3)) (fun _ => one) 0 106496
    = seg b (idsG (m ((c : Thread nD τ).loc main_arg7))) (fun _ => one) 0 100000 := by
  refine (seg_ids_congr b _ _ _ (main_v3_eq m c) 0 106496).trans ?_
  exact seg_padded_ids b hb (by omega) _ _ pads_S100000_S106496_064960 h_S_ shapeCasts_S106496_S1x106496 rfl _ _ (fun _ _ => rfl)

/-- The second node type's feature sums, feature j. -/
theorem port_sum (j : Fin 2) : seg b (rowsG (V m c main_v7)) (rowsE (V m c main_v6) j) 0 401408
    = seg b (idsG (m ((c : Thread nD τ).loc main_arg8))) (colE (m ((c : Thread nD τ).loc main_arg1)) j) 0 400000 := by
  refine (seg_rows_congr b _ _ _ _ j (main_v7_eq m c) (main_v6_eq m c) 0 401408).trans ?_
  refine seg_padded_ids b hb (by omega) _ _ pads_S400000_S401408_014080 h_S_ shapeCasts_S401408_S1x401408 rfl _ _ ?_
  intro n hn
  exact rowsE_padded_tr _ _ pads_S400000x2_S401408x2_014080_000 h_S_ transposes_S401408x2_S2x401408_1_0 j n hn (by omega)

/-- The second node type's row counts. -/
theorem port_cnt (one : EReal) : seg b (rowsG (V m c main_v7)) (fun _ => one) 0 401408
    = seg b (idsG (m ((c : Thread nD τ).loc main_arg8))) (fun _ => one) 0 400000 := by
  refine (seg_ids_congr b _ _ _ (main_v7_eq m c) 0 401408).trans ?_
  exact seg_padded_ids b hb (by omega) _ _ pads_S400000_S401408_014080 h_S_ shapeCasts_S401408_S1x401408 rfl _ _ (fun _ _ => rfl)

/-- The third node type's feature sums. -/
theorem net_sum : seg b (rowsG (V m c main_v11)) (rowsE (V m c main_v10) 0) 0 155648
    = seg b (idsG (m ((c : Thread nD τ).loc main_arg9))) (colE (m ((c : Thread nD τ).loc main_arg2)) 0) 0 150000 := by
  refine (seg_rows_congr b _ _ _ _ 0 (main_v11_eq m c) (main_v10_eq m c) 0 155648).trans ?_
  refine seg_padded_ids b hb (by omega) _ _ pads_S150000_S155648_056480 h_S_ shapeCasts_S155648_S1x155648 rfl _ _ ?_
  intro n hn
  exact rowsE_padded_col _ _ pads_S150000x1_S155648x1_056480_000 h_S_ shapeCasts_S155648x1_S1x155648 n hn (by omega)

/-- The third node type's row counts. -/
theorem net_cnt (one : EReal) : seg b (rowsG (V m c main_v11)) (fun _ => one) 0 155648
    = seg b (idsG (m ((c : Thread nD τ).loc main_arg9))) (fun _ => one) 0 150000 := by
  refine (seg_ids_congr b _ _ _ (main_v11_eq m c) 0 155648).trans ?_
  exact seg_padded_ids b hb (by omega) _ _ pads_S150000_S155648_056480 h_S_ shapeCasts_S155648_S1x155648 rfl _ _ (fun _ _ => rfl)

end Segments

/-! ## The bias rows

Each bias vector is laid out as one row: the same words in order. -/

/-- Bias row 1 at column j is the argument at j. -/
theorem bias1 (j : Fin 128) : V m c main_v12 (ix2 0 j) = m ((c : Thread nD τ).loc main_arg23) (ix1 j) :=
  (congrFun (main_v12_eq m c) (ix2 0 j)).trans (row_of_vec_apply _ shapeCasts_S128_S1x128 j)

/-- Bias row 2 at column j is the argument at j. -/
theorem bias2 (j : Fin 128) : V m c main_v13 (ix2 0 j) = m ((c : Thread nD τ).loc main_arg25) (ix1 j) :=
  (congrFun (main_v13_eq m c) (ix2 0 j)).trans (row_of_vec_apply _ shapeCasts_S128_S1x128 j)

/-- Bias row 3 at column j is the argument at j. -/
theorem bias3 (j : Fin 10) : V m c main_v14 (ix2 0 j) = m ((c : Thread nD τ).loc main_arg27) (ix1 j) :=
  (congrFun (main_v14_eq m c) (ix2 0 j)).trans (row_of_vec_apply _ shapeCasts_S10_S1x10 j)

end Cert.KernelIdeal.HostSide

end
-- ==== Proof.KernelValue.lean ====
/-
  What the kernel's run leaves in the result array.

  The grid has three points.  The first leaves in the two accumulators the first node type's totals and counts (column 0) over
  zeros; the second adds the second type's two totals (columns 1, 2) and its count (column 1); the third adds the third type's
  (column 3, count column 2), divides each total by max(count, 1) and runs the perceptron into the output block, which is the
  whole result array and is written back once, after the third point.  The padded rows carry the id word 64, the word of no
  graph, so each padded total is the argument's own.
-/
import proofs.«430187_j28956669509884_3_alg».proof.Proof.Gen.KernelIdeal.Value
import proofs.«430187_j28956669509884_3_alg».proof.Proof.CaseA
import proofs.«430187_j28956669509884_3_alg».proof.Proof.CaseB
import proofs.«430187_j28956669509884_3_alg».proof.Proof.CaseC
import proofs.«430187_j28956669509884_3_alg».proof.Proof.HostSide
import proofs.«430187_j28956669509884_3_alg».proof.Proof.Mlp

set_option maxRecDepth 16384

noncomputable section

namespace Cert.KernelIdeal.KValue

open Cert.KernelIdeal Cert.KernelIdeal.Gen Cert.Pool
open Idealize.ShloMosaic Idealize.ShloMosaic.TcCoe Idealize.ShloMosaic.ValueIdx
open Idealize.SL Idealize.SL.Sem
open Idealize.ShloMosaic.Pipeline (Dat)

variable (m : (ℓ : Loc nD τ sig) → Buf (Elt Ideal) ℓ) (ρ : Dev nD → PrngReg)

/-- The three grid points. -/
abbrev q0 : Fin cfg0.N := ⟨0, by rw [show cfg0.N = 3 from N_0]; decide⟩
abbrev q1 : Fin cfg0.N := ⟨1, by rw [show cfg0.N = 3 from N_0]; decide⟩
abbrev q2 : Fin cfg0.N := ⟨2, by rw [show cfg0.N = 3 from N_0]; decide⟩

/-- The argument arrays, by the names the specification gives them. -/
abbrev aHc (c : Dev nD) := m ((c : Thread nD τ).loc main_arg0)
abbrev aHp (c : Dev nD) := m ((c : Thread nD τ).loc main_arg1)
abbrev aHn (c : Dev nD) := m ((c : Thread nD τ).loc main_arg2)
abbrev aGc (c : Dev nD) := m ((c : Thread nD τ).loc main_arg7)
abbrev aGp (c : Dev nD) := m ((c : Thread nD τ).loc main_arg8)
abbrev aGn (c : Dev nD) := m ((c : Thread nD τ).loc main_arg9)

/-- The result the specification assigns to device c's arguments. -/
abbrev res (c : Dev nD) : Buf (Elt Ideal) ((c : Thread nD τ).loc main_v15) :=
  Cert.Pool.result (aHc m c) (aHp m c) (aHn m c) (aGc m c) (aGp m c) (aGn m c)
    (m ((c : Thread nD τ).loc main_arg22)) (m ((c : Thread nD τ).loc main_arg23)) (m ((c : Thread nD τ).loc main_arg24))
    (m ((c : Thread nD τ).loc main_arg25)) (m ((c : Thread nD τ).loc main_arg26)) (m ((c : Thread nD τ).loc main_arg27))

/-! ## After the first point -/

theorem sums0 (c : Dev nD) (b : Fin 64) (j : Fin 4) :
    (outsAt0 m c 0 q0.isLt).2.1 (ix2 b j) = if j = 0 then total (aGc m c) (aHc m c) 0 b.val else zeroW := by
  have e := outsAt0_A m c q0 rfl rfl (by decide) (by decide)
  rw [show outsAt0 m c 0 q0.isLt = outsAt0 m c q0.val q0.isLt from rfl, e]
  dsimp only
  refine (CaseA.sumA c (grid0.coords q0) (ms0_0 q0) (hs0_0 q0) (ms0_1 q0) (hs0_1 q0) (ms0_2 q0) (hs0_2 q0) (ms0_3 q0) (hs0_3 q0) (ms0_4 q0) (hs0_4 q0) (ms0_5 q0) (hs0_5 q0) (ms0_6 q0) (hs0_6 q0) (ms0_7 q0) (hs0_7 q0) (ms0_8 q0) (hs0_8 q0) (ms0_9 q0) (hs0_9 q0) (ms0_10 q0) (hs0_10 q0) (ms0_11 q0) (hs0_11 q0) (ms0_12 q0) (hs0_12 q0) scM0_0 (Memref.isWhole_whole _) scM0_1 (Memref.isWhole_whole _) _ _ _ _ (iblk m c 0 q0) (iblk m c 1 q0) (iblk m c 2 q0) (iblk m c 3 q0) (iblk m c 4 q0) (iblk m c 5 q0) (iblk m c 6 q0) (iblk m c 7 q0) (iblk m c 8 q0) (iblk m c 9 q0) (iblk m c 10 q0) (iblk m c 11 q0) b j).trans ?_
  by_cases hj : j = 0
  · rw [if_pos hj, if_pos hj, HostSide.iblk0 m c q0, HostSide.iblk1 m c q0]
    exact congrArg (zeroW + ·) (HostSide.comp_sum m c b.val b.isLt)
  · rw [if_neg hj, if_neg hj]

theorem cnts0 (c : Dev nD) (b : Fin 64) (j : Fin 3) :
    (outsAt0 m c 0 q0.isLt).2.2 (ix2 b j) = if j = 0 then Pool.count (aGc m c) b.val else zeroW := by
  have e := outsAt0_A m c q0 rfl rfl (by decide) (by decide)
  rw [show outsAt0 m c 0 q0.isLt = outsAt0 m c q0.val q0.isLt from rfl, e]
  dsimp only
  refine (CaseA.cntA c (grid0.coords q0) (ms0_0 q0) (hs0_0 q0) (ms0_1 q0) (hs0_1 q0) (ms0_2 q0) (hs0_2 q0) (ms0_3 q0) (hs0_3 q0) (ms0_4 q0) (hs0_4 q0) (ms0_5 q0) (hs0_5 q0) (ms0_6 q0) (hs0_6 q0) (ms0_7 q0) (hs0_7 q0) (ms0_8 q0) (hs0_8 q0) (ms0_9 q0) (hs0_9 q0) (ms0_10 q0) (hs0_10 q0) (ms0_11 q0) (hs0_11 q0) (ms0_12 q0) (hs0_12 q0) scM0_0 (Memref.isWhole_whole _) scM0_1 (Memref.isWhole_whole _) _ _ _ _ (iblk m c 0 q0) (iblk m c 1 q0) (iblk m c 2 q0) (iblk m c 3 q0) (iblk m c 4 q0) (iblk m c 5 q0) (iblk m c 6 q0) (iblk m c 7 q0) (iblk m c 8 q0) (iblk m c 9 q0) (iblk m c 10 q0) (iblk m c 11 q0) b j).trans ?_
  by_cases hj : j = 0
  · rw [if_pos hj, if_pos hj, HostSide.iblk1 m c q0]
    exact congrArg (zeroW + ·) (HostSide.comp_cnt m c b.val b.isLt oneW)
  · rw [if_neg hj, if_neg hj]

/-! ## After the second point -/

theorem fin4_cases (j : Fin 4) : j = 0 ∨ j = 1 ∨ j = 2 ∨ j = 3 := by
  fin_cases j <;> simp
theorem fin3_cases (j : Fin 3) : j = 0 ∨ j = 1 ∨ j = 2 := by
  fin_cases j <;> simp

theorem sums1 (c : Dev nD) (b : Fin 64) (j : Fin 4) :
    (outsAt0 m c 1 q1.isLt).2.1 (ix2 b j)
      = if j = 0 then total (aGc m c) (aHc m c) 0 b.val
        else if j = 1 then total (aGp m c) (aHp m c) 0 b.val
        else if j = 2 then total (aGp m c) (aHp m c) 1 b.val
        else zeroW := by
  have e := outsAt0_B m c q1 (by decide) (by decide) rfl (by decide)
  rw [show outsAt0 m c 1 q1.isLt = outsAt0 m c q1.val q1.isLt from rfl, e]
  dsimp only
  refine (CaseB.sumB c (grid0.coords q1) (ms0_0 q1) (hs0_0 q1) (ms0_1 q1) (hs0_1 q1) (ms0_2 q1) (hs0_2 q1) (ms0_3 q1) (hs0_3 q1) (ms0_4 q1) (hs0_4 q1) (ms0_5 q1) (hs0_5 q1) (ms0_6 q1) (hs0_6 q1) (ms0_7 q1) (hs0_7 q1) (ms0_8 q1) (hs0_8 q1) (ms0_9 q1) (hs0_9 q1) (ms0_10 q1) (hs0_10 q1) (ms0_11 q1) (hs0_11 q1) (ms0_12 q1) (hs0_12 q1) scM0_0 (Memref.isWhole_whole _) scM0_1 (Memref.isWhole_whole _) _ _ _ _ (iblk m c 0 q1) (iblk m c 1 q1) (iblk m c 2 q1) (iblk m c 3 q1) (iblk m c 4 q1) (iblk m c 5 q1) (iblk m c 6 q1) (iblk m c 7 q1) (iblk m c 8 q1) (iblk m c 9 q1) (iblk m c 10 q1) (iblk m c 11 q1) _ _ b j).trans ?_
  have hx : ∀ k : Fin 4, (outsAt0 m c (q1.val - 1) (Nat.lt_of_le_of_lt (Nat.sub_le _ _) q1.isLt)).2.1 (ix2 b k)
      = if k = 0 then total (aGc m c) (aHc m c) 0 b.val else zeroW := fun k => sums0 m c b k
  rw [HostSide.iblk2 m c q1, HostSide.iblk3 m c q1]
  obtain rfl | rfl | rfl | rfl := fin4_cases j
  · rw [if_neg (by decide), if_neg (by decide), if_pos rfl, hx, if_pos rfl]
  · rw [if_pos rfl, if_neg (by decide), if_pos rfl, hx, if_neg (by decide)]
    exact congrArg (zeroW + ·) (HostSide.port_sum m c b.val b.isLt 0)
  · rw [if_neg (by decide), if_pos rfl, if_neg (by decide), if_neg (by decide), if_pos rfl, hx, if_neg (by decide)]
    exact congrArg (zeroW + ·) (HostSide.port_sum m c b.val b.isLt 1)
  · rw [if_neg (by decide), if_neg (by decide), if_neg (by decide), if_neg (by decide), if_neg (by decide), hx, if_neg (by decide)]

theorem cnts1 (c : Dev nD) (b : Fin 64) (j : Fin 3) :
    (outsAt0 m c 1 q1.isLt).2.2 (ix2 b j)
      = if j = 0 then Pool.count (aGc m c) b.val
        else if j = 1 then Pool.count (aGp m c) b.val
        else zeroW := by
  have e := outsAt0_B m c q1 (by decide) (by decide) rfl (by decide)
  rw [show outsAt0 m c 1 q1.isLt = outsAt0 m c q1.val q1.isLt from rfl, e]
  dsimp only
  refine (CaseB.cntB c (grid0.coords q1) (ms0_0 q1) (hs0_0 q1) (ms0_1 q1) (hs0_1 q1) (ms0_2 q1) (hs0_2 q1) (ms0_3 q1) (hs0_3 q1) (ms0_4 q1) (hs0_4 q1) (ms0_5 q1) (hs0_5 q1) (ms0_6 q1) (hs0_6 q1) (ms0_7 q1) (hs0_7 q1) (ms0_8 q1) (hs0_8 q1) (ms0_9 q1) (hs0_9 q1) (ms0_10 q1) (hs0_10 q1) (ms0_11 q1) (hs0_11 q1) (ms0_12 q1) (hs0_12 q1) scM0_0 (Memref.isWhole_whole _) scM0_1 (Memref.isWhole_whole _) _ _ _ _ (iblk m c 0 q1) (iblk m c 1 q1) (iblk m c 2 q1) (iblk m c 3 q1) (iblk m c 4 q1) (iblk m c 5 q1) (iblk m c 6 q1) (iblk m c 7 q1) (iblk m c 8 q1) (iblk m c 9 q1) (iblk m c 10 q1) (iblk m c 11 q1) _ _ b j).trans ?_
  have hx : ∀ k : Fin 3, (outsAt0 m c (q1.val - 1) (Nat.lt_of_le_of_lt (Nat.sub_le _ _) q1.isLt)).2.2 (ix2 b k)
      = if k = 0 then Pool.count (aGc m c) b.val else zeroW := fun k => cnts0 m c b k
  rw [HostSide.iblk3 m c q1]
  obtain rfl | rfl | rfl := fin3_cases j
  · rw [if_neg (by decide), if_pos rfl, hx, if_pos rfl]
  · rw [if_pos rfl, if_neg (by decide), if_pos rfl, hx, if_neg (by decide)]
    exact congrArg (zeroW + ·) (HostSide.port_cnt m c b.val b.isLt oneW)
  · rw [if_neg (by decide), if_neg (by decide), if_neg (by decide), hx, if_neg (by decide)]

/-! ## After the third point -/

/-- The accumulated totals and counts the third point divides are the specification's pooled means. -/
theorem pooled_eq (c : Dev nD) (b : Fin 64) :
    hgOf (CaseC.sAccC (outsAt0 m c (q2.val - 1) (Nat.lt_of_le_of_lt (Nat.sub_le _ _) q2.isLt)).2.1 (iblk m c 4 q2) (iblk m c 5 q2) b)
         (CaseC.cAccC (outsAt0 m c (q2.val - 1) (Nat.lt_of_le_of_lt (Nat.sub_le _ _) q2.isLt)).2.2 (iblk m c 5 q2) b)
      = pooled (aHc m c) (aHp m c) (aHn m c) (aGc m c) (aGp m c) (aGn m c) b.val := by
  have hs0 : (outsAt0 m c (q2.val - 1) (Nat.lt_of_le_of_lt (Nat.sub_le _ _) q2.isLt)).2.1 (ix2 b 0) = total (aGc m c) (aHc m c) 0 b.val := (sums1 m c b 0).trans (if_pos rfl)
  have hs1 : (outsAt0 m c (q2.val - 1) (Nat.lt_of_le_of_lt (Nat.sub_le _ _) q2.isLt)).2.1 (ix2 b 1) = total (aGp m c) (aHp m c) 0 b.val :=
    (sums1 m c b 1).trans ((if_neg (by decide)).trans (if_pos rfl))
  have hs2 : (outsAt0 m c (q2.val - 1) (Nat.lt_of_le_of_lt (Nat.sub_le _ _) q2.isLt)).2.1 (ix2 b 2) = total (aGp m c) (aHp m c) 1 b.val :=
    (sums1 m c b 2).trans ((if_neg (by decide)).trans ((if_neg (by decide)).trans (if_pos rfl)))
  have hs3 : (outsAt0 m c (q2.val - 1) (Nat.lt_of_le_of_lt (Nat.sub_le _ _) q2.isLt)).2.1 (ix2 b 3) = zeroW :=
    (sums1 m c b 3).trans ((if_neg (by decide)).trans ((if_neg (by decide)).trans (if_neg (by decide))))
  have hc0 : (outsAt0 m c (q2.val - 1) (Nat.lt_of_le_of_lt (Nat.sub_le _ _) q2.isLt)).2.2 (ix2 b 0) = Pool.count (aGc m c) b.val := (cnts1 m c b 0).trans (if_pos rfl)
  have hc1 : (outsAt0 m c (q2.val - 1) (Nat.lt_of_le_of_lt (Nat.sub_le _ _) q2.isLt)).2.2 (ix2 b 1) = Pool.count (aGp m c) b.val :=
    (cnts1 m c b 1).trans ((if_neg (by decide)).trans (if_pos rfl))
  have hc2 : (outsAt0 m c (q2.val - 1) (Nat.lt_of_le_of_lt (Nat.sub_le _ _) q2.isLt)).2.2 (ix2 b 2) = zeroW :=
    (cnts1 m c b 2).trans ((if_neg (by decide)).trans (if_neg (by decide)))
  funext k
  obtain rfl | rfl | rfl | rfl := fin4_cases k
  · show Ideal.div ((outsAt0 m c (q2.val - 1) (Nat.lt_of_le_of_lt (Nat.sub_le _ _) q2.isLt)).2.1 (ix2 b 0)) (max ((outsAt0 m c (q2.val - 1) (Nat.lt_of_le_of_lt (Nat.sub_le _ _) q2.isLt)).2.2 (ix2 b 0)) oneW) = _
    rw [hs0, hc0]; rfl
  · show Ideal.div ((outsAt0 m c (q2.val - 1) (Nat.lt_of_le_of_lt (Nat.sub_le _ _) q2.isLt)).2.1 (ix2 b 1)) (max ((outsAt0 m c (q2.val - 1) (Nat.lt_of_le_of_lt (Nat.sub_le _ _) q2.isLt)).2.2 (ix2 b 1)) oneW) = _
    rw [hs1, hc1]; rfl
  · show Ideal.div ((outsAt0 m c (q2.val - 1) (Nat.lt_of_le_of_lt (Nat.sub_le _ _) q2.isLt)).2.1 (ix2 b 2)) (max ((outsAt0 m c (q2.val - 1) (Nat.lt_of_le_of_lt (Nat.sub_le _ _) q2.isLt)).2.2 (ix2 b 1)) oneW) = _
    rw [hs2, hc1]; rfl
  · show Ideal.div ((outsAt0 m c (q2.val - 1) (Nat.lt_of_le_of_lt (Nat.sub_le _ _) q2.isLt)).2.1 (ix2 b 3) + seg b.val (rowsG (iblk m c 5 q2)) (rowsE (iblk m c 4 q2) 0) 0 155648)
        (max ((outsAt0 m c (q2.val - 1) (Nat.lt_of_le_of_lt (Nat.sub_le _ _) q2.isLt)).2.2 (ix2 b 2) + seg b.val (rowsG (iblk m c 5 q2)) (fun _ => oneW) 0 155648) oneW)
        = Ideal.div (total (aGn m c) (aHn m c) 0 b.val) (max (Pool.count (aGn m c) b.val) oneW)
    rw [hs3, hc2, HostSide.iblk4 m c q2, HostSide.iblk5 m c q2]
    unfold total Pool.count
    exact congrArg₂ (fun s n => Ideal.div s (max n oneW))
      (congrArg (zeroW + ·) (HostSide.net_sum m c b.val b.isLt))
      (congrArg (zeroW + ·) (HostSide.net_cnt m c b.val b.isLt oneW))

/-- The perceptron depends on its weights and biases only through their values. -/
theorem mlpOut_congr (hg : Fin 4 → EReal)
    {w1 w1' : (⟨2, ![4, 128]⟩ : Shape).Idx → EReal} {b1 b1' : Fin 128 → EReal}
    {w2 w2' : (⟨2, ![128, 128]⟩ : Shape).Idx → EReal} {b2 b2' : Fin 128 → EReal}
    {w3 w3' : (⟨2, ![128, 10]⟩ : Shape).Idx → EReal} {b3 b3' : Fin 10 → EReal}
    (e1 : w1 = w1') (f1 : b1 = b1') (e2 : w2 = w2') (f2 : b2 = b2') (e3 : w3 = w3') (f3 : b3 = b3') (j : Fin 10) :
    mlpOut hg w1 b1 w2 b2 w3 b3 j = mlpOut hg w1' b1' w2' b2' w3' b3' j := by
  subst e1 f1 e2 f2 e3 f3; rfl

/-- The output block after the third point is the specification's result. -/
theorem out2 (c : Dev nD) : (outsAt0 m c 2 q2.isLt).1 = res m c := by
  funext i
  obtain ⟨b, j, rfl⟩ : ∃ (b : Fin 64) (j : Fin 10), i = ix2 b j := ⟨i 0, i 1, eq_ix2 i⟩
  have e := outsAt0_C m c q2 (by decide) (by decide) (by decide) rfl
  rw [show outsAt0 m c 2 q2.isLt = outsAt0 m c q2.val q2.isLt from rfl, e]
  dsimp only
  refine (CaseC.outC c (grid0.coords q2) (ms0_0 q2) (hs0_0 q2) (ms0_1 q2) (hs0_1 q2) (ms0_2 q2) (hs0_2 q2) (ms0_3 q2) (hs0_3 q2) (ms0_4 q2) (hs0_4 q2) (ms0_5 q2) (hs0_5 q2) (ms0_6 q2) (hs0_6 q2) (ms0_7 q2) (hs0_7 q2) (ms0_8 q2) (hs0_8 q2) (ms0_9 q2) (hs0_9 q2) (ms0_10 q2) (hs0_10 q2) (ms0_11 q2) (hs0_11 q2) (ms0_12 q2) (hs0_12 q2) scM0_0 (Memref.isWhole_whole _) scM0_1 (Memref.isWhole_whole _) _ _ _ _ (iblk m c 0 q2) (iblk m c 1 q2) (iblk m c 2 q2) (iblk m c 3 q2) (iblk m c 4 q2) (iblk m c 5 q2) (iblk m c 6 q2) (iblk m c 7 q2) (iblk m c 8 q2) (iblk m c 9 q2) (iblk m c 10 q2) (iblk m c 11 q2) _ _ b j).trans ?_
  rw [pooled_eq m c b]
  exact mlpOut_congr _
    ((HostSide.iblk6 m c q2).trans (V_main_arg22 m c))
    (funext fun k => (congrFun (HostSide.iblk7 m c q2) (ix2 0 k)).trans (HostSide.bias1 m c k))
    ((HostSide.iblk8 m c q2).trans (V_main_arg24 m c))
    (funext fun k => (congrFun (HostSide.iblk9 m c q2) (ix2 0 k)).trans (HostSide.bias2 m c k))
    ((HostSide.iblk10 m c q2).trans (V_main_arg26 m c))
    (funext fun k => (congrFun (HostSide.iblk11 m c q2) (ix2 0 k)).trans (HostSide.bias3 m c k)) j

/-- The one write-back, after the third point, writes the result: the output's block at index (0, 0) is the whole array. -/
theorem flushed_eq (c : Dev nD) (t : Fin cfg0.N) (hf : (cfg0.win 12).flush t = true) :
    (dats m 0 c).flushed 12 t = ((cfg0.win 12).blk t).view.read (Elt Ideal) (res m c) := by
  have h2 : t.val = 2 := by
    have h := (flush0_12 t).mp hf
    have hlt : t.val < 3 := lt_of_lt_of_eq t.isLt N_0
    omega
  obtain rfl : t = q2 := Fin.ext h2
  rw [Cert.KernelIdeal.Value.flushed12]
  rw [show outsAt0 m c q2.val q2.isLt = outsAt0 m c 2 q2.isLt from rfl, out2 m c]
  have hz' : (fun a => win0_12.index q2 a * main_v15.ty.shape.size a) = fun _ => 0 :=
    funext fun a => by fin_cases a <;> decide
  exact (Memref.read_access_unit_zero (Elt Ideal) main_v15 hz' (fun a => by rw [congrFun hz' a]; simp) (res m c)).symm

/-- So the result array ends holding the specification's result: the third point's block covers it. -/
theorem final12 (c : Dev nD) : (dats m 0 c).arrAt 12 cfg0.N = res m c :=
  (dats m 0 c).arrAt_eq_of_cover 12 (res m c) (flushed_eq m c) fun i =>
    ⟨q2, (flush0_12 q2).mpr rfl, by
      show i ∈ ((View.whole main_v15).slice (win0_12.rect q2)).set
      rw [View.set_slice_whole, Rect.mem_set_unit]
      intro a
      have h0 : (i 0 : Nat) < 64 := (i 0).isLt
      have h1 : (i 1 : Nat) < 10 := (i 1).isLt
      match a with
      | ⟨0, _⟩ =>
        show win0_12.index q2 0 * win0_12.size 0 ≤ (i 0 : Nat) ∧ (i 0 : Nat) < win0_12.index q2 0 * win0_12.size 0 + win0_12.xsize (grid0.coords q2) 0
        rw [show win0_12.index q2 0 * win0_12.size 0 = 0 from by decide +kernel, show win0_12.xsize (grid0.coords q2) 0 = 64 from by decide +kernel]
        omega
      | ⟨1, _⟩ =>
        show win0_12.index q2 1 * win0_12.size 1 ≤ (i 1 : Nat) ∧ (i 1 : Nat) < win0_12.index q2 1 * win0_12.size 1 + win0_12.xsize (grid0.coords q2) 1
        rw [show win0_12.index q2 1 * win0_12.size 1 = 0 from by decide +kernel, show win0_12.xsize (grid0.coords q2) 1 = 10 from by decide +kernel]
        omega⟩

/-- The kernel's run: the result array at the specification's result, the arguments unchanged. -/
theorem run : θ_run defs (onTc (τ := τ) (main (F := Ideal))) ⟨m, fun _ => 0, ρ⟩ fun r => ∀ c : Dev nD,
      r.2.mem ((c : Thread nD τ).loc main_v15) = res m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19)
      ∧ r.2.mem ((c : Thread nD τ).loc main_arg20) = m ((c : Thread nD τ).loc main_arg20)
      ∧ r.2.mem ((c : Thread nD τ).loc main_arg21) = m ((c : Thread nD τ).loc main_arg21)
      ∧ r.2.mem ((c : Thread nD τ).loc main_arg22) = m ((c : Thread nD τ).loc main_arg22)
      ∧ r.2.mem ((c : Thread nD τ).loc main_arg23) = m ((c : Thread nD τ).loc main_arg23)
      ∧ r.2.mem ((c : Thread nD τ).loc main_arg24) = m ((c : Thread nD τ).loc main_arg24)
      ∧ r.2.mem ((c : Thread nD τ).loc main_arg25) = m ((c : Thread nD τ).loc main_arg25)
      ∧ r.2.mem ((c : Thread nD τ).loc main_arg26) = m ((c : Thread nD τ).loc main_arg26)
      ∧ r.2.mem ((c : Thread nD τ).loc main_arg27) = m ((c : Thread nD τ).loc main_arg27) :=
  (θ_run defs _ _).mono (fun _ h c => ⟨(h c).1.trans (final12 m c), (h c).2⟩)
    (Cert.KernelIdeal.Value.run_blocks m ρ)

end Cert.KernelIdeal.KValue

end
-- ==== Proof.ScatterRead.lean ====
/-
  The accumulating scatter that a segment sum is, read at an element.

  Operand rows × features, one index word per update row, updates rows × features; the update at (n, f') goes to
  operand row "the index word of row n read signed" and column f'.  So the operand element (b, f) receives exactly the
  updates (n, f) whose index word is b's word, and the scatter's value there is the operand's element plus segment b's
  sum of column f.
-/
import Idealize.ShloMosaic.PureOps.Ideal.Laws
import Idealize.ShloMosaic.Lib.ValueIdx
import proofs.«430187_j28956669509884_3_alg».proof.Proof.SegSum
import proofs.«430187_j28956669509884_3_alg».proof.Proof.Spec

noncomputable section

namespace Cert.Pool

open Idealize.ShloMosaic Idealize.ShloMosaic.ValueIdx

/-- The dimension numbers of a segment sum's scatter: operand `[B, Fd]`, indices `[N, 1]`, updates `[N, Fd]`; the
    updates' axis 1 is the window axis, the operand's axis 0 is inserted and is the one the index word names, the
    index vector lies along the indices' axis 1.  Their conditions `wf` are decided on a program's literal shapes. -/
abbrev segDims (B N Fd : ℕ)
    (wf : ScatterDims.WF ⟨2, ![B, Fd]⟩ ⟨2, ![N, 1]⟩ ⟨2, ![N, Fd]⟩ [1] [0] [0] 1) :
    ScatterDims ⟨2, ![B, Fd]⟩ ⟨2, ![N, 1]⟩ ⟨2, ![N, Fd]⟩ where
  updateWindowDims := [1]
  insertedWindowDims := [0]
  scatterDimsToOperandDims := [0]
  indexVectorDim := 1
  wf := wf

section
variable {B N Fd : ℕ} (wf : ScatterDims.WF ⟨2, ![B, Fd]⟩ ⟨2, ![N, 1]⟩ ⟨2, ![N, Fd]⟩ [1] [0] [0] 1)

/-- On the operand's row axis the window starts at the update row's index word, read signed. -/
theorem segDims_start0 {w : ℕ} (j : (⟨2, ![N, Fd]⟩ : Shape).Idx) (idx : IVec ⟨2, ![N, 1]⟩ w) :
    (segDims B N Fd wf).start j idx 0 = (idx (ix2 ⟨(j 0).val, idx2_lt0 j⟩ 0)).toInt := by
  unfold ScatterDims.start
  rw [dif_pos (show (0 : Fin 2) ∈ (segDims B N Fd wf).scatterDimsToOperandDims from List.mem_singleton.mpr rfl)]
  congr 2
  funext b; refine Fin.ext ?_
  match b with
  | ⟨0, _⟩ => rfl
  | ⟨1, _⟩ => rfl

/-- On the operand's feature axis the window starts at 0. -/
theorem segDims_start1 {w : ℕ} (j : (⟨2, ![N, Fd]⟩ : Shape).Idx) (idx : IVec ⟨2, ![N, 1]⟩ w) :
    (segDims B N Fd wf).start j idx 1 = 0 := by
  unfold ScatterDims.start
  rw [dif_neg (show ¬ (1 : Fin 2) ∈ (segDims B N Fd wf).scatterDimsToOperandDims from (by decide : ¬ (1 : Fin 2) ∈ [(0 : Fin 2)]))]

/-- The window has no extent along the operand's row axis. -/
theorem segDims_window0 (j : (⟨2, ![N, Fd]⟩ : Shape).Idx) :
    (segDims B N Fd wf).window j 0 = 0 := by
  unfold ScatterDims.window
  rw [dif_neg (show ¬ (0 : Fin 2) ∈ (segDims B N Fd wf).sKept from (by decide : ¬ (0 : Fin 2) ∈ (List.finRange 2).filter (· ∉ [(0 : Fin 2)])))]

/-- Along the operand's feature axis the window coordinate is the update's feature. -/
theorem segDims_window1 (j : (⟨2, ![N, Fd]⟩ : Shape).Idx) :
    (segDims B N Fd wf).window j 1 = (j 1).val := by
  unfold ScatterDims.window
  rw [dif_pos (show (1 : Fin 2) ∈ (segDims B N Fd wf).sKept from (by decide : (1 : Fin 2) ∈ (List.finRange 2).filter (· ∉ [(0 : Fin 2)])))]
  rfl

end

section
variable {B N Fd : ℕ} (wf : ScatterDims.WF ⟨2, ![B, Fd]⟩ ⟨2, ![N, 1]⟩ ⟨2, ![N, Fd]⟩ [1] [0] [0] 1)

/-- An update lands on an element exactly when start plus window coordinate is that element's coordinate on every axis. -/
theorem resultIdx?_eq_some_iff {s si u : Shape} (d : ScatterDims s si u) {w : ℕ} (j : u.Idx) (idx : IVec si w) (i : s.Idx) :
    d.resultIdx? j idx = some i ↔ ∀ a, d.start j idx a + d.window j a = ((i a).val : ℤ) := by
  unfold ScatterDims.resultIdx?
  split_ifs with h
  · rw [Option.some.injEq]
    constructor
    · rintro rfl a
      exact (Int.toNat_of_nonneg (h a).1).symm
    · intro hh
      funext a
      refine Fin.ext ?_
      show (d.start j idx a + d.window j a).toNat = (i a).val
      rw [hh a, Int.toNat_natCast]
  · constructor
    · intro hh; cases hh
    · intro hh
      exfalso
      refine h fun a => ?_
      rw [hh a]
      exact ⟨Int.natCast_nonneg _, by exact_mod_cast (i a).isLt⟩

/-- A word read signed is the small natural `b` exactly when it is `b`'s word. -/
theorem toInt_eq_natCast_iff (g : BitVec 32) (b : ℕ) (hb : b < 2 ^ 31) :
    g.toInt = (b : ℤ) ↔ BitVec.ofNat 32 b = g := by
  constructor
  · intro h
    have := BitVec.ofInt_toInt (x := g)
    rw [h] at this
    rw [← this]
    exact (BitVec.ofInt_natCast 32 b).symm
  · rintro rfl
    rw [BitVec.toInt_eq_toNat_cond, BitVec.toNat_ofNat]
    have : b % 2 ^ 32 = b := Nat.mod_eq_of_lt (by omega)
    rw [this, if_pos (by omega)]

/-- The update (n, f') lands on (b, f) exactly when row n's index word is b's word and f' = f. -/
theorem segDims_lands (n : Fin N) (f' : Fin Fd) (idx : IVec ⟨2, ![N, 1]⟩ 32) (b : Fin B) (f : Fin Fd)
    (hB : B ≤ 2 ^ 31) :
    (segDims B N Fd wf).resultIdx? (ix2 n f') idx = some (ix2 b f) ↔ BitVec.ofNat 32 b.val = idx (ix2 n 0) ∧ f' = f := by
  rw [resultIdx?_eq_some_iff, Fin.forall_fin_two, segDims_start0, segDims_start1, segDims_window0, segDims_window1]
  show ((idx (ix2 n 0)).toInt + ((0 : ℕ) : ℤ) = ((b.val : ℕ) : ℤ)) ∧ ((0 : ℤ) + ((f'.val : ℕ) : ℤ) = ((f.val : ℕ) : ℤ)) ↔ _
  rw [Nat.cast_zero, add_zero, zero_add, toInt_eq_natCast_iff _ _ (lt_of_lt_of_le b.isLt hB), Nat.cast_inj, Fin.val_inj]
end

section
variable {B N Fd : ℕ} (wf : ScatterDims.WF ⟨2, ![B, Fd]⟩ ⟨2, ![N, 1]⟩ ⟨2, ![N, Fd]⟩ [1] [0] [0] 1)

/-- THE SCATTER READ AT (b, f): the operand's element plus segment `b`'s sum of column `f` of the updates. -/
theorem segDims_scatterAdd (hB : B ≤ 2 ^ 31) (x : (⟨2, ![B, Fd]⟩ : Shape).Idx → EReal) (idx : IVec ⟨2, ![N, 1]⟩ 32)
    (upd : (⟨2, ![N, Fd]⟩ : Shape).Idx → EReal) (b : Fin B) (f : Fin Fd) :
    Ideal.hostScatterAdd (segDims B N Fd wf) x idx upd (ix2 b f) =
      x (ix2 b f) + seg b.val (fun n => if h : n < N then idx (ix2 ⟨n, h⟩ 0) else 0)
        (fun n => if h : n < N then upd (ix2 ⟨n, h⟩ f) else 0) 0 N := by
  unfold Ideal.hostScatterAdd seg
  congr 1
  rw [Finset.sum_filter, sum_idx2, Finset.sum_range]
  refine Finset.sum_congr rfl fun n _ => ?_
  simp only [zero_add, dif_pos n.isLt, segDims_lands wf _ _ idx b _ hB]
  unfold pick
  by_cases hg : BitVec.ofNat 32 b.val = idx (ix2 n 0)
  · simp only [hg, true_and, if_true]
    exact Finset.sum_ite_eq' Finset.univ f _ |>.trans (if_pos (Finset.mem_univ f))
  · simp only [hg, false_and, if_false, Finset.sum_const_zero]
end

/-- A segment sum reads its two row functions only on the stretch it sums over. -/
theorem seg_congr (b : ℕ) (G G' : ℕ → BitVec 32) (X X' : ℕ → EReal) (lo len : ℕ)
    (h : ∀ k, k < len → G (lo + k) = G' (lo + k) ∧ X (lo + k) = X' (lo + k)) :
    seg b G X lo len = seg b G' X' lo len := by
  unfold seg
  refine Finset.sum_congr rfl fun k hk => ?_
  obtain ⟨hg, hx⟩ := h k (Finset.mem_range.mp hk)
  rw [hg, hx]

section
variable {B N Fd : ℕ} (wf : ScatterDims.WF ⟨2, ![B, Fd]⟩ ⟨2, ![N, 1]⟩ ⟨2, ![N, Fd]⟩ [1] [0] [0] 1)

/-- The same, with the index words those of a rank-1 id array spread along the rows: the operand's element plus
    segment `b`'s sum of the updates' column `f` as the specification spells it. -/
theorem segDims_scatterAdd_col (hB : B ≤ 2 ^ 31) (x : (⟨2, ![B, Fd]⟩ : Shape).Idx → EReal)
    (g : (⟨1, ![N]⟩ : Shape).Idx → BitVec 32) (idx : IVec ⟨2, ![N, 1]⟩ 32)
    (hidx : ∀ n : Fin N, idx (ix2 n 0) = g (ix1 n))
    (upd : (⟨2, ![N, Fd]⟩ : Shape).Idx → EReal) (b : Fin B) (f : Fin Fd) :
    Ideal.hostScatterAdd (segDims B N Fd wf) x idx upd (ix2 b f) =
      x (ix2 b f) + seg b.val (idsG g) (colE upd f) 0 N := by
  rw [segDims_scatterAdd wf hB]
  congr 1
  refine seg_congr _ _ _ _ _ _ _ fun k hk => ?_
  rw [Nat.zero_add]
  refine ⟨?_, ?_⟩
  · unfold idsG
    rw [dif_pos hk, dif_pos hk]
    exact hidx ⟨k, hk⟩
  · unfold colE
    rfl

/-- The same when every update is one value `c`: the operand's element plus segment `b`'s sum of `c` per row. -/
theorem segDims_scatterAdd_const (hB : B ≤ 2 ^ 31) (x : (⟨2, ![B, Fd]⟩ : Shape).Idx → EReal)
    (g : (⟨1, ![N]⟩ : Shape).Idx → BitVec 32) (idx : IVec ⟨2, ![N, 1]⟩ 32)
    (hidx : ∀ n : Fin N, idx (ix2 n 0) = g (ix1 n))
    (upd : (⟨2, ![N, Fd]⟩ : Shape).Idx → EReal) (c : EReal) (hupd : ∀ j, upd j = c) (b : Fin B) (f : Fin Fd) :
    Ideal.hostScatterAdd (segDims B N Fd wf) x idx upd (ix2 b f) =
      x (ix2 b f) + seg b.val (idsG g) (fun _ => c) 0 N := by
  rw [segDims_scatterAdd wf hB]
  congr 1
  refine seg_congr _ _ _ _ _ _ _ fun k hk => ?_
  rw [Nat.zero_add]
  refine ⟨?_, ?_⟩
  · unfold idsG
    rw [dif_pos hk, dif_pos hk]
    exact hidx ⟨k, hk⟩
  · show (if h : k < N then upd (ix2 ⟨k, h⟩ f) else 0) = c
    rw [dif_pos hk]
    exact hupd _
end

section
variable {B N Fd : ℕ} {wf : ScatterDims.WF ⟨2, ![B, Fd]⟩ ⟨2, ![N, 1]⟩ ⟨2, ![N, Fd]⟩ [1] [0] [0] 1}

/-- The host's accumulating scatter with these dimension numbers, at the exact-arithmetic instance, read at (b, f). -/
theorem scatterAdd_read_col {φ : FTy} (d : ScatterDims ⟨2, ![B, Fd]⟩ ⟨2, ![N, 1]⟩ ⟨2, ![N, Fd]⟩)
    (hd : d = segDims B N Fd wf) (hB : B ≤ 2 ^ 31) (x : FVec Ideal ⟨2, ![B, Fd]⟩ φ)
    (g : (⟨1, ![N]⟩ : Shape).Idx → BitVec 32) (idx : IVec ⟨2, ![N, 1]⟩ 32)
    (hidx : ∀ n : Fin N, idx (ix2 n 0) = g (ix1 n))
    (upd : FVec Ideal ⟨2, ![N, Fd]⟩ φ) (b : Fin B) (f : Fin Fd) :
    Host.scatterAdd (F := Ideal) d x idx upd (ix2 b f) = x (ix2 b f) + seg b.val (idsG g) (colE upd f) 0 N := by
  subst hd
  unfold Host.scatterAdd
  rw [Ideal.hostScatterAdd_def]
  exact segDims_scatterAdd_col wf hB x g idx hidx upd b f

/-- The same when every update is one value `c`. -/
theorem scatterAdd_read_const {φ : FTy} (d : ScatterDims ⟨2, ![B, Fd]⟩ ⟨2, ![N, 1]⟩ ⟨2, ![N, Fd]⟩)
    (hd : d = segDims B N Fd wf) (hB : B ≤ 2 ^ 31) (x : FVec Ideal ⟨2, ![B, Fd]⟩ φ)
    (g : (⟨1, ![N]⟩ : Shape).Idx → BitVec 32) (idx : IVec ⟨2, ![N, 1]⟩ 32)
    (hidx : ∀ n : Fin N, idx (ix2 n 0) = g (ix1 n))
    (upd : FVec Ideal ⟨2, ![N, Fd]⟩ φ) (c : EReal) (hupd : ∀ j, upd j = c) (b : Fin B) (f : Fin Fd) :
    Host.scatterAdd (F := Ideal) d x idx upd (ix2 b f) = x (ix2 b f) + seg b.val (idsG g) (fun _ => c) 0 N := by
  subst hd
  unfold Host.scatterAdd
  rw [Ideal.hostScatterAdd_def]
  exact segDims_scatterAdd_const wf hB x g idx hidx upd c hupd b f
end

end Cert.Pool

end
-- ==== Proof.RefValue.lean ====
/-
  The reference program's result, element by element, is the specification.

  Each node type's features are summed per graph by an accumulating scatter over the rows' graph ids, and so are the
  rows themselves (a scatter of ones); the quotient of the two, the divisor raised to at least one, is the segment's
  mean.  The four pooled columns are joined and pass through three dense layers, the first two followed by a maximum
  with zero.  Every stage is read at an index and matched with the specification's spelling of it.
-/
import proofs.«430187_j28956669509884_3_alg».proof.Proof.Gen.ReferenceIdeal.Read
import proofs.«430187_j28956669509884_3_alg».proof.Proof.ScatterRead
import proofs.«430187_j28956669509884_3_alg».proof.Proof.Spec

noncomputable section

namespace Cert.ReferenceIdeal.RefValue

open Cert.ReferenceIdeal Cert.ReferenceIdeal.Gen Cert.ReferenceIdeal.Read Idealize.ShloMosaic Idealize.ShloMosaic.ValueIdx Cert.Pool

/-! ### The first node type: 100000 rows, one column -/

theorem idx_v46 (n : Fin 100000) : idx_main_v46 (ix2 n 0) = ix1 n := by
  funext a; match a with | ⟨0, _⟩ => rfl

theorem idx_v50 (n : Fin 100000) : idx_main_v50 (ix2 n 0) = ix1 n := by
  funext a; match a with | ⟨0, _⟩ => rfl

/-- The index array of the totals' scatter holds row n's id word at (n, 0). -/
theorem v46_at (x7 : (⟨S100000, .i32⟩ : BufTy).Contents (Elt Ideal)) (n : Fin 100000) :
    val_main_v46 (F := Ideal) x7 (ix2 n 0) = x7 (ix1 n) := by
  rw [val_main_v46_apply, idx_v46]

/-- The index array of the counts' scatter holds row n's id word at (n, 0). -/
theorem v50_at (x7 : (⟨S100000, .i32⟩ : BufTy).Contents (Elt Ideal)) (n : Fin 100000) :
    val_main_v50 (F := Ideal) x7 (ix2 n 0) = x7 (ix1 n) := by
  rw [val_main_v50_apply, idx_v50]

/-- The totals' scatter at (b, f) is segment b's total of column f. -/
theorem v47_at (x0 : (⟨S100000x1, .f32⟩ : BufTy).Contents (Elt Ideal)) (x7 : (⟨S100000, .i32⟩ : BufTy).Contents (Elt Ideal)) (b : Fin 64) :
    val_main_v47 (F := Ideal) x0 x7 (ix2 b 0) = total x7 x0 0 b.val := by
  unfold val_main_v47 total
  rw [scatterAdd_read_col scatter_S64x1_S100000x1_S100000x1_1_0_0_1 rfl (by norm_num) _ x7 _ (v46_at x7), val_main_v45_apply, val_main_cst_7_apply, Ideal.ofBits_def]

/-- Every update of the counts' scatter is the word of one. -/
theorem v48_at (j : S100000x1.Idx) : val_main_v48 (F := Ideal) j = oneW := by
  rw [val_main_v48_apply, val_main_cst_8_apply, Ideal.ofBits_def]

/-- The counts' scatter at (b, 0) is segment b's row count. -/
theorem v51_at (x7 : (⟨S100000, .i32⟩ : BufTy).Contents (Elt Ideal)) (b : Fin 64) :
    val_main_v51 (F := Ideal) x7 (ix2 b 0) = Pool.count x7 b.val := by
  unfold val_main_v51 Pool.count
  rw [scatterAdd_read_const scatter_S64x1_S100000x1_S100000x1_1_0_0_1 rfl (by norm_num) _ x7 _ (v50_at x7) _ oneW v48_at, val_main_v49_apply, val_main_cst_9_apply, Ideal.ofBits_def]

/-- The divisor at (b, 0): the count, an empty segment counted as one row. -/
theorem v53_at (x7 : (⟨S100000, .i32⟩ : BufTy).Contents (Elt Ideal)) (b : Fin 64) :
    val_main_v53 (F := Ideal) x7 (ix2 b 0) = max (Pool.count x7 b.val) oneW := by
  rw [val_main_v53_apply, v51_at, val_main_v52_apply, val_main_cst_10_apply, Ideal.maximumf_def, Ideal.ofBits_def]

/-- The quotient at (b, f) is segment b's mean of column f. -/
theorem v54_at (x0 : (⟨S100000x1, .f32⟩ : BufTy).Contents (Elt Ideal)) (x7 : (⟨S100000, .i32⟩ : BufTy).Contents (Elt Ideal)) (b : Fin 64) :
    val_main_v54 (F := Ideal) x0 x7 (ix2 b 0) = mean x7 x0 0 b.val := by
  unfold mean
  rw [val_main_v54_apply, v47_at, v53_at, Ideal.hostDivf_def]

/-! ### The second node type: 400000 rows, two columns -/

theorem idx_v56 (n : Fin 400000) : idx_main_v56 (ix2 n 0) = ix1 n := by
  funext a; match a with | ⟨0, _⟩ => rfl

theorem idx_v60 (n : Fin 400000) : idx_main_v60 (ix2 n 0) = ix1 n := by
  funext a; match a with | ⟨0, _⟩ => rfl

/-- The index array of the totals' scatter holds row n's id word at (n, 0). -/
theorem v56_at (x8 : (⟨S400000, .i32⟩ : BufTy).Contents (Elt Ideal)) (n : Fin 400000) :
    val_main_v56 (F := Ideal) x8 (ix2 n 0) = x8 (ix1 n) := by
  rw [val_main_v56_apply, idx_v56]

/-- The index array of the counts' scatter holds row n's id word at (n, 0). -/
theorem v60_at (x8 : (⟨S400000, .i32⟩ : BufTy).Contents (Elt Ideal)) (n : Fin 400000) :
    val_main_v60 (F := Ideal) x8 (ix2 n 0) = x8 (ix1 n) := by
  rw [val_main_v60_apply, idx_v60]

/-- The totals' scatter at (b, f) is segment b's total of column f. -/
theorem v57_at (x1 : (⟨S400000x2, .f32⟩ : BufTy).Contents (Elt Ideal)) (x8 : (⟨S400000, .i32⟩ : BufTy).Contents (Elt Ideal)) (b : Fin 64) (f : Fin 2) :
    val_main_v57 (F := Ideal) x1 x8 (ix2 b f) = total x8 x1 f b.val := by
  unfold val_main_v57 total
  rw [scatterAdd_read_col scatter_S64x2_S400000x1_S400000x2_1_0_0_1 rfl (by norm_num) _ x8 _ (v56_at x8), val_main_v55_apply, val_main_cst_11_apply, Ideal.ofBits_def]

/-- Every update of the counts' scatter is the word of one. -/
theorem v58_at (j : S400000x1.Idx) : val_main_v58 (F := Ideal) j = oneW := by
  rw [val_main_v58_apply, val_main_cst_12_apply, Ideal.ofBits_def]

/-- The counts' scatter at (b, 0) is segment b's row count. -/
theorem v61_at (x8 : (⟨S400000, .i32⟩ : BufTy).Contents (Elt Ideal)) (b : Fin 64) :
    val_main_v61 (F := Ideal) x8 (ix2 b 0) = Pool.count x8 b.val := by
  unfold val_main_v61 Pool.count
  rw [scatterAdd_read_const scatter_S64x1_S400000x1_S400000x1_1_0_0_1 rfl (by norm_num) _ x8 _ (v60_at x8) _ oneW v58_at, val_main_v59_apply, val_main_cst_13_apply, Ideal.ofBits_def]

/-- The divisor at (b, 0): the count, an empty segment counted as one row. -/
theorem v63_at (x8 : (⟨S400000, .i32⟩ : BufTy).Contents (Elt Ideal)) (b : Fin 64) :
    val_main_v63 (F := Ideal) x8 (ix2 b 0) = max (Pool.count x8 b.val) oneW := by
  rw [val_main_v63_apply, v61_at, val_main_v62_apply, val_main_cst_14_apply, Ideal.maximumf_def, Ideal.ofBits_def]

theorem idx_v64 (b : Fin 64) (f : Fin 2) : idx_main_v64 (ix2 b f) = ix2 b 0 := by
  funext a; match a with | ⟨0, _⟩ => rfl | ⟨1, _⟩ => rfl

/-- The divisor spread along the two columns. -/
theorem v64_at (x8 : (⟨S400000, .i32⟩ : BufTy).Contents (Elt Ideal)) (b : Fin 64) (f : Fin 2) :
    val_main_v64 (F := Ideal) x8 (ix2 b f) = max (Pool.count x8 b.val) oneW := by
  rw [val_main_v64_apply, idx_v64, v63_at]

/-- The quotient at (b, f) is segment b's mean of column f. -/
theorem v65_at (x1 : (⟨S400000x2, .f32⟩ : BufTy).Contents (Elt Ideal)) (x8 : (⟨S400000, .i32⟩ : BufTy).Contents (Elt Ideal)) (b : Fin 64) (f : Fin 2) :
    val_main_v65 (F := Ideal) x1 x8 (ix2 b f) = mean x8 x1 f b.val := by
  unfold mean
  rw [val_main_v65_apply, v57_at, v64_at, Ideal.hostDivf_def]

/-! ### The third node type: 150000 rows, one column -/

theorem idx_v67 (n : Fin 150000) : idx_main_v67 (ix2 n 0) = ix1 n := by
  funext a; match a with | ⟨0, _⟩ => rfl

theorem idx_v71 (n : Fin 150000) : idx_main_v71 (ix2 n 0) = ix1 n := by
  funext a; match a with | ⟨0, _⟩ => rfl

/-- The index array of the totals' scatter holds row n's id word at (n, 0). -/
theorem v67_at (x9 : (⟨S150000, .i32⟩ : BufTy).Contents (Elt Ideal)) (n : Fin 150000) :
    val_main_v67 (F := Ideal) x9 (ix2 n 0) = x9 (ix1 n) := by
  rw [val_main_v67_apply, idx_v67]

/-- The index array of the counts' scatter holds row n's id word at (n, 0). -/
theorem v71_at (x9 : (⟨S150000, .i32⟩ : BufTy).Contents (Elt Ideal)) (n : Fin 150000) :
    val_main_v71 (F := Ideal) x9 (ix2 n 0) = x9 (ix1 n) := by
  rw [val_main_v71_apply, idx_v71]

/-- The totals' scatter at (b, f) is segment b's total of column f. -/
theorem v68_at (x2 : (⟨S150000x1, .f32⟩ : BufTy).Contents (Elt Ideal)) (x9 : (⟨S150000, .i32⟩ : BufTy).Contents (Elt Ideal)) (b : Fin 64) :
    val_main_v68 (F := Ideal) x2 x9 (ix2 b 0) = total x9 x2 0 b.val := by
  unfold val_main_v68 total
  rw [scatterAdd_read_col scatter_S64x1_S150000x1_S150000x1_1_0_0_1 rfl (by norm_num) _ x9 _ (v67_at x9), val_main_v66_apply, val_main_cst_15_apply, Ideal.ofBits_def]

/-- Every update of the counts' scatter is the word of one. -/
theorem v69_at (j : S150000x1.Idx) : val_main_v69 (F := Ideal) j = oneW := by
  rw [val_main_v69_apply, val_main_cst_16_apply, Ideal.ofBits_def]

/-- The counts' scatter at (b, 0) is segment b's row count. -/
theorem v72_at (x9 : (⟨S150000, .i32⟩ : BufTy).Contents (Elt Ideal)) (b : Fin 64) :
    val_main_v72 (F := Ideal) x9 (ix2 b 0) = Pool.count x9 b.val := by
  unfold val_main_v72 Pool.count
  rw [scatterAdd_read_const scatter_S64x1_S150000x1_S150000x1_1_0_0_1 rfl (by norm_num) _ x9 _ (v71_at x9) _ oneW v69_at, val_main_v70_apply, val_main_cst_17_apply, Ideal.ofBits_def]

/-- The divisor at (b, 0): the count, an empty segment counted as one row. -/
theorem v74_at (x9 : (⟨S150000, .i32⟩ : BufTy).Contents (Elt Ideal)) (b : Fin 64) :
    val_main_v74 (F := Ideal) x9 (ix2 b 0) = max (Pool.count x9 b.val) oneW := by
  rw [val_main_v74_apply, v72_at, val_main_v73_apply, val_main_cst_18_apply, Ideal.maximumf_def, Ideal.ofBits_def]

/-- The quotient at (b, f) is segment b's mean of column f. -/
theorem v75_at (x2 : (⟨S150000x1, .f32⟩ : BufTy).Contents (Elt Ideal)) (x9 : (⟨S150000, .i32⟩ : BufTy).Contents (Elt Ideal)) (b : Fin 64) :
    val_main_v75 (F := Ideal) x2 x9 (ix2 b 0) = mean x9 x2 0 b.val := by
  unfold mean
  rw [val_main_v75_apply, v68_at, v74_at, Ideal.hostDivf_def]

/-! ### The four pooled columns side by side -/

theorem v76_col0 (x0 : (⟨S100000x1, .f32⟩ : BufTy).Contents (Elt Ideal)) (x1 : (⟨S400000x2, .f32⟩ : BufTy).Contents (Elt Ideal)) (x2 : (⟨S150000x1, .f32⟩ : BufTy).Contents (Elt Ideal)) (x7 : (⟨S100000, .i32⟩ : BufTy).Contents (Elt Ideal)) (x8 : (⟨S400000, .i32⟩ : BufTy).Contents (Elt Ideal)) (x9 : (⟨S150000, .i32⟩ : BufTy).Contents (Elt Ideal)) (b : Fin 64) :
    val_main_v76 (F := Ideal) x0 x1 x2 x7 x8 x9 (ix2 b 0) = val_main_v54 (F := Ideal) x0 x7 (ix2 b 0) := by
  unfold val_main_v76
  refine concatenate_apply_piece (t := S64x4) (1 : Fin 2) [⟨S64x1, (val_main_v54 (F := Ideal) x0 x7)⟩, ⟨S64x2, (val_main_v65 (F := Ideal) x1 x8)⟩, ⟨S64x1, (val_main_v75 (F := Ideal) x2 x9)⟩]
    concatenates_S64x1_S64x2_S64x1_S64x4_d1 (ix2 b 0) 0 (show (0 : ℕ) < 3 by decide) S64x1 (val_main_v54 (F := Ideal) x0 x7) rfl rfl 0 rfl
    (ix2 b 0) ?_ rfl
  intro a ha
  match a with
  | ⟨0, _⟩ => rfl
  | ⟨1, _⟩ => exact absurd rfl ha

theorem v76_col1 (x0 : (⟨S100000x1, .f32⟩ : BufTy).Contents (Elt Ideal)) (x1 : (⟨S400000x2, .f32⟩ : BufTy).Contents (Elt Ideal)) (x2 : (⟨S150000x1, .f32⟩ : BufTy).Contents (Elt Ideal)) (x7 : (⟨S100000, .i32⟩ : BufTy).Contents (Elt Ideal)) (x8 : (⟨S400000, .i32⟩ : BufTy).Contents (Elt Ideal)) (x9 : (⟨S150000, .i32⟩ : BufTy).Contents (Elt Ideal)) (b : Fin 64) :
    val_main_v76 (F := Ideal) x0 x1 x2 x7 x8 x9 (ix2 b 1) = val_main_v65 (F := Ideal) x1 x8 (ix2 b 0) := by
  unfold val_main_v76
  refine concatenate_apply_piece (t := S64x4) (1 : Fin 2) [⟨S64x1, (val_main_v54 (F := Ideal) x0 x7)⟩, ⟨S64x2, (val_main_v65 (F := Ideal) x1 x8)⟩, ⟨S64x1, (val_main_v75 (F := Ideal) x2 x9)⟩]
    concatenates_S64x1_S64x2_S64x1_S64x4_d1 (ix2 b 1) 1 (show (1 : ℕ) < 3 by decide) S64x2 (val_main_v65 (F := Ideal) x1 x8) rfl rfl 1 rfl
    (ix2 b 0) ?_ rfl
  intro a ha
  match a with
  | ⟨0, _⟩ => rfl
  | ⟨1, _⟩ => exact absurd rfl ha

theorem v76_col2 (x0 : (⟨S100000x1, .f32⟩ : BufTy).Contents (Elt Ideal)) (x1 : (⟨S400000x2, .f32⟩ : BufTy).Contents (Elt Ideal)) (x2 : (⟨S150000x1, .f32⟩ : BufTy).Contents (Elt Ideal)) (x7 : (⟨S100000, .i32⟩ : BufTy).Contents (Elt Ideal)) (x8 : (⟨S400000, .i32⟩ : BufTy).Contents (Elt Ideal)) (x9 : (⟨S150000, .i32⟩ : BufTy).Contents (Elt Ideal)) (b : Fin 64) :
    val_main_v76 (F := Ideal) x0 x1 x2 x7 x8 x9 (ix2 b 2) = val_main_v65 (F := Ideal) x1 x8 (ix2 b 1) := by
  unfold val_main_v76
  refine concatenate_apply_piece (t := S64x4) (1 : Fin 2) [⟨S64x1, (val_main_v54 (F := Ideal) x0 x7)⟩, ⟨S64x2, (val_main_v65 (F := Ideal) x1 x8)⟩, ⟨S64x1, (val_main_v75 (F := Ideal) x2 x9)⟩]
    concatenates_S64x1_S64x2_S64x1_S64x4_d1 (ix2 b 2) 1 (show (1 : ℕ) < 3 by decide) S64x2 (val_main_v65 (F := Ideal) x1 x8) rfl rfl 1 rfl
    (ix2 b 1) ?_ rfl
  intro a ha
  match a with
  | ⟨0, _⟩ => rfl
  | ⟨1, _⟩ => exact absurd rfl ha

theorem v76_col3 (x0 : (⟨S100000x1, .f32⟩ : BufTy).Contents (Elt Ideal)) (x1 : (⟨S400000x2, .f32⟩ : BufTy).Contents (Elt Ideal)) (x2 : (⟨S150000x1, .f32⟩ : BufTy).Contents (Elt Ideal)) (x7 : (⟨S100000, .i32⟩ : BufTy).Contents (Elt Ideal)) (x8 : (⟨S400000, .i32⟩ : BufTy).Contents (Elt Ideal)) (x9 : (⟨S150000, .i32⟩ : BufTy).Contents (Elt Ideal)) (b : Fin 64) :
    val_main_v76 (F := Ideal) x0 x1 x2 x7 x8 x9 (ix2 b 3) = val_main_v75 (F := Ideal) x2 x9 (ix2 b 0) := by
  unfold val_main_v76
  refine concatenate_apply_piece (t := S64x4) (1 : Fin 2) [⟨S64x1, (val_main_v54 (F := Ideal) x0 x7)⟩, ⟨S64x2, (val_main_v65 (F := Ideal) x1 x8)⟩, ⟨S64x1, (val_main_v75 (F := Ideal) x2 x9)⟩]
    concatenates_S64x1_S64x2_S64x1_S64x4_d1 (ix2 b 3) 2 (show (2 : ℕ) < 3 by decide) S64x1 (val_main_v75 (F := Ideal) x2 x9) rfl rfl 3 rfl
    (ix2 b 0) ?_ rfl
  intro a ha
  match a with
  | ⟨0, _⟩ => rfl
  | ⟨1, _⟩ => exact absurd rfl ha

/-- The joined array at (b, k) is graph b's k-th pooled feature: column 0 from the first type, columns 1 and 2 from
    the second, column 3 from the third. -/
theorem v76_at (x0 : (⟨S100000x1, .f32⟩ : BufTy).Contents (Elt Ideal)) (x1 : (⟨S400000x2, .f32⟩ : BufTy).Contents (Elt Ideal)) (x2 : (⟨S150000x1, .f32⟩ : BufTy).Contents (Elt Ideal)) (x7 : (⟨S100000, .i32⟩ : BufTy).Contents (Elt Ideal)) (x8 : (⟨S400000, .i32⟩ : BufTy).Contents (Elt Ideal)) (x9 : (⟨S150000, .i32⟩ : BufTy).Contents (Elt Ideal)) (b : Fin 64) (k : Fin 4) :
    val_main_v76 (F := Ideal) x0 x1 x2 x7 x8 x9 (ix2 b k) = pooled x0 x1 x2 x7 x8 x9 b.val k := by
  match k with
  | ⟨0, _⟩ => exact (v76_col0 x0 x1 x2 x7 x8 x9 b).trans (v54_at x0 x7 b)
  | ⟨1, _⟩ => exact (v76_col1 x0 x1 x2 x7 x8 x9 b).trans (v65_at x1 x8 b 0)
  | ⟨2, _⟩ => exact (v76_col2 x0 x1 x2 x7 x8 x9 b).trans (v65_at x1 x8 b 1)
  | ⟨3, _⟩ => exact (v76_col3 x0 x1 x2 x7 x8 x9 b).trans (v75_at x2 x9 b)

/-! ### The perceptron -/

theorem lidx_v77 (b : Fin 64) (j : Fin 128) (k : Fin 4) : lidx_main_v77 (ix2 b j) k = ix2 b k := by
  funext a; match a with | ⟨0, _⟩ => rfl | ⟨1, _⟩ => rfl

theorem ridx_v77 (b : Fin 64) (j : Fin 128) (k : Fin 4) : ridx_main_v77 (ix2 b j) k = ix2 k j := by
  funext a; match a with | ⟨0, _⟩ => rfl | ⟨1, _⟩ => rfl

/-- The first product at (b, j): the pooled features against column j of the first weights. -/
theorem v77_at (x0 : (⟨S100000x1, .f32⟩ : BufTy).Contents (Elt Ideal)) (x1 : (⟨S400000x2, .f32⟩ : BufTy).Contents (Elt Ideal)) (x2 : (⟨S150000x1, .f32⟩ : BufTy).Contents (Elt Ideal)) (x7 : (⟨S100000, .i32⟩ : BufTy).Contents (Elt Ideal)) (x8 : (⟨S400000, .i32⟩ : BufTy).Contents (Elt Ideal)) (x9 : (⟨S150000, .i32⟩ : BufTy).Contents (Elt Ideal)) (x22 : (⟨S4x128, .f32⟩ : BufTy).Contents (Elt Ideal)) (b : Fin 64) (j : Fin 128) :
    val_main_v77 (F := Ideal) x0 x1 x2 x7 x8 x9 x22 (ix2 b j) = ∑ k : Fin 4, pooled x0 x1 x2 x7 x8 x9 b.val k * x22 (ix2 k j) := by
  rw [val_main_v77_apply]
  refine Finset.sum_congr rfl fun k _ => ?_
  rw [lidx_v77, ridx_v77, v76_at]

theorem idx_v79 (b : Fin 64) (j : Fin 128) : idx_main_v78 (idx_main_v79 (ix2 b j)) = ix1 j := by
  funext a; match a with | ⟨0, _⟩ => rfl

/-- The first bias spread along the graphs. -/
theorem v79_at (x23 : (⟨S128, .f32⟩ : BufTy).Contents (Elt Ideal)) (b : Fin 64) (j : Fin 128) : val_main_v79 (F := Ideal) x23 (ix2 b j) = x23 (ix1 j) := by
  rw [val_main_v79_apply, val_main_v78_apply, idx_v79]

theorem call3_at (i : S64x128.Idx) : val_main_call3_v0 (F := Ideal) i = zeroW := by
  rw [val_main_call3_v0_apply, val_main_call3_cst_apply, Ideal.ofBits_def]

/-- The first layer. -/
theorem v81_at (x0 : (⟨S100000x1, .f32⟩ : BufTy).Contents (Elt Ideal)) (x1 : (⟨S400000x2, .f32⟩ : BufTy).Contents (Elt Ideal)) (x2 : (⟨S150000x1, .f32⟩ : BufTy).Contents (Elt Ideal)) (x7 : (⟨S100000, .i32⟩ : BufTy).Contents (Elt Ideal)) (x8 : (⟨S400000, .i32⟩ : BufTy).Contents (Elt Ideal)) (x9 : (⟨S150000, .i32⟩ : BufTy).Contents (Elt Ideal)) (x22 : (⟨S4x128, .f32⟩ : BufTy).Contents (Elt Ideal)) (x23 : (⟨S128, .f32⟩ : BufTy).Contents (Elt Ideal)) (b : Fin 64) (j : Fin 128) :
    val_main_v81 (F := Ideal) x0 x1 x2 x7 x8 x9 x22 x23 (ix2 b j) = layer1 x0 x1 x2 x7 x8 x9 x22 x23 b.val j := by
  unfold layer1
  rw [val_main_v81_apply, val_main_v80_apply, v77_at, v79_at, call3_at, Ideal.maximumf_def, Ideal.addf_def]

theorem lidx_v82 (b : Fin 64) (j : Fin 128) (k : Fin 128) : lidx_main_v82 (ix2 b j) k = ix2 b k := by
  funext a; match a with | ⟨0, _⟩ => rfl | ⟨1, _⟩ => rfl

theorem ridx_v82 (b : Fin 64) (j : Fin 128) (k : Fin 128) : ridx_main_v82 (ix2 b j) k = ix2 k j := by
  funext a; match a with | ⟨0, _⟩ => rfl | ⟨1, _⟩ => rfl

/-- The second product at (b, j). -/
theorem v82_at (x0 : (⟨S100000x1, .f32⟩ : BufTy).Contents (Elt Ideal)) (x1 : (⟨S400000x2, .f32⟩ : BufTy).Contents (Elt Ideal)) (x2 : (⟨S150000x1, .f32⟩ : BufTy).Contents (Elt Ideal)) (x7 : (⟨S100000, .i32⟩ : BufTy).Contents (Elt Ideal)) (x8 : (⟨S400000, .i32⟩ : BufTy).Contents (Elt Ideal)) (x9 : (⟨S150000, .i32⟩ : BufTy).Contents (Elt Ideal)) (x22 : (⟨S4x128, .f32⟩ : BufTy).Contents (Elt Ideal)) (x23 : (⟨S128, .f32⟩ : BufTy).Contents (Elt Ideal)) (x24 : (⟨S128x128, .f32⟩ : BufTy).Contents (Elt Ideal)) (b : Fin 64) (j : Fin 128) :
    val_main_v82 (F := Ideal) x0 x1 x2 x7 x8 x9 x22 x23 x24 (ix2 b j) = ∑ k : Fin 128, layer1 x0 x1 x2 x7 x8 x9 x22 x23 b.val k * x24 (ix2 k j) := by
  rw [val_main_v82_apply]
  refine Finset.sum_congr rfl fun k _ => ?_
  rw [lidx_v82, ridx_v82, v81_at]

theorem idx_v84 (b : Fin 64) (j : Fin 128) : idx_main_v83 (idx_main_v84 (ix2 b j)) = ix1 j := by
  funext a; match a with | ⟨0, _⟩ => rfl

/-- The second bias spread along the graphs. -/
theorem v84_at (x25 : (⟨S128, .f32⟩ : BufTy).Contents (Elt Ideal)) (b : Fin 64) (j : Fin 128) : val_main_v84 (F := Ideal) x25 (ix2 b j) = x25 (ix1 j) := by
  rw [val_main_v84_apply, val_main_v83_apply, idx_v84]

theorem call4_at (i : S64x128.Idx) : val_main_call4_v0 (F := Ideal) i = zeroW := by
  rw [val_main_call4_v0_apply, val_main_call4_cst_apply, Ideal.ofBits_def]

/-- The second layer. -/
theorem v86_at (x0 : (⟨S100000x1, .f32⟩ : BufTy).Contents (Elt Ideal)) (x1 : (⟨S400000x2, .f32⟩ : BufTy).Contents (Elt Ideal)) (x2 : (⟨S150000x1, .f32⟩ : BufTy).Contents (Elt Ideal)) (x7 : (⟨S100000, .i32⟩ : BufTy).Contents (Elt Ideal)) (x8 : (⟨S400000, .i32⟩ : BufTy).Contents (Elt Ideal)) (x9 : (⟨S150000, .i32⟩ : BufTy).Contents (Elt Ideal)) (x22 : (⟨S4x128, .f32⟩ : BufTy).Contents (Elt Ideal)) (x23 : (⟨S128, .f32⟩ : BufTy).Contents (Elt Ideal)) (x24 : (⟨S128x128, .f32⟩ : BufTy).Contents (Elt Ideal)) (x25 : (⟨S128, .f32⟩ : BufTy).Contents (Elt Ideal)) (b : Fin 64) (j : Fin 128) :
    val_main_v86 (F := Ideal) x0 x1 x2 x7 x8 x9 x22 x23 x24 x25 (ix2 b j) = layer2 x0 x1 x2 x7 x8 x9 x22 x23 x24 x25 b.val j := by
  unfold layer2
  rw [val_main_v86_apply, val_main_v85_apply, v82_at, v84_at, call4_at, Ideal.maximumf_def, Ideal.addf_def]

theorem lidx_v87 (b : Fin 64) (j : Fin 10) (k : Fin 128) : lidx_main_v87 (ix2 b j) k = ix2 b k := by
  funext a; match a with | ⟨0, _⟩ => rfl | ⟨1, _⟩ => rfl

theorem ridx_v87 (b : Fin 64) (j : Fin 10) (k : Fin 128) : ridx_main_v87 (ix2 b j) k = ix2 k j := by
  funext a; match a with | ⟨0, _⟩ => rfl | ⟨1, _⟩ => rfl

/-- The third product at (b, j). -/
theorem v87_at (x0 : (⟨S100000x1, .f32⟩ : BufTy).Contents (Elt Ideal)) (x1 : (⟨S400000x2, .f32⟩ : BufTy).Contents (Elt Ideal)) (x2 : (⟨S150000x1, .f32⟩ : BufTy).Contents (Elt Ideal)) (x7 : (⟨S100000, .i32⟩ : BufTy).Contents (Elt Ideal)) (x8 : (⟨S400000, .i32⟩ : BufTy).Contents (Elt Ideal)) (x9 : (⟨S150000, .i32⟩ : BufTy).Contents (Elt Ideal)) (x22 : (⟨S4x128, .f32⟩ : BufTy).Contents (Elt Ideal)) (x23 : (⟨S128, .f32⟩ : BufTy).Contents (Elt Ideal)) (x24 : (⟨S128x128, .f32⟩ : BufTy).Contents (Elt Ideal)) (x25 : (⟨S128, .f32⟩ : BufTy).Contents (Elt Ideal)) (x26 : (⟨S128x10, .f32⟩ : BufTy).Contents (Elt Ideal)) (b : Fin 64) (j : Fin 10) :
    val_main_v87 (F := Ideal) x0 x1 x2 x7 x8 x9 x22 x23 x24 x25 x26 (ix2 b j) = ∑ k : Fin 128, layer2 x0 x1 x2 x7 x8 x9 x22 x23 x24 x25 b.val k * x26 (ix2 k j) := by
  rw [val_main_v87_apply]
  refine Finset.sum_congr rfl fun k _ => ?_
  rw [lidx_v87, ridx_v87, v86_at]

theorem idx_v89 (b : Fin 64) (j : Fin 10) : idx_main_v88 (idx_main_v89 (ix2 b j)) = ix1 j := by
  funext a; match a with | ⟨0, _⟩ => rfl

/-- The third bias spread along the graphs. -/
theorem v89_at (x27 : (⟨S10, .f32⟩ : BufTy).Contents (Elt Ideal)) (b : Fin 64) (j : Fin 10) : val_main_v89 (F := Ideal) x27 (ix2 b j) = x27 (ix1 j) := by
  rw [val_main_v89_apply, val_main_v88_apply, idx_v89]

/-- The result at (b, j). -/
theorem v90_at (x0 : (⟨S100000x1, .f32⟩ : BufTy).Contents (Elt Ideal)) (x1 : (⟨S400000x2, .f32⟩ : BufTy).Contents (Elt Ideal)) (x2 : (⟨S150000x1, .f32⟩ : BufTy).Contents (Elt Ideal)) (x7 : (⟨S100000, .i32⟩ : BufTy).Contents (Elt Ideal)) (x8 : (⟨S400000, .i32⟩ : BufTy).Contents (Elt Ideal)) (x9 : (⟨S150000, .i32⟩ : BufTy).Contents (Elt Ideal)) (x22 : (⟨S4x128, .f32⟩ : BufTy).Contents (Elt Ideal)) (x23 : (⟨S128, .f32⟩ : BufTy).Contents (Elt Ideal)) (x24 : (⟨S128x128, .f32⟩ : BufTy).Contents (Elt Ideal)) (x25 : (⟨S128, .f32⟩ : BufTy).Contents (Elt Ideal)) (x26 : (⟨S128x10, .f32⟩ : BufTy).Contents (Elt Ideal)) (x27 : (⟨S10, .f32⟩ : BufTy).Contents (Elt Ideal)) (b : Fin 64) (j : Fin 10) :
    val_main_v90 (F := Ideal) x0 x1 x2 x7 x8 x9 x22 x23 x24 x25 x26 x27 (ix2 b j) = logits x0 x1 x2 x7 x8 x9 x22 x23 x24 x25 x26 x27 b.val j := by
  unfold logits
  rw [val_main_v90_apply, v87_at, v89_at, Ideal.addf_def]

/-- THE REFERENCE'S VALUE IS THE SPECIFICATION. -/
theorem result_eq (x0 : (⟨S100000x1, .f32⟩ : BufTy).Contents (Elt Ideal)) (x1 : (⟨S400000x2, .f32⟩ : BufTy).Contents (Elt Ideal)) (x2 : (⟨S150000x1, .f32⟩ : BufTy).Contents (Elt Ideal)) (x7 : (⟨S100000, .i32⟩ : BufTy).Contents (Elt Ideal)) (x8 : (⟨S400000, .i32⟩ : BufTy).Contents (Elt Ideal)) (x9 : (⟨S150000, .i32⟩ : BufTy).Contents (Elt Ideal)) (x22 : (⟨S4x128, .f32⟩ : BufTy).Contents (Elt Ideal)) (x23 : (⟨S128, .f32⟩ : BufTy).Contents (Elt Ideal)) (x24 : (⟨S128x128, .f32⟩ : BufTy).Contents (Elt Ideal)) (x25 : (⟨S128, .f32⟩ : BufTy).Contents (Elt Ideal)) (x26 : (⟨S128x10, .f32⟩ : BufTy).Contents (Elt Ideal)) (x27 : (⟨S10, .f32⟩ : BufTy).Contents (Elt Ideal)) :
    Cert.ReferenceIdeal.Read.val_main_v90 (F := Ideal) x0 x1 x2 x7 x8 x9 x22 x23 x24 x25 x26 x27 = Cert.Pool.result x0 x1 x2 x7 x8 x9 x22 x23 x24 x25 x26 x27 := by
  funext i
  obtain ⟨b, j, rfl⟩ : ∃ (b : Fin 64) (j : Fin 10), i = ix2 b j := ⟨i 0, i 1, eq_ix2 i⟩
  exact v90_at x0 x1 x2 x7 x8 x9 x22 x23 x24 x25 x26 x27 b j

end Cert.ReferenceIdeal.RefValue

end
-- ==== Proof.lean ====
/-
  The kernel pools three node types' features per graph and classifies each graph; its reference does the same.

  For a node type with rows n, id words g n and a feature column x, both programs form, for each of the 64 graphs b, the
  total  zero + ∑ over the rows with g n = b of x n  and the count  zero + ∑ over those rows of one, and divide the total by
  max(count, one): the reference by an accumulating scatter (rows whose id is no graph's are dropped), the kernel by a
  one-hot matrix product over stretches of 8192 rows whose partial sums it adds up, the rows padded with the id word 64,
  which is no graph's.  Both sums are the same sum over the same rows: only the grouping differs, and the extended reals'
  addition is associative.  The four pooled columns then go through the same three-layer perceptron, operation by
  operation.  Both sides are shown equal to one function of the arguments (Spec.lean): the kernel's result array in
  KernelValue.lean (CaseA, CaseB, CaseC: what each grid point leaves; HostSide: the padded arrays), the reference's in
  RefValue.lean (ScatterRead: the scatter at an index).  Finiteness of the inputs is never used.
-/
import proofs.«430187_j28956669509884_3_alg».proof.Defs
import proofs.«430187_j28956669509884_3_alg».proof.Proof.Gen.Kernel
import proofs.«430187_j28956669509884_3_alg».proof.Proof.Gen.Kernel.Skeleton
import proofs.«430187_j28956669509884_3_alg».proof.Proof.Gen.Kernel.Launch
import proofs.«430187_j28956669509884_3_alg».proof.Proof.Gen.Kernel.Points
import proofs.«430187_j28956669509884_3_alg».proof.Proof.Gen.Kernel.Frame
import proofs.«430187_j28956669509884_3_alg».proof.Proof.Gen.KernelIdeal
import proofs.«430187_j28956669509884_3_alg».proof.Proof.Gen.KernelIdeal.Skeleton
import proofs.«430187_j28956669509884_3_alg».proof.Proof.Gen.KernelIdeal.Launch
import proofs.«430187_j28956669509884_3_alg».proof.Proof.Gen.KernelIdeal.Points
import proofs.«430187_j28956669509884_3_alg».proof.Proof.Gen.KernelIdeal.Frame
import proofs.«430187_j28956669509884_3_alg».proof.Proof.Gen.ReferenceIdeal
import proofs.«430187_j28956669509884_3_alg».proof.Proof.Gen.Pre_finite_inputs
import proofs.«430187_j28956669509884_3_alg».proof.Proof.Gen.KernelIdeal.Value
import proofs.«430187_j28956669509884_3_alg».proof.Proof.Gen.ReferenceIdeal.Run
import proofs.«430187_j28956669509884_3_alg».proof.Proof.Gen.ReferenceIdeal.Read
import proofs.«430187_j28956669509884_3_alg».proof.Proof.KernelValue
import proofs.«430187_j28956669509884_3_alg».proof.Proof.RefValue
import Idealize.ShloMosaic.Adequacy
import Idealize.ShloMosaic.Init

noncomputable section

namespace Cert.Proof

open Idealize.ShloMosaic Idealize.ShloMosaic.TcCoe Idealize.SL.Sem

namespace Claims

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both runs end with the specification's result of their arguments, and the arguments agree. -/
theorem algebraic : Cert.algebraic_KernelIdeal_ReferenceIdeal := by
  intro m ρ m' ρ' _ hagree
  refine ⟨fun c => Cert.KernelIdeal.KValue.res m c, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13, h14, h15, h16, h17, h18, h19, h20, h21, h22, h23, h24, h25, h26, h27⟩ := hagree c
  rw [Cert.ReferenceIdeal.Read.val_main_v90_eq, Cert.ReferenceIdeal.RefValue.result_eq, h0, h1, h2, h7, h8, h9, h22, h23, h24, h25, h26, h27]

end Claims

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
